-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x3CB504F3#32 ((262144 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) (main_arg1 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S4096x2048 : Shape := ⟨2, ![4096, 2048]⟩
abbrev S4096x4096 : Shape := ⟨2, ![4096, 4096]⟩
abbrev S256x2048 : Shape := ⟨2, ![256, 2048]⟩
abbrev S512x2048 : Shape := ⟨2, ![512, 2048]⟩
abbrev S256x4096 : Shape := ⟨2, ![256, 4096]⟩
abbrev S256x512 : Shape := ⟨2, ![256, 512]⟩
abbrev S256 : Shape := ⟨1, ![256]⟩
abbrev S256x1 : Shape := ⟨2, ![256, 1]⟩

abbrev nBuf : Space → Nat
  | .hbm => 3
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x4096, .f32⟩
  | .local _ .vmem, ⟨0, _⟩ => ⟨S256x2048, .f32⟩
  | .local _ .vmem, ⟨1, _⟩ => ⟨S256x2048, .f32⟩
  | .local _ .vmem, ⟨2, _⟩ => ⟨S512x2048, .f32⟩
  | .local _ .vmem, ⟨3, _⟩ => ⟨S512x2048, .f32⟩
  | .local _ .vmem, ⟨4, _⟩ => ⟨S256x4096, .f32⟩
  | .local _ .vmem, ⟨5, _⟩ => ⟨S256x4096, .f32⟩
  | .local _ .vmem, ⟨6, _⟩ => ⟨S4096x2048, .bf16⟩
  | .local _ .vmem, ⟨7, _⟩ => ⟨S256x2048, .bf16⟩
  | .local _ .vmem, ⟨8, _⟩ => ⟨S256x4096, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off1 (i : grid0.Coords) : Fin 2 → Nat :=
  let arg1 : BitVec 32 := BitVec.ofNat 32 (i 1).val
  let c512_i32_10 : BitVec 32 := 512#32
  let v21 : BitVec 32 := Scalar.muli arg1 c512_i32_10
  let v22 : Index := Scalar.indexCast v21
  let c0_11 : Index := 0#32
  ![v22.toNat, 0]
def k0_off2 (i : grid0.Coords) : Fin 2 → Nat :=
  let arg1 : BitVec 32 := BitVec.ofNat 32 (i 1).val
  let c512_i32 : BitVec 32 := 512#32
  let v7 : BitVec 32 := Scalar.muli arg1 c512_i32
  let v8 : Index := Scalar.indexCast v7
  let c0_4 : Index := 0#32
  ![v8.toNat, 0]
def k0_off3 (i : grid0.Coords) : Fin 2 → Nat :=
  let c0_6 : Index := 0#32
  let arg1 : BitVec 32 := BitVec.ofNat 32 (i 1).val
  let c512_i32_5 : BitVec 32 := 512#32
  let v11 : BitVec 32 := Scalar.muli arg1 c512_i32_5
  let v12 : Index := Scalar.indexCast v11
  ![0, v12.toNat]
def k0_cond3 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  shapeCasts_S256x2048_S256x2048 : S256x2048.ShapeCasts S256x2048
  packedbf16_S256x2048_S256x2048_0_0 : (Rect.unit (s := S256x2048) ![0, 0] S256x2048.size inb_S256x2048_S256x2048_0_0).PackedRows (EltTy.packing .bf16)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  h_S256x512 : 0 < S256x512.numel
  shapeCasts_S256x512_S256x512 : S256x512.ShapeCasts S256x512
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  dot_S256x2048_S512x2048_S256x512_1_1_0_0_n_n_wf : DotDims.WF S256x2048 S512x2048 S256x512 [1] [1] [0] [0] [] []
  hrank0 : 0 < grid0.rank
  k0_off1_inb : ∀ i : grid0.Coords, ∀ (k0_h2 : k0_cond2 i = 1#1), ∀ a, (k0_off1 i) a + S512x2048.size a ≤ S4096x2048.size a
  k0_off1_packedbf16 : ∀ i : grid0.Coords, ∀ (k0_h2 : k0_cond2 i = 1#1), (Rect.unit (s := S4096x2048) (k0_off1 i) S512x2048.size (k0_off1_inb i k0_h2)).PackedRows (EltTy.packing .bf16)
  k0_off2_inb : ∀ i : grid0.Coords, ∀ a, (k0_off2 i) a + S512x2048.size a ≤ S4096x2048.size a
  k0_off3_inb : ∀ i : grid0.Coords, ∀ a, (k0_off3 i) a + S256x512.size a ≤ S256x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)

variable [Facts₀]

def dot_S256x2048_S512x2048_S256x512_1_1_0_0_n_n : DotDims S256x2048 S512x2048 S256x512 where
  lhsContracting := [1]
  rhsContracting := [1]
  lhsNonContracting := [0]
  rhsNonContracting := [0]
  lhsBatch := []
  rhsBatch := []
  wf := dot_S256x2048_S512x2048_S256x512_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x4096 : Shape := ⟨2, ![2048, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 21
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S4096x4096, .f32⟩
  | .hbm, ⟨20, _⟩ => ⟨S4096x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  transposes_S4096x2048_S2048x4096_1_0 : S4096x2048.Transposes [1, 0] S2048x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x2048_S2048x4096_S4096x4096_1_0_0_1_n_n_wf : DotDims.WF S4096x2048 S2048x4096 S4096x4096 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.K.Grid.lean ====
/-
  The grid of the fused attention kernel is 16 row blocks by 8 key chunks, point t = 8·r + c. This module decides, once
  over the 128 points, what the body's three branches and its slice offsets are at point t:
  the query block is rescaled when c = 0 (t % 8 = 0), the key chunk is saved when r = 0 (t < 8), the row softmax is
  taken when c = 7 (t % 8 = 7); the key chunk c occupies rows [512·c, 512·c + 512) of the key scratch and the logits
  chunk c columns [512·c, 512·c + 512) of the logits scratch. It also names the staging and scratch memrefs the body
  is called with, and restates the region's class invariant over the three scratch memrefs.
-/
import proofs.«180405_g721554506538_bridgefix_236_8_alg».proof.Proof.Gen.Kernel.Frame
import proofs.«180405_g721554506538_bridgefix_236_8_alg».proof.Proof.Gen.Kernel.Skeleton
import Idealize.ShloMosaic.Lib.ValueIdx
import Idealize.ShloMosaic.Lib.WritesUnit

set_option maxRecDepth 16384

noncomputable section

namespace Cert.Kernel.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The first branch (rescale and cast the query block) is taken when the chunk coordinate is 0. -/
abbrev cond0_0 (i : grid0.Coords) : Prop := (Scalar.cmpi .ne (Scalar.extui (Scalar.cmpi .eq (BitVec.ofNat 32 (i 1).val) 0#32)) 0#32) = 1#1
/-- The second branch (cast and save the key chunk) is taken when the row-block coordinate is 0. -/
abbrev cond0_1 (i : grid0.Coords) : Prop := k0_cond2 i = 1#1
/-- The third branch (the row softmax) is taken when the chunk coordinate is 7. -/
abbrev cond0_2 (i : grid0.Coords) : Prop := k0_cond3 i = 1#1

theorem hcond0_0 : ∀ t : Fin cfg0.N, cond0_0 (grid0.coords t) ↔ t.val % 8 = 0 :=
  (by decide +kernel : ∀ t : Fin grid0.N, cond0_0 (grid0.coords t) ↔ t.val % 8 = 0)
theorem hcond0_1 : ∀ t : Fin cfg0.N, cond0_1 (grid0.coords t) ↔ t.val < 8 :=
  (by decide +kernel : ∀ t : Fin grid0.N, cond0_1 (grid0.coords t) ↔ t.val < 8)
theorem hcond0_2 : ∀ t : Fin cfg0.N, cond0_2 (grid0.coords t) ↔ t.val % 8 = 7 :=
  (by decide +kernel : ∀ t : Fin grid0.N, cond0_2 (grid0.coords t) ↔ t.val % 8 = 7)

/-! ## The slice offsets -/

/-- The key chunk stored at point t starts at row 512·(t % 8). -/
theorem off1_eq : ∀ t : Fin cfg0.N, k0_off1 (grid0.coords t) = ![512 * (t.val % 8), 0] :=
  (by decide +kernel : ∀ t : Fin grid0.N, k0_off1 (grid0.coords t) = ![512 * (t.val % 8), 0])
/-- The key chunk loaded at point t starts at row 512·(t % 8). -/
theorem off2_eq : ∀ t : Fin cfg0.N, k0_off2 (grid0.coords t) = ![512 * (t.val % 8), 0] :=
  (by decide +kernel : ∀ t : Fin grid0.N, k0_off2 (grid0.coords t) = ![512 * (t.val % 8), 0])
/-- The logits chunk stored at point t starts at column 512·(t % 8). -/
theorem off3_eq : ∀ t : Fin cfg0.N, k0_off3 (grid0.coords t) = ![0, 512 * (t.val % 8)] :=
  (by decide +kernel : ∀ t : Fin grid0.N, k0_off3 (grid0.coords t) = ![0, 512 * (t.val % 8)])

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last chunk the output window is idle (the body stores nothing into it) -/
theorem idleAt0_2 : ∀ t : Fin cfg0.N, ¬cond0_2 (grid0.coords t) → cfg0.idle 2 (grid0.coords t) = true := by decide +kernel
/-- and is not written back; -/
theorem noFlush0_2 : ∀ t : Fin cfg0.N, ¬cond0_2 (grid0.coords t) → (cfg0.win 2).flush t = false := by decide +kernel
/-- at the last chunk it is live. -/
theorem liveAt0_2 : ∀ t : Fin cfg0.N, cond0_2 (grid0.coords t) → cfg0.idle 2 (grid0.coords t) = false := by decide +kernel

/-! ## The memrefs the body is called with -/

abbrev ms0_0 (t : Fin cfg0.N) : Memref sig .tc .vmem S256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x4096 .f32 := win0_2.stage (cfg0.slots t 2)
abbrev hs0_2 (t : Fin cfg0.N) : (ms0_2 t).IsWhole := hstage0_2 ((cfg0.slots t 2).cast nbuf0_2)
/-- The key scratch (all 4096 key rows, cast), the query scratch (one rescaled row block) and the logits scratch
    (one row block against all keys). -/
abbrev scM0_0 : Memref sig .tc .vmem S4096x2048 .bf16 := Memref.whole cc0_scratch0
abbrev scM0_1 : Memref sig .tc .vmem S256x2048 .bf16 := Memref.whole cc0_scratch1
abbrev scM0_2 : Memref sig .tc .vmem S256x4096 .f32 := Memref.whole cc0_scratch2

/-- The region's class invariant: the three scratch memrefs each owned at some contents, and the generator register
    at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.K.Spec.lean ====
/-
  What the body's scratches and its output hold, as functions of the windows' blocks.
  At point n = 8·r + c the query scratch holds the rescaled, cast query block of row block r (fetched at point 8·r);
  rows [512·j, 512·j + 512) of the key scratch hold the cast key chunk j (the key window's block at point j, for
  j < 8, which is where row block 0 fetches it); columns [512·j, 512·j + 512) of the logits scratch hold the product
  of that query block with key chunk j; and at c = 7 the output block is the row softmax of the whole logits block.
-/
import proofs.«180405_g721554506538_bridgefix_236_8_alg».proof.Proof.K.Grid
import Idealize.ShloMosaic.Lib.ValueIdx

set_option maxRecDepth 16384

noncomputable section

namespace Cert.Kernel.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The query window's block at point `n`. -/
def qblk (c : Dev nD) (n : ℕ) (h : n < 128) : Vec F S256x2048 .f32 := iblk m c 0 ⟨n, lt_of_lt_of_eq h N_0.symm⟩
/-- The key window's block at point `n`. -/
def kblk (c : Dev nD) (n : ℕ) (h : n < 128) : Vec F S512x2048 .f32 := iblk m c 1 ⟨n, lt_of_lt_of_eq h N_0.symm⟩

/-- The query scratch at the points of row block `n / 8`: the block fetched at the row block's first point, rescaled and cast. -/
def Qs (c : Dev nD) (n : ℕ) (h : n < 128) : Vec F S256x2048 .bf16 := k0_pay1 (qblk m c (8 * (n / 8)) (by omega))
/-- Key chunk `j`, cast: the key window's block at point `j` of the first row block. -/
def Kc (c : Dev nD) (j : ℕ) (h : j < 8) : Vec F S512x2048 .bf16 := k0_pay2 (kblk m c j (by omega))
/-- The key scratch, entry by entry: row `y 0` lies in chunk `y 0 / 512` at local row `y 0 % 512`. -/
def Ks (c : Dev nD) (y : S4096x2048.Idx) : Elt F .bf16 :=
  Kc m c ((y 0).val / 512) (by have := idx2_lt0 y; omega) (ix2 (⟨(y 0).val % 512, by omega⟩ : Fin 512) (y 1))
/-- The logits scratch at the points of row block `n / 8`, entry by entry: column `y 1` lies in chunk `y 1 / 512`. -/
def Ls (c : Dev nD) (n : ℕ) (h : n < 128) (y : S256x4096.Idx) : Elt F .f32 :=
  k0_pay3 (Qs m c n h) (Kc m c ((y 1).val / 512) (by have := idx2_lt1 y; omega)) (ix2 (y 0) (⟨(y 1).val % 512, by omega⟩ : Fin 512))
/-- The output block of row block `n / 8`: the row softmax of its logits. -/
def Os (c : Dev nD) (n : ℕ) (h : n < 128) : Vec F S256x4096 .f32 := k0_pay4 (Ls m c n h)

/-- The specification depends on the point only through its row block. -/
theorem Qs_congr (c : Dev nD) (n n' : ℕ) (h : n < 128) (h' : n' < 128) (e : n / 8 = n' / 8) : Qs m c n h = Qs m c n' h' := by
  unfold Qs; congr 2; rw [e]
theorem Ls_congr (c : Dev nD) (n n' : ℕ) (h : n < 128) (h' : n' < 128) (e : n / 8 = n' / 8) : Ls m c n h = Ls m c n' h' := by
  funext y; unfold Ls; rw [Qs_congr m c n n' h h' e]
theorem Os_congr (c : Dev nD) (n n' : ℕ) (h : n < 128) (h' : n' < 128) (e : n / 8 = n' / 8) : Os m c n h = Os m c n' h' := by
  unfold Os; rw [Ls_congr m c n n' h h' e]

end Cert.Kernel.Gen

end
-- ==== Proof.K.Inv.lean ====
/-
  One call of the body as a relation between what the three scratches and the output buffer held before and hold
  after (`Step`), and the invariant the scratches satisfy between grid points (`InvAt`): after p points, the key scratch
  agrees with the cast keys on the rows of the chunks saved so far (min p 8 of them), the query scratch is the rescaled
  cast query block of the current row block, and the logits scratch agrees with the logits of the current row block on
  the columns of the chunks multiplied so far in it.
-/
import proofs.«180405_g721554506538_bridgefix_236_8_alg».proof.Proof.K.Spec
import Idealize.ShloMosaic.Lib.ValueIdx

set_option maxRecDepth 16384

noncomputable section

namespace Cert.Kernel.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One call of the body at grid coordinates `i` on the query block `x2` and the key block `x3`: the query scratch is
    replaced by the rescaled cast query block when the first branch is taken; rows [off, off + 512) of the key scratch
    are replaced by the cast key block when the second is; columns [off, off + 512) of the logits scratch are
    replaced by the product of the query scratch with the key scratch's rows [off, off + 512) (both as they are
    after the first two branches); the output buffer is replaced by the row softmax of the logits scratch when the
    third branch is taken. Everything else is kept. -/
structure Step (i : grid0.Coords) (x2 : Vec F S256x2048 .f32) (x3 : Vec F S512x2048 .f32)
    (xo : Vec F S256x4096 .f32) (kb : Vec F S4096x2048 .bf16) (qb : Vec F S256x2048 .bf16) (lb : Vec F S256x4096 .f32)
    (o' : Vec F S256x4096 .f32) (kb' : Vec F S4096x2048 .bf16) (qb' : Vec F S256x2048 .bf16) (lb' : Vec F S256x4096 .f32) : Prop where
  q_hit : cond0_0 i → qb' = k0_pay1 x2
  q_keep : ¬cond0_0 i → qb' = qb
  k_hit : cond0_1 i → ∀ (y : S4096x2048.Idx) (z : S512x2048.Idx),
    (y 0).val = k0_off1 i 0 + (z 0).val → (y 1).val = (z 1).val → kb' y = k0_pay2 x3 z
  k_miss : cond0_1 i → ∀ y : S4096x2048.Idx, ((y 0).val < k0_off1 i 0 ∨ k0_off1 i 0 + 512 ≤ (y 0).val) → kb' y = kb y
  k_keep : ¬cond0_1 i → kb' = kb
  l_hit : ∃ kc : Vec F S512x2048 .bf16,
    (∀ (y : S4096x2048.Idx) (z : S512x2048.Idx), (y 0).val = k0_off2 i 0 + (z 0).val → (y 1).val = (z 1).val → kc z = kb' y) ∧
    ∀ (y : S256x4096.Idx) (z : S256x512.Idx), (y 0).val = (z 0).val → (y 1).val = k0_off3 i 1 + (z 1).val → lb' y = k0_pay3 qb' kc z
  l_miss : ∀ y : S256x4096.Idx, ((y 1).val < k0_off3 i 1 ∨ k0_off3 i 1 + 512 ≤ (y 1).val) → lb' y = lb y
  o_hit : cond0_2 i → o' = k0_pay4 lb'
  o_keep : ¬cond0_2 i → o' = xo

variable (m : (ℓ : Loc nD τ sig) → Buf (Elt F) ℓ)

/-- The scratches after `p` grid points (nothing is known before the first). -/
structure InvAt (c : Dev nD) (p : ℕ) (hp : p ≤ 128)
    (kb : Vec F S4096x2048 .bf16) (qb : Vec F S256x2048 .bf16) (lb : Vec F S256x4096 .f32) : Prop where
  k : ∀ y : S4096x2048.Idx, (y 0).val < 512 * min p 8 → kb y = Ks m c y
  q : ∀ h : 0 < p, qb = Qs m c (p - 1) (by omega)
  l : ∀ h : 0 < p, ∀ y : S256x4096.Idx, (y 1).val < 512 * ((p - 1) % 8 + 1) → lb y = Ls m c (p - 1) (by omega) y

/-- Nothing is claimed before the first point. -/
theorem InvAt.zero (c : Dev nD) (kb : Vec F S4096x2048 .bf16) (qb : Vec F S256x2048 .bf16) (lb : Vec F S256x4096 .f32) :
    InvAt m c 0 (Nat.zero_le _) kb qb lb :=
  ⟨fun y h => absurd h (by simp), fun h => absurd h (lt_irrefl 0), fun h => absurd h (lt_irrefl 0)⟩

/-- The whole result array: row `y 0` lies in row block `y 0 / 256`, whose output block is written back at the block's
    last point `8·(y 0 / 256) + 7`. -/
def KOut (c : Dev nD) (y : S4096x4096.Idx) : Elt F .f32 :=
  Os m c (8 * ((y 0).val / 256) + 7) (by have := idx2_lt0 y; omega) (ix2 (⟨(y 0).val % 256, by omega⟩ : Fin 256) (y 1))

end Cert.Kernel.Gen

end
-- ==== Proof.K.RunLemmas.lean ====
/-
  Reading a rank-2 buffer after slice stores. A store through the whole shape leaves its payload and a load through
  the whole shape reads the contents; a store of rows [o, o + W) (or of columns [o, o + W)) leaves its payload there
  and the earlier contents elsewhere; a load of the same rows right after such a store reads what the buffer now holds
  there, and a load of rows nothing was stored into reads the buffer there.
-/
import proofs.«180405_g721554506538_bridgefix_236_8_alg».proof.Proof.K.Inv
import Idealize.ShloMosaic.Lib.ValueIdx
import Idealize.ShloMosaic.Lib.WritesUnit
import Idealize.ShloMosaic.Lib.WholeRead
import Idealize.ShloMosaic.Lib.Pipeline.Value

set_option maxRecDepth 16384

noncomputable section

namespace Cert.Kernel.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Reading slices of a buffer after slice stores -/

section ReadLemmas

variable {κ : Kind} {sp : Space} {e : EltTy}

theorem zero2 : (![0, 0] : Fin 2 → ℕ) = fun _ => 0 := by
  funext a; match a with | ⟨0, _⟩ => rfl | ⟨1, _⟩ => rfl

/-- A store through the whole shape, last, leaves its payload. -/
theorem read_writes_whole {d : Fin 2 → ℕ} (v : View sig κ sp (⟨2, d⟩ : Shape) e) (f : v.ty.Contents (Elt F))
    {off : Fin 2 → ℕ} (hz : off = fun _ => 0) (inb : ∀ a, off a + (⟨2, d⟩ : Shape).size a ≤ (⟨2, d⟩ : Shape).size a)
    (w : (⟨2, d⟩ : Shape).Idx → Elt F e) (L : List (View.Piece (Elt F) (⟨2, d⟩ : Shape) e)) :
    v.read (Elt F) (v.writes (Elt F) f ((⟨Rect.unit off (⟨2, d⟩ : Shape).size inb, w⟩ : View.Piece (Elt F) _ e) :: L)) = w := by
  subst hz; funext y
  exact View.read_writes_cons_unit_of_mem v f inb w L y y rfl (fun a => (Nat.zero_add _).symm)

/-- A load through the whole shape reads the contents. -/
theorem readAt_whole {S : Shape} (v : View sig κ sp S e) (f : v.ty.Contents (Elt F))
    {off : Fin S.rank → ℕ} (hz : off = fun _ => 0) (inb : ∀ a, off a + S.size a ≤ S.size a) :
    View.readAt (Elt F) v (Rect.unit off S.size inb).toLoadRect f = v.read (Elt F) f := by
  rw [View.readAt_eq_ld, View.ld_unit_zero hz]

/-- A load of a unit-stride box reads the contents at the box's offsets plus the local index. -/
theorem readAt_unit_apply {S : Shape} (v : View sig κ sp S e) (f : v.ty.Contents (Elt F))
    {off size : Fin S.rank → ℕ} (inb : ∀ a, off a + size a ≤ S.size a)
    (z : (Rect.unit off size inb).shape.Idx) (y : S.Idx) (hy : ∀ a, (y a).val = off a + (z a).val) :
    View.readAt (Elt F) v (Rect.unit off size inb).toLoadRect f z = v.read (Elt F) f y := by
  rw [View.readAt_apply]
  congr 1
  funext a; apply Fin.ext
  rw [hy a]
  show off a + 1 * (z a).val = _
  rw [Nat.one_mul]

/-- Rows [o, o + W) stored last: a load of the same rows reads the payload, as does the buffer itself there. -/
theorem rows_hit {d : Fin 2 → ℕ} (v : View sig κ sp (⟨2, d⟩ : Shape) e) (f : v.ty.Contents (Elt F))
    {off size : Fin 2 → ℕ} {o : ℕ} (inb : ∀ a : Fin 2, off a + size a ≤ d a)
    (w : (Rect.unit (s := ⟨2, d⟩) off size inb).shape.Idx → Elt F e) (hoff : off = ![o, 0])
    (y : (⟨2, d⟩ : Shape).Idx) (z : (Rect.unit (s := ⟨2, d⟩) off size inb).shape.Idx)
    (h0 : (y (0 : Fin 2)).val = o + (z (0 : Fin 2)).val) (h1 : (y (1 : Fin 2)).val = (z (1 : Fin 2)).val) :
    v.read (Elt F) (v.writes (Elt F) f [(⟨Rect.unit (s := ⟨2, d⟩) off size inb, w⟩ : View.Piece (Elt F) (⟨2, d⟩ : Shape) e)]) y = w z :=
  View.read_writes_cons_rows_of_mem v f inb w [] y z hoff h0 h1

/-- Rows [o, o + W) stored last: outside them the buffer reads what it read before. -/
theorem rows_miss {d : Fin 2 → ℕ} (v : View sig κ sp (⟨2, d⟩ : Shape) e) (f : v.ty.Contents (Elt F))
    {off size : Fin 2 → ℕ} {o W : ℕ} (inb : ∀ a : Fin 2, off a + size a ≤ d a)
    (w : (Rect.unit (s := ⟨2, d⟩) off size inb).shape.Idx → Elt F e) (hoff : off = ![o, 0]) (hW : size (0 : Fin 2) = W)
    (y : (⟨2, d⟩ : Shape).Idx) (h : (y (0 : Fin 2)).val < o ∨ o + W ≤ (y (0 : Fin 2)).val) :
    v.read (Elt F) (v.writes (Elt F) f [(⟨Rect.unit (s := ⟨2, d⟩) off size inb, w⟩ : View.Piece (Elt F) (⟨2, d⟩ : Shape) e)]) y
      = v.read (Elt F) f y :=
  View.read_writes_cons_rows_of_not_mem v f inb w [] y hoff hW h

/-- Columns [o, o + W) stored last: inside them the buffer reads the payload, -/
theorem cols_hit {d : Fin 2 → ℕ} (v : View sig κ sp (⟨2, d⟩ : Shape) e) (f : v.ty.Contents (Elt F))
    {off size : Fin 2 → ℕ} {o : ℕ} (inb : ∀ a : Fin 2, off a + size a ≤ d a)
    (w : (Rect.unit (s := ⟨2, d⟩) off size inb).shape.Idx → Elt F e) (hoff : off = ![0, o])
    (y : (⟨2, d⟩ : Shape).Idx) (z : (Rect.unit (s := ⟨2, d⟩) off size inb).shape.Idx)
    (h0 : (y (0 : Fin 2)).val = (z (0 : Fin 2)).val) (h1 : (y (1 : Fin 2)).val = o + (z (1 : Fin 2)).val) :
    v.read (Elt F) (v.writes (Elt F) f [(⟨Rect.unit (s := ⟨2, d⟩) off size inb, w⟩ : View.Piece (Elt F) (⟨2, d⟩ : Shape) e)]) y = w z :=
  View.read_writes_cons_unit_of_mem v f inb w [] y z hoff
    (Fin.forall_fin_two.mpr ⟨by rw [h0]; exact (Nat.zero_add _).symm, h1⟩)

/-- and outside them what it read before. -/
theorem cols_miss {d : Fin 2 → ℕ} (v : View sig κ sp (⟨2, d⟩ : Shape) e) (f : v.ty.Contents (Elt F))
    {off size : Fin 2 → ℕ} {o W : ℕ} (inb : ∀ a : Fin 2, off a + size a ≤ d a)
    (w : (Rect.unit (s := ⟨2, d⟩) off size inb).shape.Idx → Elt F e) (hoff : off = ![0, o]) (hW : size (1 : Fin 2) = W)
    (y : (⟨2, d⟩ : Shape).Idx) (h : (y (1 : Fin 2)).val < o ∨ o + W ≤ (y (1 : Fin 2)).val) :
    v.read (Elt F) (v.writes (Elt F) f [(⟨Rect.unit (s := ⟨2, d⟩) off size inb, w⟩ : View.Piece (Elt F) (⟨2, d⟩ : Shape) e)]) y
      = v.read (Elt F) f y :=
  View.read_writes_cons_unit_of_not_mem v f inb w [] y hoff (1 : Fin 2) (by subst hW; exact h)

/-- A load of rows [o, o + W) right after a store of the same rows reads what the buffer now holds there. -/
theorem readCov_rows_eq [∀ e, Nonempty (Elt F e)] {d : Fin 2 → ℕ} (v : View sig κ sp (⟨2, d⟩ : Shape) e) (f : v.ty.Contents (Elt F))
    {off off2 size : Fin 2 → ℕ} {o : ℕ} (inb : ∀ a : Fin 2, off a + size a ≤ d a) (inb2 : ∀ a : Fin 2, off2 a + size a ≤ d a)
    (w : (Rect.unit (s := ⟨2, d⟩) off size inb).shape.Idx → Elt F e) (hoff : off = ![o, 0]) (hoff2 : off2 = ![o, 0])
    (y : (⟨2, d⟩ : Shape).Idx) (z : (Rect.unit (s := ⟨2, d⟩) off2 size inb2).shape.Idx)
    (h0 : (y (0 : Fin 2)).val = o + (z (0 : Fin 2)).val) (h1 : (y (1 : Fin 2)).val = (z (1 : Fin 2)).val) :
    v.readCov [(⟨Rect.unit (s := ⟨2, d⟩) off size inb, w⟩ : View.Piece (Elt F) (⟨2, d⟩ : Shape) e)] (Rect.unit (s := ⟨2, d⟩) off2 size inb2).toLoadRect z
      = v.read (Elt F) (v.writes (Elt F) f [(⟨Rect.unit (s := ⟨2, d⟩) off size inb, w⟩ : View.Piece (Elt F) (⟨2, d⟩ : Shape) e)]) y := by
  unfold View.readCov
  rw [readAt_unit_apply v _ inb2 z y (by subst hoff2; exact Fin.forall_fin_two.mpr ⟨h0, by rw [h1]; exact (Nat.zero_add _).symm⟩)]
  rw [rows_hit v _ inb w hoff y z h0 h1, rows_hit v f inb w hoff y z h0 h1]

/-- A load of rows [o, o + W) of a buffer nothing was stored into reads the buffer there. -/
theorem readAt_rows_eq {d : Fin 2 → ℕ} (v : View sig κ sp (⟨2, d⟩ : Shape) e) (f : v.ty.Contents (Elt F))
    {off2 size : Fin 2 → ℕ} {o : ℕ} (inb2 : ∀ a : Fin 2, off2 a + size a ≤ d a) (hoff2 : off2 = ![o, 0])
    (y : (⟨2, d⟩ : Shape).Idx) (z : (Rect.unit (s := ⟨2, d⟩) off2 size inb2).shape.Idx)
    (h0 : (y (0 : Fin 2)).val = o + (z (0 : Fin 2)).val) (h1 : (y (1 : Fin 2)).val = (z (1 : Fin 2)).val) :
    View.readAt (Elt F) v (Rect.unit (s := ⟨2, d⟩) off2 size inb2).toLoadRect f z = v.read (Elt F) f y :=
  readAt_unit_apply v f inb2 z y (by subst hoff2; exact Fin.forall_fin_two.mpr ⟨h0, by rw [h1]; exact (Nat.zero_add _).symm⟩)

end ReadLemmas

end Cert.Kernel.Gen

end
-- ==== Proof.K.RunTTT.lean ====
/-
  One call of the body at a grid point where the query block is rescaled (chunk coordinate 0), the key
  chunk is saved (row block 0) and the row softmax is taken (chunk coordinate 7):
  run symbolically, the body leaves the buffers at lists of slice stores over what they held, and reading those
  lists back gives the step relation: the query scratch is the rescaled cast query block, rows [off, off + 512) of the key scratch are the cast key block and the other rows are kept,
  columns [off, off + 512) of the logits scratch are the product of the query scratch with those key rows and the other
  columns are kept, and the output buffer is the row softmax of the logits scratch.
-/
import proofs.«180405_g721554506538_bridgefix_236_8_alg».proof.Proof.K.RunLemmas
import Idealize.ShloMosaic.Lib.ValueIdx
import Idealize.ShloMosaic.Lib.WritesUnit
import Idealize.ShloMosaic.Lib.WholeRead
import Idealize.ShloMosaic.Lib.Pipeline.Value

set_option maxRecDepth 16384

noncomputable section

namespace Cert.Kernel.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem kernel_run_TTT (c : Dev nD) (i : grid0.Coords)
    (arg2 : Memref sig .tc .vmem S256x2048 .f32) (harg2 : arg2.IsWhole) (arg3 : Memref sig .tc .vmem S512x2048 .f32) (harg3 : arg3.IsWhole)
    (arg4 : Memref sig .tc .vmem S256x4096 .f32) (harg4 : arg4.IsWhole) (arg5 : Memref sig .tc .vmem S4096x2048 .bf16) (harg5 : arg5.IsWhole)
    (arg6 : Memref sig .tc .vmem S256x2048 .bf16) (harg6 : arg6.IsWhole) (arg7 : Memref sig .tc .vmem S256x4096 .f32) (harg7 : arg7.IsWhole)
    (hc0 : cond0_0 i) (hc1 : cond0_1 i) (hc2 : cond0_2 i)
    (x2 : Vec F S256x2048 .f32) (x3 : Vec F S512x2048 .f32) (xo : Vec F S256x4096 .f32)
    (kb : Vec F S4096x2048 .bf16) (qb : Vec F S256x2048 .bf16) (lb : Vec F S256x4096 .f32)
    (E : Set ℕ) (K : PUnit → sProp 𝕄) :
    iprop(owns (c : Thread nD τ) arg2 fullShare x2 ∗ owns (c : Thread nD τ) arg3 fullShare x3 ∗ owns (c : Thread nD τ) arg4 fullShare xo
        ∗ owns (c : Thread nD τ) arg5 fullShare kb ∗ owns (c : Thread nD τ) arg6 fullShare qb ∗ owns (c : Thread nD τ) arg7 fullShare lb
        ∗ (iprop(owns (c : Thread nD τ) arg2 fullShare x2 ∗ owns (c : Thread nD τ) arg3 fullShare x3
            ∗ (∃ f4 f5 f6 f7, (arg4.view.loc (c : Thread nD τ) ↦[arg4.view.set]{fullShare} f4)
                ∗ (arg5.view.loc (c : Thread nD τ) ↦[arg5.view.set]{fullShare} f5)
                ∗ (arg6.view.loc (c : Thread nD τ) ↦[arg6.view.set]{fullShare} f6)
                ∗ (arg7.view.loc (c : Thread nD τ) ↦[arg7.view.set]{fullShare} f7)
                ∗ ⌜Step i x2 x3 xo kb qb lb (arg4.view.read (Elt F) f4) (arg5.view.read (Elt F) f5)
                    (arg6.view.read (Elt F) f6) (arg7.view.read (Elt F) f7)⌝)) -∗ K ⟨⟩))
      ⊢ wp frame (wpE (defs₀ (F := F)) Variants.none c none) E (cc0__fused_attn_kernel i arg2 harg2 arg3 harg3 arg4 harg4 arg5 harg5 arg6 harg6 arg7 harg7) K := by
  simp only [cc0__fused_attn_kernel_eq_skeleton]; unfold cc0__fused_attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  sl_unfold_words
  iapply Hk
  isplitl [H2]
  · iexists _; isplitr; · ipureintro; exact harg2.read_unread _
    iexact H2
  isplitl [H3]
  · iexists _; isplitr; · ipureintro; exact harg3.read_unread _
    iexact H3
  iexists _, _, _, _
  isplitl [H4]; · iexact H4
  isplitl [H5]; · iexact H5
  isplitl [H6]; · iexact H6
  isplitl [H7]; · iexact H7
  ipureintro
  simp only [readAt_whole (F := F) (S := S256x2048) _ _ zero2, readAt_whole (F := F) (S := S512x2048) _ _ zero2, readAt_whole (F := F) (S := S256x4096) _ _ zero2, View.readCov_unit_zero (S := S256x2048) _ zero2, View.readCov_unit_zero (S := S256x4096) _ zero2, read_writes_whole (F := F) _ _ zero2, hf2, hf3, hf4, hf5, hf6, hf7]
  refine ⟨fun _ => rfl, fun h => absurd hc0 h, ?k_hit, ?k_miss, fun h => absurd hc1 h, ⟨?w, ?kc, ?l_hit⟩, ?l_miss, fun _ => rfl, fun h => absurd hc2 h⟩
  case l_hit => intro y z h0 h1; exact cols_hit (F := F) arg7.view _ _ _ rfl y z h0 h1
  case l_miss => intro y h; exact (cols_miss (F := F) arg7.view _ _ _ rfl rfl y h).trans (congrFun hf7 y)
  case k_hit => intro _ y z h0 h1; exact rows_hit (F := F) arg5.view _ _ _ rfl y z h0 h1
  case k_miss => intro _ y h; exact (rows_miss (F := F) arg5.view _ _ _ rfl rfl y h).trans (congrFun hf5 y)
  case kc => intro y z h0 h1; exact readCov_rows_eq (F := F) arg5.view _ _ _ _ rfl rfl y z h0 h1

end Cert.Kernel.Gen

end
-- ==== Proof.K.RunTTF.lean ====
/-
  One call of the body at a grid point where the query block is rescaled (chunk coordinate 0), the key
  chunk is saved (row block 0) and the row softmax is not taken (chunk coordinate not 7):
  run symbolically, the body leaves the buffers at lists of slice stores over what they held, and reading those
  lists back gives the step relation: the query scratch is the rescaled cast query block, rows [off, off + 512) of the key scratch are the cast key block and the other rows are kept,
  columns [off, off + 512) of the logits scratch are the product of the query scratch with those key rows and the other
  columns are kept, and the output buffer is kept.
-/
import proofs.«180405_g721554506538_bridgefix_236_8_alg».proof.Proof.K.RunLemmas
import Idealize.ShloMosaic.Lib.ValueIdx
import Idealize.ShloMosaic.Lib.WritesUnit
import Idealize.ShloMosaic.Lib.WholeRead
import Idealize.ShloMosaic.Lib.Pipeline.Value

set_option maxRecDepth 16384

noncomputable section

namespace Cert.Kernel.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem kernel_run_TTF (c : Dev nD) (i : grid0.Coords)
    (arg2 : Memref sig .tc .vmem S256x2048 .f32) (harg2 : arg2.IsWhole) (arg3 : Memref sig .tc .vmem S512x2048 .f32) (harg3 : arg3.IsWhole)
    (arg4 : Memref sig .tc .vmem S256x4096 .f32) (harg4 : arg4.IsWhole) (arg5 : Memref sig .tc .vmem S4096x2048 .bf16) (harg5 : arg5.IsWhole)
    (arg6 : Memref sig .tc .vmem S256x2048 .bf16) (harg6 : arg6.IsWhole) (arg7 : Memref sig .tc .vmem S256x4096 .f32) (harg7 : arg7.IsWhole)
    (hc0 : cond0_0 i) (hc1 : cond0_1 i) (hc2 : ¬cond0_2 i)
    (x2 : Vec F S256x2048 .f32) (x3 : Vec F S512x2048 .f32) (xo : Vec F S256x4096 .f32)
    (kb : Vec F S4096x2048 .bf16) (qb : Vec F S256x2048 .bf16) (lb : Vec F S256x4096 .f32)
    (E : Set ℕ) (K : PUnit → sProp 𝕄) :
    iprop(owns (c : Thread nD τ) arg2 fullShare x2 ∗ owns (c : Thread nD τ) arg3 fullShare x3 ∗ owns (c : Thread nD τ) arg4 fullShare xo
        ∗ owns (c : Thread nD τ) arg5 fullShare kb ∗ owns (c : Thread nD τ) arg6 fullShare qb ∗ owns (c : Thread nD τ) arg7 fullShare lb
        ∗ (iprop(owns (c : Thread nD τ) arg2 fullShare x2 ∗ owns (c : Thread nD τ) arg3 fullShare x3
            ∗ (∃ f4 f5 f6 f7, (arg4.view.loc (c : Thread nD τ) ↦[arg4.view.set]{fullShare} f4)
                ∗ (arg5.view.loc (c : Thread nD τ) ↦[arg5.view.set]{fullShare} f5)
                ∗ (arg6.view.loc (c : Thread nD τ) ↦[arg6.view.set]{fullShare} f6)
                ∗ (arg7.view.loc (c : Thread nD τ) ↦[arg7.view.set]{fullShare} f7)
                ∗ ⌜Step i x2 x3 xo kb qb lb (arg4.view.read (Elt F) f4) (arg5.view.read (Elt F) f5)
                    (arg6.view.read (Elt F) f6) (arg7.view.read (Elt F) f7)⌝)) -∗ K ⟨⟩))
      ⊢ wp frame (wpE (defs₀ (F := F)) Variants.none c none) E (cc0__fused_attn_kernel i arg2 harg2 arg3 harg3 arg4 harg4 arg5 harg5 arg6 harg6 arg7 harg7) K := by
  simp only [cc0__fused_attn_kernel_eq_skeleton]; unfold cc0__fused_attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  sl_unfold_words
  iapply Hk
  isplitl [H2]
  · iexists _; isplitr; · ipureintro; exact harg2.read_unread _
    iexact H2
  isplitl [H3]
  · iexists _; isplitr; · ipureintro; exact harg3.read_unread _
    iexact H3
  iexists _, _, _, _
  isplitl [H4]; · iexact H4
  isplitl [H5]; · iexact H5
  isplitl [H6]; · iexact H6
  isplitl [H7]; · iexact H7
  ipureintro
  simp only [readAt_whole (F := F) (S := S256x2048) _ _ zero2, readAt_whole (F := F) (S := S512x2048) _ _ zero2, readAt_whole (F := F) (S := S256x4096) _ _ zero2, View.readCov_unit_zero (S := S256x2048) _ zero2, View.readCov_unit_zero (S := S256x4096) _ zero2, read_writes_whole (F := F) _ _ zero2, hf2, hf3, hf4, hf5, hf6, hf7]
  refine ⟨fun _ => rfl, fun h => absurd hc0 h, ?k_hit, ?k_miss, fun h => absurd hc1 h, ⟨?w, ?kc, ?l_hit⟩, ?l_miss, fun h => absurd h hc2, fun _ => rfl⟩
  case l_hit => intro y z h0 h1; exact cols_hit (F := F) arg7.view _ _ _ rfl y z h0 h1
  case l_miss => intro y h; exact (cols_miss (F := F) arg7.view _ _ _ rfl rfl y h).trans (congrFun hf7 y)
  case k_hit => intro _ y z h0 h1; exact rows_hit (F := F) arg5.view _ _ _ rfl y z h0 h1
  case k_miss => intro _ y h; exact (rows_miss (F := F) arg5.view _ _ _ rfl rfl y h).trans (congrFun hf5 y)
  case kc => intro y z h0 h1; exact readCov_rows_eq (F := F) arg5.view _ _ _ _ rfl rfl y z h0 h1

end Cert.Kernel.Gen

end
-- ==== Proof.K.RunTFT.lean ====
/-
  One call of the body at a grid point where the query block is rescaled (chunk coordinate 0), the key
  chunk is not saved (row block not 0) and the row softmax is taken (chunk coordinate 7):
  run symbolically, the body leaves the buffers at lists of slice stores over what they held, and reading those
  lists back gives the step relation: the query scratch is the rescaled cast query block, the key scratch is kept,
  columns [off, off + 512) of the logits scratch are the product of the query scratch with those key rows and the other
  columns are kept, and the output buffer is the row softmax of the logits scratch.
-/
import proofs.«180405_g721554506538_bridgefix_236_8_alg».proof.Proof.K.RunLemmas
import Idealize.ShloMosaic.Lib.ValueIdx
import Idealize.ShloMosaic.Lib.WritesUnit
import Idealize.ShloMosaic.Lib.WholeRead
import Idealize.ShloMosaic.Lib.Pipeline.Value

set_option maxRecDepth 16384

noncomputable section

namespace Cert.Kernel.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem kernel_run_TFT (c : Dev nD) (i : grid0.Coords)
    (arg2 : Memref sig .tc .vmem S256x2048 .f32) (harg2 : arg2.IsWhole) (arg3 : Memref sig .tc .vmem S512x2048 .f32) (harg3 : arg3.IsWhole)
    (arg4 : Memref sig .tc .vmem S256x4096 .f32) (harg4 : arg4.IsWhole) (arg5 : Memref sig .tc .vmem S4096x2048 .bf16) (harg5 : arg5.IsWhole)
    (arg6 : Memref sig .tc .vmem S256x2048 .bf16) (harg6 : arg6.IsWhole) (arg7 : Memref sig .tc .vmem S256x4096 .f32) (harg7 : arg7.IsWhole)
    (hc0 : cond0_0 i) (hc1 : ¬cond0_1 i) (hc2 : cond0_2 i)
    (x2 : Vec F S256x2048 .f32) (x3 : Vec F S512x2048 .f32) (xo : Vec F S256x4096 .f32)
    (kb : Vec F S4096x2048 .bf16) (qb : Vec F S256x2048 .bf16) (lb : Vec F S256x4096 .f32)
    (E : Set ℕ) (K : PUnit → sProp 𝕄) :
    iprop(owns (c : Thread nD τ) arg2 fullShare x2 ∗ owns (c : Thread nD τ) arg3 fullShare x3 ∗ owns (c : Thread nD τ) arg4 fullShare xo
        ∗ owns (c : Thread nD τ) arg5 fullShare kb ∗ owns (c : Thread nD τ) arg6 fullShare qb ∗ owns (c : Thread nD τ) arg7 fullShare lb
        ∗ (iprop(owns (c : Thread nD τ) arg2 fullShare x2 ∗ owns (c : Thread nD τ) arg3 fullShare x3
            ∗ (∃ f4 f5 f6 f7, (arg4.view.loc (c : Thread nD τ) ↦[arg4.view.set]{fullShare} f4)
                ∗ (arg5.view.loc (c : Thread nD τ) ↦[arg5.view.set]{fullShare} f5)
                ∗ (arg6.view.loc (c : Thread nD τ) ↦[arg6.view.set]{fullShare} f6)
                ∗ (arg7.view.loc (c : Thread nD τ) ↦[arg7.view.set]{fullShare} f7)
                ∗ ⌜Step i x2 x3 xo kb qb lb (arg4.view.read (Elt F) f4) (arg5.view.read (Elt F) f5)
                    (arg6.view.read (Elt F) f6) (arg7.view.read (Elt F) f7)⌝)) -∗ K ⟨⟩))
      ⊢ wp frame (wpE (defs₀ (F := F)) Variants.none c none) E (cc0__fused_attn_kernel i arg2 harg2 arg3 harg3 arg4 harg4 arg5 harg5 arg6 harg6 arg7 harg7) K := by
  simp only [cc0__fused_attn_kernel_eq_skeleton]; unfold cc0__fused_attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  sl_unfold_words
  iapply Hk
  isplitl [H2]
  · iexists _; isplitr; · ipureintro; exact harg2.read_unread _
    iexact H2
  isplitl [H3]
  · iexists _; isplitr; · ipureintro; exact harg3.read_unread _
    iexact H3
  iexists _, _, _, _
  isplitl [H4]; · iexact H4
  isplitl [H5]; · iexact H5
  isplitl [H6]; · iexact H6
  isplitl [H7]; · iexact H7
  ipureintro
  simp only [readAt_whole (F := F) (S := S256x2048) _ _ zero2, readAt_whole (F := F) (S := S512x2048) _ _ zero2, readAt_whole (F := F) (S := S256x4096) _ _ zero2, View.readCov_unit_zero (S := S256x2048) _ zero2, View.readCov_unit_zero (S := S256x4096) _ zero2, read_writes_whole (F := F) _ _ zero2, hf2, hf3, hf4, hf5, hf6, hf7]
  refine ⟨fun _ => rfl, fun h => absurd hc0 h, fun h => absurd h hc1, fun h => absurd h hc1, fun _ => rfl, ⟨?w, ?kc, ?l_hit⟩, ?l_miss, fun _ => rfl, fun h => absurd hc2 h⟩
  case l_hit => intro y z h0 h1; exact cols_hit (F := F) arg7.view _ _ _ rfl y z h0 h1
  case l_miss => intro y h; exact (cols_miss (F := F) arg7.view _ _ _ rfl rfl y h).trans (congrFun hf7 y)
  case kc => intro y z h0 h1; exact (readAt_rows_eq (F := F) arg5.view _ _ rfl y z h0 h1).trans (congrFun hf5 y)

end Cert.Kernel.Gen

end
-- ==== Proof.K.RunTFF.lean ====
/-
  One call of the body at a grid point where the query block is rescaled (chunk coordinate 0), the key
  chunk is not saved (row block not 0) and the row softmax is not taken (chunk coordinate not 7):
  run symbolically, the body leaves the buffers at lists of slice stores over what they held, and reading those
  lists back gives the step relation: the query scratch is the rescaled cast query block, the key scratch is kept,
  columns [off, off + 512) of the logits scratch are the product of the query scratch with those key rows and the other
  columns are kept, and the output buffer is kept.
-/
import proofs.«180405_g721554506538_bridgefix_236_8_alg».proof.Proof.K.RunLemmas
import Idealize.ShloMosaic.Lib.ValueIdx
import Idealize.ShloMosaic.Lib.WritesUnit
import Idealize.ShloMosaic.Lib.WholeRead
import Idealize.ShloMosaic.Lib.Pipeline.Value

set_option maxRecDepth 16384

noncomputable section

namespace Cert.Kernel.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem kernel_run_TFF (c : Dev nD) (i : grid0.Coords)
    (arg2 : Memref sig .tc .vmem S256x2048 .f32) (harg2 : arg2.IsWhole) (arg3 : Memref sig .tc .vmem S512x2048 .f32) (harg3 : arg3.IsWhole)
    (arg4 : Memref sig .tc .vmem S256x4096 .f32) (harg4 : arg4.IsWhole) (arg5 : Memref sig .tc .vmem S4096x2048 .bf16) (harg5 : arg5.IsWhole)
    (arg6 : Memref sig .tc .vmem S256x2048 .bf16) (harg6 : arg6.IsWhole) (arg7 : Memref sig .tc .vmem S256x4096 .f32) (harg7 : arg7.IsWhole)
    (hc0 : cond0_0 i) (hc1 : ¬cond0_1 i) (hc2 : ¬cond0_2 i)
    (x2 : Vec F S256x2048 .f32) (x3 : Vec F S512x2048 .f32) (xo : Vec F S256x4096 .f32)
    (kb : Vec F S4096x2048 .bf16) (qb : Vec F S256x2048 .bf16) (lb : Vec F S256x4096 .f32)
    (E : Set ℕ) (K : PUnit → sProp 𝕄) :
    iprop(owns (c : Thread nD τ) arg2 fullShare x2 ∗ owns (c : Thread nD τ) arg3 fullShare x3 ∗ owns (c : Thread nD τ) arg4 fullShare xo
        ∗ owns (c : Thread nD τ) arg5 fullShare kb ∗ owns (c : Thread nD τ) arg6 fullShare qb ∗ owns (c : Thread nD τ) arg7 fullShare lb
        ∗ (iprop(owns (c : Thread nD τ) arg2 fullShare x2 ∗ owns (c : Thread nD τ) arg3 fullShare x3
            ∗ (∃ f4 f5 f6 f7, (arg4.view.loc (c : Thread nD τ) ↦[arg4.view.set]{fullShare} f4)
                ∗ (arg5.view.loc (c : Thread nD τ) ↦[arg5.view.set]{fullShare} f5)
                ∗ (arg6.view.loc (c : Thread nD τ) ↦[arg6.view.set]{fullShare} f6)
                ∗ (arg7.view.loc (c : Thread nD τ) ↦[arg7.view.set]{fullShare} f7)
                ∗ ⌜Step i x2 x3 xo kb qb lb (arg4.view.read (Elt F) f4) (arg5.view.read (Elt F) f5)
                    (arg6.view.read (Elt F) f6) (arg7.view.read (Elt F) f7)⌝)) -∗ K ⟨⟩))
      ⊢ wp frame (wpE (defs₀ (F := F)) Variants.none c none) E (cc0__fused_attn_kernel i arg2 harg2 arg3 harg3 arg4 harg4 arg5 harg5 arg6 harg6 arg7 harg7) K := by
  simp only [cc0__fused_attn_kernel_eq_skeleton]; unfold cc0__fused_attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  sl_unfold_words
  iapply Hk
  isplitl [H2]
  · iexists _; isplitr; · ipureintro; exact harg2.read_unread _
    iexact H2
  isplitl [H3]
  · iexists _; isplitr; · ipureintro; exact harg3.read_unread _
    iexact H3
  iexists _, _, _, _
  isplitl [H4]; · iexact H4
  isplitl [H5]; · iexact H5
  isplitl [H6]; · iexact H6
  isplitl [H7]; · iexact H7
  ipureintro
  simp only [readAt_whole (F := F) (S := S256x2048) _ _ zero2, readAt_whole (F := F) (S := S512x2048) _ _ zero2, readAt_whole (F := F) (S := S256x4096) _ _ zero2, View.readCov_unit_zero (S := S256x2048) _ zero2, View.readCov_unit_zero (S := S256x4096) _ zero2, read_writes_whole (F := F) _ _ zero2, hf2, hf3, hf4, hf5, hf6, hf7]
  refine ⟨fun _ => rfl, fun h => absurd hc0 h, fun h => absurd h hc1, fun h => absurd h hc1, fun _ => rfl, ⟨?w, ?kc, ?l_hit⟩, ?l_miss, fun h => absurd h hc2, fun _ => rfl⟩
  case l_hit => intro y z h0 h1; exact cols_hit (F := F) arg7.view _ _ _ rfl y z h0 h1
  case l_miss => intro y h; exact (cols_miss (F := F) arg7.view _ _ _ rfl rfl y h).trans (congrFun hf7 y)
  case kc => intro y z h0 h1; exact (readAt_rows_eq (F := F) arg5.view _ _ rfl y z h0 h1).trans (congrFun hf5 y)

end Cert.Kernel.Gen

end
-- ==== Proof.K.RunFTT.lean ====
/-
  One call of the body at a grid point where the query block is not rescaled (chunk coordinate not 0), the key
  chunk is saved (row block 0) and the row softmax is taken (chunk coordinate 7):
  run symbolically, the body leaves the buffers at lists of slice stores over what they held, and reading those
  lists back gives the step relation: the query scratch is kept, rows [off, off + 512) of the key scratch are the cast key block and the other rows are kept,
  columns [off, off + 512) of the logits scratch are the product of the query scratch with those key rows and the other
  columns are kept, and the output buffer is the row softmax of the logits scratch.
-/
import proofs.«180405_g721554506538_bridgefix_236_8_alg».proof.Proof.K.RunLemmas
import Idealize.ShloMosaic.Lib.ValueIdx
import Idealize.ShloMosaic.Lib.WritesUnit
import Idealize.ShloMosaic.Lib.WholeRead
import Idealize.ShloMosaic.Lib.Pipeline.Value

set_option maxRecDepth 16384

noncomputable section

namespace Cert.Kernel.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem kernel_run_FTT (c : Dev nD) (i : grid0.Coords)
    (arg2 : Memref sig .tc .vmem S256x2048 .f32) (harg2 : arg2.IsWhole) (arg3 : Memref sig .tc .vmem S512x2048 .f32) (harg3 : arg3.IsWhole)
    (arg4 : Memref sig .tc .vmem S256x4096 .f32) (harg4 : arg4.IsWhole) (arg5 : Memref sig .tc .vmem S4096x2048 .bf16) (harg5 : arg5.IsWhole)
    (arg6 : Memref sig .tc .vmem S256x2048 .bf16) (harg6 : arg6.IsWhole) (arg7 : Memref sig .tc .vmem S256x4096 .f32) (harg7 : arg7.IsWhole)
    (hc0 : ¬cond0_0 i) (hc1 : cond0_1 i) (hc2 : cond0_2 i)
    (x2 : Vec F S256x2048 .f32) (x3 : Vec F S512x2048 .f32) (xo : Vec F S256x4096 .f32)
    (kb : Vec F S4096x2048 .bf16) (qb : Vec F S256x2048 .bf16) (lb : Vec F S256x4096 .f32)
    (E : Set ℕ) (K : PUnit → sProp 𝕄) :
    iprop(owns (c : Thread nD τ) arg2 fullShare x2 ∗ owns (c : Thread nD τ) arg3 fullShare x3 ∗ owns (c : Thread nD τ) arg4 fullShare xo
        ∗ owns (c : Thread nD τ) arg5 fullShare kb ∗ owns (c : Thread nD τ) arg6 fullShare qb ∗ owns (c : Thread nD τ) arg7 fullShare lb
        ∗ (iprop(owns (c : Thread nD τ) arg2 fullShare x2 ∗ owns (c : Thread nD τ) arg3 fullShare x3
            ∗ (∃ f4 f5 f6 f7, (arg4.view.loc (c : Thread nD τ) ↦[arg4.view.set]{fullShare} f4)
                ∗ (arg5.view.loc (c : Thread nD τ) ↦[arg5.view.set]{fullShare} f5)
                ∗ (arg6.view.loc (c : Thread nD τ) ↦[arg6.view.set]{fullShare} f6)
                ∗ (arg7.view.loc (c : Thread nD τ) ↦[arg7.view.set]{fullShare} f7)
                ∗ ⌜Step i x2 x3 xo kb qb lb (arg4.view.read (Elt F) f4) (arg5.view.read (Elt F) f5)
                    (arg6.view.read (Elt F) f6) (arg7.view.read (Elt F) f7)⌝)) -∗ K ⟨⟩))
      ⊢ wp frame (wpE (defs₀ (F := F)) Variants.none c none) E (cc0__fused_attn_kernel i arg2 harg2 arg3 harg3 arg4 harg4 arg5 harg5 arg6 harg6 arg7 harg7) K := by
  simp only [cc0__fused_attn_kernel_eq_skeleton]; unfold cc0__fused_attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  sl_unfold_words
  iapply Hk
  isplitl [H2]
  · iexists _; isplitr; · ipureintro; exact harg2.read_unread _
    iexact H2
  isplitl [H3]
  · iexists _; isplitr; · ipureintro; exact harg3.read_unread _
    iexact H3
  iexists _, _, _, _
  isplitl [H4]; · iexact H4
  isplitl [H5]; · iexact H5
  isplitl [H6]; · iexact H6
  isplitl [H7]; · iexact H7
  ipureintro
  simp only [readAt_whole (F := F) (S := S256x2048) _ _ zero2, readAt_whole (F := F) (S := S512x2048) _ _ zero2, readAt_whole (F := F) (S := S256x4096) _ _ zero2, View.readCov_unit_zero (S := S256x2048) _ zero2, View.readCov_unit_zero (S := S256x4096) _ zero2, read_writes_whole (F := F) _ _ zero2, hf2, hf3, hf4, hf5, hf6, hf7]
  refine ⟨fun h => absurd h hc0, fun _ => rfl, ?k_hit, ?k_miss, fun h => absurd hc1 h, ⟨?w, ?kc, ?l_hit⟩, ?l_miss, fun _ => rfl, fun h => absurd hc2 h⟩
  case l_hit => intro y z h0 h1; exact cols_hit (F := F) arg7.view _ _ _ rfl y z h0 h1
  case l_miss => intro y h; exact (cols_miss (F := F) arg7.view _ _ _ rfl rfl y h).trans (congrFun hf7 y)
  case k_hit => intro _ y z h0 h1; exact rows_hit (F := F) arg5.view _ _ _ rfl y z h0 h1
  case k_miss => intro _ y h; exact (rows_miss (F := F) arg5.view _ _ _ rfl rfl y h).trans (congrFun hf5 y)
  case kc => intro y z h0 h1; exact readCov_rows_eq (F := F) arg5.view _ _ _ _ rfl rfl y z h0 h1

end Cert.Kernel.Gen

end
-- ==== Proof.K.RunFTF.lean ====
/-
  One call of the body at a grid point where the query block is not rescaled (chunk coordinate not 0), the key
  chunk is saved (row block 0) and the row softmax is not taken (chunk coordinate not 7):
  run symbolically, the body leaves the buffers at lists of slice stores over what they held, and reading those
  lists back gives the step relation: the query scratch is kept, rows [off, off + 512) of the key scratch are the cast key block and the other rows are kept,
  columns [off, off + 512) of the logits scratch are the product of the query scratch with those key rows and the other
  columns are kept, and the output buffer is kept.
-/
import proofs.«180405_g721554506538_bridgefix_236_8_alg».proof.Proof.K.RunLemmas
import Idealize.ShloMosaic.Lib.ValueIdx
import Idealize.ShloMosaic.Lib.WritesUnit
import Idealize.ShloMosaic.Lib.WholeRead
import Idealize.ShloMosaic.Lib.Pipeline.Value

set_option maxRecDepth 16384

noncomputable section

namespace Cert.Kernel.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem kernel_run_FTF (c : Dev nD) (i : grid0.Coords)
    (arg2 : Memref sig .tc .vmem S256x2048 .f32) (harg2 : arg2.IsWhole) (arg3 : Memref sig .tc .vmem S512x2048 .f32) (harg3 : arg3.IsWhole)
    (arg4 : Memref sig .tc .vmem S256x4096 .f32) (harg4 : arg4.IsWhole) (arg5 : Memref sig .tc .vmem S4096x2048 .bf16) (harg5 : arg5.IsWhole)
    (arg6 : Memref sig .tc .vmem S256x2048 .bf16) (harg6 : arg6.IsWhole) (arg7 : Memref sig .tc .vmem S256x4096 .f32) (harg7 : arg7.IsWhole)
    (hc0 : ¬cond0_0 i) (hc1 : cond0_1 i) (hc2 : ¬cond0_2 i)
    (x2 : Vec F S256x2048 .f32) (x3 : Vec F S512x2048 .f32) (xo : Vec F S256x4096 .f32)
    (kb : Vec F S4096x2048 .bf16) (qb : Vec F S256x2048 .bf16) (lb : Vec F S256x4096 .f32)
    (E : Set ℕ) (K : PUnit → sProp 𝕄) :
    iprop(owns (c : Thread nD τ) arg2 fullShare x2 ∗ owns (c : Thread nD τ) arg3 fullShare x3 ∗ owns (c : Thread nD τ) arg4 fullShare xo
        ∗ owns (c : Thread nD τ) arg5 fullShare kb ∗ owns (c : Thread nD τ) arg6 fullShare qb ∗ owns (c : Thread nD τ) arg7 fullShare lb
        ∗ (iprop(owns (c : Thread nD τ) arg2 fullShare x2 ∗ owns (c : Thread nD τ) arg3 fullShare x3
            ∗ (∃ f4 f5 f6 f7, (arg4.view.loc (c : Thread nD τ) ↦[arg4.view.set]{fullShare} f4)
                ∗ (arg5.view.loc (c : Thread nD τ) ↦[arg5.view.set]{fullShare} f5)
                ∗ (arg6.view.loc (c : Thread nD τ) ↦[arg6.view.set]{fullShare} f6)
                ∗ (arg7.view.loc (c : Thread nD τ) ↦[arg7.view.set]{fullShare} f7)
                ∗ ⌜Step i x2 x3 xo kb qb lb (arg4.view.read (Elt F) f4) (arg5.view.read (Elt F) f5)
                    (arg6.view.read (Elt F) f6) (arg7.view.read (Elt F) f7)⌝)) -∗ K ⟨⟩))
      ⊢ wp frame (wpE (defs₀ (F := F)) Variants.none c none) E (cc0__fused_attn_kernel i arg2 harg2 arg3 harg3 arg4 harg4 arg5 harg5 arg6 harg6 arg7 harg7) K := by
  simp only [cc0__fused_attn_kernel_eq_skeleton]; unfold cc0__fused_attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  sl_unfold_words
  iapply Hk
  isplitl [H2]
  · iexists _; isplitr; · ipureintro; exact harg2.read_unread _
    iexact H2
  isplitl [H3]
  · iexists _; isplitr; · ipureintro; exact harg3.read_unread _
    iexact H3
  iexists _, _, _, _
  isplitl [H4]; · iexact H4
  isplitl [H5]; · iexact H5
  isplitl [H6]; · iexact H6
  isplitl [H7]; · iexact H7
  ipureintro
  simp only [readAt_whole (F := F) (S := S256x2048) _ _ zero2, readAt_whole (F := F) (S := S512x2048) _ _ zero2, readAt_whole (F := F) (S := S256x4096) _ _ zero2, View.readCov_unit_zero (S := S256x2048) _ zero2, View.readCov_unit_zero (S := S256x4096) _ zero2, read_writes_whole (F := F) _ _ zero2, hf2, hf3, hf4, hf5, hf6, hf7]
  refine ⟨fun h => absurd h hc0, fun _ => rfl, ?k_hit, ?k_miss, fun h => absurd hc1 h, ⟨?w, ?kc, ?l_hit⟩, ?l_miss, fun h => absurd h hc2, fun _ => rfl⟩
  case l_hit => intro y z h0 h1; exact cols_hit (F := F) arg7.view _ _ _ rfl y z h0 h1
  case l_miss => intro y h; exact (cols_miss (F := F) arg7.view _ _ _ rfl rfl y h).trans (congrFun hf7 y)
  case k_hit => intro _ y z h0 h1; exact rows_hit (F := F) arg5.view _ _ _ rfl y z h0 h1
  case k_miss => intro _ y h; exact (rows_miss (F := F) arg5.view _ _ _ rfl rfl y h).trans (congrFun hf5 y)
  case kc => intro y z h0 h1; exact readCov_rows_eq (F := F) arg5.view _ _ _ _ rfl rfl y z h0 h1

end Cert.Kernel.Gen

end
-- ==== Proof.K.RunFFT.lean ====
/-
  One call of the body at a grid point where the query block is not rescaled (chunk coordinate not 0), the key
  chunk is not saved (row block not 0) and the row softmax is taken (chunk coordinate 7):
  run symbolically, the body leaves the buffers at lists of slice stores over what they held, and reading those
  lists back gives the step relation: the query scratch is kept, the key scratch is kept,
  columns [off, off + 512) of the logits scratch are the product of the query scratch with those key rows and the other
  columns are kept, and the output buffer is the row softmax of the logits scratch.
-/
import proofs.«180405_g721554506538_bridgefix_236_8_alg».proof.Proof.K.RunLemmas
import Idealize.ShloMosaic.Lib.ValueIdx
import Idealize.ShloMosaic.Lib.WritesUnit
import Idealize.ShloMosaic.Lib.WholeRead
import Idealize.ShloMosaic.Lib.Pipeline.Value

set_option maxRecDepth 16384

noncomputable section

namespace Cert.Kernel.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem kernel_run_FFT (c : Dev nD) (i : grid0.Coords)
    (arg2 : Memref sig .tc .vmem S256x2048 .f32) (harg2 : arg2.IsWhole) (arg3 : Memref sig .tc .vmem S512x2048 .f32) (harg3 : arg3.IsWhole)
    (arg4 : Memref sig .tc .vmem S256x4096 .f32) (harg4 : arg4.IsWhole) (arg5 : Memref sig .tc .vmem S4096x2048 .bf16) (harg5 : arg5.IsWhole)
    (arg6 : Memref sig .tc .vmem S256x2048 .bf16) (harg6 : arg6.IsWhole) (arg7 : Memref sig .tc .vmem S256x4096 .f32) (harg7 : arg7.IsWhole)
    (hc0 : ¬cond0_0 i) (hc1 : ¬cond0_1 i) (hc2 : cond0_2 i)
    (x2 : Vec F S256x2048 .f32) (x3 : Vec F S512x2048 .f32) (xo : Vec F S256x4096 .f32)
    (kb : Vec F S4096x2048 .bf16) (qb : Vec F S256x2048 .bf16) (lb : Vec F S256x4096 .f32)
    (E : Set ℕ) (K : PUnit → sProp 𝕄) :
    iprop(owns (c : Thread nD τ) arg2 fullShare x2 ∗ owns (c : Thread nD τ) arg3 fullShare x3 ∗ owns (c : Thread nD τ) arg4 fullShare xo
        ∗ owns (c : Thread nD τ) arg5 fullShare kb ∗ owns (c : Thread nD τ) arg6 fullShare qb ∗ owns (c : Thread nD τ) arg7 fullShare lb
        ∗ (iprop(owns (c : Thread nD τ) arg2 fullShare x2 ∗ owns (c : Thread nD τ) arg3 fullShare x3
            ∗ (∃ f4 f5 f6 f7, (arg4.view.loc (c : Thread nD τ) ↦[arg4.view.set]{fullShare} f4)
                ∗ (arg5.view.loc (c : Thread nD τ) ↦[arg5.view.set]{fullShare} f5)
                ∗ (arg6.view.loc (c : Thread nD τ) ↦[arg6.view.set]{fullShare} f6)
                ∗ (arg7.view.loc (c : Thread nD τ) ↦[arg7.view.set]{fullShare} f7)
                ∗ ⌜Step i x2 x3 xo kb qb lb (arg4.view.read (Elt F) f4) (arg5.view.read (Elt F) f5)
                    (arg6.view.read (Elt F) f6) (arg7.view.read (Elt F) f7)⌝)) -∗ K ⟨⟩))
      ⊢ wp frame (wpE (defs₀ (F := F)) Variants.none c none) E (cc0__fused_attn_kernel i arg2 harg2 arg3 harg3 arg4 harg4 arg5 harg5 arg6 harg6 arg7 harg7) K := by
  simp only [cc0__fused_attn_kernel_eq_skeleton]; unfold cc0__fused_attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  sl_unfold_words
  iapply Hk
  isplitl [H2]
  · iexists _; isplitr; · ipureintro; exact harg2.read_unread _
    iexact H2
  isplitl [H3]
  · iexists _; isplitr; · ipureintro; exact harg3.read_unread _
    iexact H3
  iexists _, _, _, _
  isplitl [H4]; · iexact H4
  isplitl [H5]; · iexact H5
  isplitl [H6]; · iexact H6
  isplitl [H7]; · iexact H7
  ipureintro
  simp only [readAt_whole (F := F) (S := S256x2048) _ _ zero2, readAt_whole (F := F) (S := S512x2048) _ _ zero2, readAt_whole (F := F) (S := S256x4096) _ _ zero2, View.readCov_unit_zero (S := S256x2048) _ zero2, View.readCov_unit_zero (S := S256x4096) _ zero2, read_writes_whole (F := F) _ _ zero2, hf2, hf3, hf4, hf5, hf6, hf7]
  refine ⟨fun h => absurd h hc0, fun _ => rfl, fun h => absurd h hc1, fun h => absurd h hc1, fun _ => rfl, ⟨?w, ?kc, ?l_hit⟩, ?l_miss, fun _ => rfl, fun h => absurd hc2 h⟩
  case l_hit => intro y z h0 h1; exact cols_hit (F := F) arg7.view _ _ _ rfl y z h0 h1
  case l_miss => intro y h; exact (cols_miss (F := F) arg7.view _ _ _ rfl rfl y h).trans (congrFun hf7 y)
  case kc => intro y z h0 h1; exact (readAt_rows_eq (F := F) arg5.view _ _ rfl y z h0 h1).trans (congrFun hf5 y)

end Cert.Kernel.Gen

end
-- ==== Proof.K.RunFFF.lean ====
/-
  One call of the body at a grid point where the query block is not rescaled (chunk coordinate not 0), the key
  chunk is not saved (row block not 0) and the row softmax is not taken (chunk coordinate not 7):
  run symbolically, the body leaves the buffers at lists of slice stores over what they held, and reading those
  lists back gives the step relation: the query scratch is kept, the key scratch is kept,
  columns [off, off + 512) of the logits scratch are the product of the query scratch with those key rows and the other
  columns are kept, and the output buffer is kept.
-/
import proofs.«180405_g721554506538_bridgefix_236_8_alg».proof.Proof.K.RunLemmas
import Idealize.ShloMosaic.Lib.ValueIdx
import Idealize.ShloMosaic.Lib.WritesUnit
import Idealize.ShloMosaic.Lib.WholeRead
import Idealize.ShloMosaic.Lib.Pipeline.Value

set_option maxRecDepth 16384

noncomputable section

namespace Cert.Kernel.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem kernel_run_FFF (c : Dev nD) (i : grid0.Coords)
    (arg2 : Memref sig .tc .vmem S256x2048 .f32) (harg2 : arg2.IsWhole) (arg3 : Memref sig .tc .vmem S512x2048 .f32) (harg3 : arg3.IsWhole)
    (arg4 : Memref sig .tc .vmem S256x4096 .f32) (harg4 : arg4.IsWhole) (arg5 : Memref sig .tc .vmem S4096x2048 .bf16) (harg5 : arg5.IsWhole)
    (arg6 : Memref sig .tc .vmem S256x2048 .bf16) (harg6 : arg6.IsWhole) (arg7 : Memref sig .tc .vmem S256x4096 .f32) (harg7 : arg7.IsWhole)
    (hc0 : ¬cond0_0 i) (hc1 : ¬cond0_1 i) (hc2 : ¬cond0_2 i)
    (x2 : Vec F S256x2048 .f32) (x3 : Vec F S512x2048 .f32) (xo : Vec F S256x4096 .f32)
    (kb : Vec F S4096x2048 .bf16) (qb : Vec F S256x2048 .bf16) (lb : Vec F S256x4096 .f32)
    (E : Set ℕ) (K : PUnit → sProp 𝕄) :
    iprop(owns (c : Thread nD τ) arg2 fullShare x2 ∗ owns (c : Thread nD τ) arg3 fullShare x3 ∗ owns (c : Thread nD τ) arg4 fullShare xo
        ∗ owns (c : Thread nD τ) arg5 fullShare kb ∗ owns (c : Thread nD τ) arg6 fullShare qb ∗ owns (c : Thread nD τ) arg7 fullShare lb
        ∗ (iprop(owns (c : Thread nD τ) arg2 fullShare x2 ∗ owns (c : Thread nD τ) arg3 fullShare x3
            ∗ (∃ f4 f5 f6 f7, (arg4.view.loc (c : Thread nD τ) ↦[arg4.view.set]{fullShare} f4)
                ∗ (arg5.view.loc (c : Thread nD τ) ↦[arg5.view.set]{fullShare} f5)
                ∗ (arg6.view.loc (c : Thread nD τ) ↦[arg6.view.set]{fullShare} f6)
                ∗ (arg7.view.loc (c : Thread nD τ) ↦[arg7.view.set]{fullShare} f7)
                ∗ ⌜Step i x2 x3 xo kb qb lb (arg4.view.read (Elt F) f4) (arg5.view.read (Elt F) f5)
                    (arg6.view.read (Elt F) f6) (arg7.view.read (Elt F) f7)⌝)) -∗ K ⟨⟩))
      ⊢ wp frame (wpE (defs₀ (F := F)) Variants.none c none) E (cc0__fused_attn_kernel i arg2 harg2 arg3 harg3 arg4 harg4 arg5 harg5 arg6 harg6 arg7 harg7) K := by
  simp only [cc0__fused_attn_kernel_eq_skeleton]; unfold cc0__fused_attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  sl_unfold_words
  iapply Hk
  isplitl [H2]
  · iexists _; isplitr; · ipureintro; exact harg2.read_unread _
    iexact H2
  isplitl [H3]
  · iexists _; isplitr; · ipureintro; exact harg3.read_unread _
    iexact H3
  iexists _, _, _, _
  isplitl [H4]; · iexact H4
  isplitl [H5]; · iexact H5
  isplitl [H6]; · iexact H6
  isplitl [H7]; · iexact H7
  ipureintro
  simp only [readAt_whole (F := F) (S := S256x2048) _ _ zero2, readAt_whole (F := F) (S := S512x2048) _ _ zero2, readAt_whole (F := F) (S := S256x4096) _ _ zero2, View.readCov_unit_zero (S := S256x2048) _ zero2, View.readCov_unit_zero (S := S256x4096) _ zero2, read_writes_whole (F := F) _ _ zero2, hf2, hf3, hf4, hf5, hf6, hf7]
  refine ⟨fun h => absurd h hc0, fun _ => rfl, fun h => absurd h hc1, fun h => absurd h hc1, fun _ => rfl, ⟨?w, ?kc, ?l_hit⟩, ?l_miss, fun h => absurd h hc2, fun _ => rfl⟩
  case l_hit => intro y z h0 h1; exact cols_hit (F := F) arg7.view _ _ _ rfl y z h0 h1
  case l_miss => intro y h; exact (cols_miss (F := F) arg7.view _ _ _ rfl rfl y h).trans (congrFun hf7 y)
  case kc => intro y z h0 h1; exact (readAt_rows_eq (F := F) arg5.view _ _ rfl y z h0 h1).trans (congrFun hf5 y)

end Cert.Kernel.Gen

end
-- ==== Proof.K.Run.lean ====
/-
  One call of the body, whatever the grid point: by cases on its three branch conditions, each case run symbolically.
-/
import proofs.«180405_g721554506538_bridgefix_236_8_alg».proof.Proof.K.RunTTT
import proofs.«180405_g721554506538_bridgefix_236_8_alg».proof.Proof.K.RunTTF
import proofs.«180405_g721554506538_bridgefix_236_8_alg».proof.Proof.K.RunTFT
import proofs.«180405_g721554506538_bridgefix_236_8_alg».proof.Proof.K.RunTFF
import proofs.«180405_g721554506538_bridgefix_236_8_alg».proof.Proof.K.RunFTT
import proofs.«180405_g721554506538_bridgefix_236_8_alg».proof.Proof.K.RunFTF
import proofs.«180405_g721554506538_bridgefix_236_8_alg».proof.Proof.K.RunFFT
import proofs.«180405_g721554506538_bridgefix_236_8_alg».proof.Proof.K.RunFFF
import Idealize.ShloMosaic.Lib.ValueIdx

set_option maxRecDepth 16384

noncomputable section

namespace Cert.Kernel.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem kernel_run (c : Dev nD) (i : grid0.Coords)
    (arg2 : Memref sig .tc .vmem S256x2048 .f32) (harg2 : arg2.IsWhole) (arg3 : Memref sig .tc .vmem S512x2048 .f32) (harg3 : arg3.IsWhole)
    (arg4 : Memref sig .tc .vmem S256x4096 .f32) (harg4 : arg4.IsWhole) (arg5 : Memref sig .tc .vmem S4096x2048 .bf16) (harg5 : arg5.IsWhole)
    (arg6 : Memref sig .tc .vmem S256x2048 .bf16) (harg6 : arg6.IsWhole) (arg7 : Memref sig .tc .vmem S256x4096 .f32) (harg7 : arg7.IsWhole)

    (x2 : Vec F S256x2048 .f32) (x3 : Vec F S512x2048 .f32) (xo : Vec F S256x4096 .f32)
    (kb : Vec F S4096x2048 .bf16) (qb : Vec F S256x2048 .bf16) (lb : Vec F S256x4096 .f32)
    (E : Set ℕ) (K : PUnit → sProp 𝕄) :
    iprop(owns (c : Thread nD τ) arg2 fullShare x2 ∗ owns (c : Thread nD τ) arg3 fullShare x3 ∗ owns (c : Thread nD τ) arg4 fullShare xo
        ∗ owns (c : Thread nD τ) arg5 fullShare kb ∗ owns (c : Thread nD τ) arg6 fullShare qb ∗ owns (c : Thread nD τ) arg7 fullShare lb
        ∗ (iprop(owns (c : Thread nD τ) arg2 fullShare x2 ∗ owns (c : Thread nD τ) arg3 fullShare x3
            ∗ (∃ f4 f5 f6 f7, (arg4.view.loc (c : Thread nD τ) ↦[arg4.view.set]{fullShare} f4)
                ∗ (arg5.view.loc (c : Thread nD τ) ↦[arg5.view.set]{fullShare} f5)
                ∗ (arg6.view.loc (c : Thread nD τ) ↦[arg6.view.set]{fullShare} f6)
                ∗ (arg7.view.loc (c : Thread nD τ) ↦[arg7.view.set]{fullShare} f7)
                ∗ ⌜Step i x2 x3 xo kb qb lb (arg4.view.read (Elt F) f4) (arg5.view.read (Elt F) f5)
                    (arg6.view.read (Elt F) f6) (arg7.view.read (Elt F) f7)⌝)) -∗ K ⟨⟩))
      ⊢ wp frame (wpE (defs₀ (F := F)) Variants.none c none) E (cc0__fused_attn_kernel i arg2 harg2 arg3 harg3 arg4 harg4 arg5 harg5 arg6 harg6 arg7 harg7) K := by
  by_cases hc0 : cond0_0 i <;> by_cases hc1 : cond0_1 i <;> by_cases hc2 : cond0_2 i
  · exact kernel_run_TTT c i arg2 harg2 arg3 harg3 arg4 harg4 arg5 harg5 arg6 harg6 arg7 harg7 hc0 hc1 hc2 x2 x3 xo kb qb lb E K
  · exact kernel_run_TTF c i arg2 harg2 arg3 harg3 arg4 harg4 arg5 harg5 arg6 harg6 arg7 harg7 hc0 hc1 hc2 x2 x3 xo kb qb lb E K
  · exact kernel_run_TFT c i arg2 harg2 arg3 harg3 arg4 harg4 arg5 harg5 arg6 harg6 arg7 harg7 hc0 hc1 hc2 x2 x3 xo kb qb lb E K
  · exact kernel_run_TFF c i arg2 harg2 arg3 harg3 arg4 harg4 arg5 harg5 arg6 harg6 arg7 harg7 hc0 hc1 hc2 x2 x3 xo kb qb lb E K
  · exact kernel_run_FTT c i arg2 harg2 arg3 harg3 arg4 harg4 arg5 harg5 arg6 harg6 arg7 harg7 hc0 hc1 hc2 x2 x3 xo kb qb lb E K
  · exact kernel_run_FTF c i arg2 harg2 arg3 harg3 arg4 harg4 arg5 harg5 arg6 harg6 arg7 harg7 hc0 hc1 hc2 x2 x3 xo kb qb lb E K
  · exact kernel_run_FFT c i arg2 harg2 arg3 harg3 arg4 harg4 arg5 harg5 arg6 harg6 arg7 harg7 hc0 hc1 hc2 x2 x3 xo kb qb lb E K
  · exact kernel_run_FFF c i arg2 harg2 arg3 harg3 arg4 harg4 arg5 harg5 arg6 harg6 arg7 harg7 hc0 hc1 hc2 x2 x3 xo kb qb lb E K

end Cert.Kernel.Gen

end
-- ==== Proof.K.InvStep.lean ====
/-
  One call of the body at point t carries the scratches' invariant from t points done to t + 1 points done, and at a
  point of the last chunk (t % 8 = 7) the output buffer is left at the row block's specified output block.
  Point t = 8·r + c has chunk coordinate c = t % 8: the query block is rescaled when c = 0, the key chunk saved when
  t < 8, and the slice offsets are 512·c; the row block is t / 8, the same at t − 1 unless c = 0.
-/
import proofs.«180405_g721554506538_bridgefix_236_8_alg».proof.Proof.K.Inv
import Idealize.ShloMosaic.Lib.ValueIdx

set_option maxRecDepth 16384

noncomputable section

namespace Cert.Kernel.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A key chunk depends on its number only. -/
theorem Kc_congr (c : Dev nD) (j j' : ℕ) (h : j < 8) (h' : j' < 8) (e : j = j') : Kc m c j h = Kc m c j' h' := by
  subst e; rfl

/-- A query block depends on its point only. -/
theorem qblk_congr (c : Dev nD) (n n' : ℕ) (h : n < 128) (h' : n' < 128) (e : n = n') : qblk m c n h = qblk m c n' h' := by
  subst e; rfl

/-- The key chunk stored at point t starts at row 512·(t % 8). -/
theorem off1_0 (t : Fin cfg0.N) : k0_off1 (grid0.coords t) 0 = 512 * (t.val % 8) := by rw [off1_eq t]; rfl
/-- The key chunk loaded at point t starts at row 512·(t % 8). -/
theorem off2_0 (t : Fin cfg0.N) : k0_off2 (grid0.coords t) 0 = 512 * (t.val % 8) := by rw [off2_eq t]; rfl
/-- The logits chunk stored at point t starts at column 512·(t % 8). -/
theorem off3_1 (t : Fin cfg0.N) : k0_off3 (grid0.coords t) 1 = 512 * (t.val % 8) := by rw [off3_eq t]; rfl

/-- The key scratch after point t agrees with the cast keys on the rows of the chunks saved through point t. -/
theorem inv_step_k (c : Dev nD) (t : Fin cfg0.N)
    (xo : Vec F S256x4096 .f32) (kb : Vec F S4096x2048 .bf16) (qb : Vec F S256x2048 .bf16) (lb : Vec F S256x4096 .f32)
    (o' : Vec F S256x4096 .f32) (kb' : Vec F S4096x2048 .bf16) (qb' : Vec F S256x2048 .bf16) (lb' : Vec F S256x4096 .f32)
    (hI : InvAt m c t.val (Nat.le_of_lt (lt_of_lt_of_eq t.isLt N_0)) kb qb lb)
    (hS : Step (grid0.coords t) (iblk m c 0 t) (iblk m c 1 t) xo kb qb lb o' kb' qb' lb') :
    ∀ y : S4096x2048.Idx, (y 0).val < 512 * min (t.val + 1) 8 → kb' y = Ks m c y := by
  intro y hy
  have hN : t.val < 128 := lt_of_lt_of_eq t.isLt N_0
  have hy0 := idx2_lt0 y
  by_cases h8 : t.val < 8
  · have hc := (hcond0_1 t).2 h8
    have hcc : t.val % 8 = t.val := Nat.mod_eq_of_lt h8
    rw [min_eq_left (by omega)] at hy
    by_cases hin : 512 * t.val ≤ (y 0).val
    · have e1 := hS.k_hit hc y (ix2 (⟨(y 0).val - 512 * t.val, by omega⟩ : Fin 512) (y 1))
        (by rw [off1_0, hcc]; show (y 0).val = 512 * t.val + ((y 0).val - 512 * t.val); omega) rfl
      rw [e1]
      unfold Ks
      rw [Kc_congr m c ((y 0).val / 512) t.val _ h8 (by omega)]
      unfold Kc kblk
      congr 1
      funext a
      match a with
      | ⟨0, _⟩ => exact Fin.ext (by show (y 0).val - 512 * t.val = (y 0).val % 512; omega)
      | ⟨1, _⟩ => rfl
    · rw [hS.k_miss hc y (Or.inl (by rw [off1_0, hcc]; omega))]
      exact hI.k y (by rw [min_eq_left (by omega)]; omega)
  · have hc : ¬ cond0_1 (grid0.coords t) := fun h => h8 ((hcond0_1 t).1 h)
    rw [hS.k_keep hc]
    rw [min_eq_right (by omega)] at hy
    exact hI.k y (by rw [min_eq_right (by omega)]; exact hy)

/-- The query scratch after point t is the rescaled cast query block of point t's row block. -/
theorem inv_step_q (c : Dev nD) (t : Fin cfg0.N)
    (xo : Vec F S256x4096 .f32) (kb : Vec F S4096x2048 .bf16) (qb : Vec F S256x2048 .bf16) (lb : Vec F S256x4096 .f32)
    (o' : Vec F S256x4096 .f32) (kb' : Vec F S4096x2048 .bf16) (qb' : Vec F S256x2048 .bf16) (lb' : Vec F S256x4096 .f32)
    (hI : InvAt m c t.val (Nat.le_of_lt (lt_of_lt_of_eq t.isLt N_0)) kb qb lb)
    (hS : Step (grid0.coords t) (iblk m c 0 t) (iblk m c 1 t) xo kb qb lb o' kb' qb' lb') :
    qb' = Qs m c t.val (lt_of_lt_of_eq t.isLt N_0) := by
  have hN : t.val < 128 := lt_of_lt_of_eq t.isLt N_0
  by_cases h0 : t.val % 8 = 0
  · rw [hS.q_hit ((hcond0_0 t).2 h0)]
    unfold Qs
    rw [qblk_congr m c (8 * (t.val / 8)) t.val _ hN (by omega)]
    rfl
  · rw [hS.q_keep (fun h => h0 ((hcond0_0 t).1 h))]
    have ht : 0 < t.val := by omega
    rw [hI.q ht]
    exact Qs_congr m c _ _ _ _ (by omega)

/-- The logits scratch after point t agrees with the logits of point t's row block on the columns of the chunks
    multiplied through point t. -/
theorem inv_step_l (c : Dev nD) (t : Fin cfg0.N)
    (xo : Vec F S256x4096 .f32) (kb : Vec F S4096x2048 .bf16) (qb : Vec F S256x2048 .bf16) (lb : Vec F S256x4096 .f32)
    (o' : Vec F S256x4096 .f32) (kb' : Vec F S4096x2048 .bf16) (qb' : Vec F S256x2048 .bf16) (lb' : Vec F S256x4096 .f32)
    (hI : InvAt m c t.val (Nat.le_of_lt (lt_of_lt_of_eq t.isLt N_0)) kb qb lb)
    (hS : Step (grid0.coords t) (iblk m c 0 t) (iblk m c 1 t) xo kb qb lb o' kb' qb' lb')
    (hk : ∀ y : S4096x2048.Idx, (y 0).val < 512 * min (t.val + 1) 8 → kb' y = Ks m c y)
    (hq : qb' = Qs m c t.val (lt_of_lt_of_eq t.isLt N_0)) :
    ∀ y : S256x4096.Idx, (y 1).val < 512 * (t.val % 8 + 1) → lb' y = Ls m c t.val (lt_of_lt_of_eq t.isLt N_0) y := by
  intro y hy
  have hN : t.val < 128 := lt_of_lt_of_eq t.isLt N_0
  have hy1 := idx2_lt1 y
  have hcc : t.val % 8 < 8 := Nat.mod_lt _ (by norm_num)
  obtain ⟨kc, hkc, hl⟩ := hS.l_hit
  by_cases hin : 512 * (t.val % 8) ≤ (y 1).val
  · have e1 := hl y (ix2 (y 0) (⟨(y 1).val - 512 * (t.val % 8), by omega⟩ : Fin 512)) rfl
      (by rw [off3_1]; show (y 1).val = 512 * (t.val % 8) + ((y 1).val - 512 * (t.val % 8)); omega)
    have ekc : kc = Kc m c (t.val % 8) hcc := by
      funext z
      have hz0 := idx2_lt0 z
      have e2 := hkc (ix2 (⟨512 * (t.val % 8) + (z 0).val, by omega⟩ : Fin 4096) (z 1)) z (by rw [off2_0]) rfl
      rw [e2, hk _ (by show 512 * (t.val % 8) + (z 0).val < 512 * min (t.val + 1) 8; omega)]
      unfold Ks
      rw [Kc_congr m c _ (t.val % 8) _ hcc (by show (512 * (t.val % 8) + (z 0).val) / 512 = t.val % 8; omega)]
      congr 1
      funext a
      match a with
      | ⟨0, _⟩ => exact Fin.ext (by show (512 * (t.val % 8) + (z 0).val) % 512 = (z 0).val; omega)
      | ⟨1, _⟩ => rfl
    rw [e1, hq, ekc]
    unfold Ls
    rw [Kc_congr m c ((y 1).val / 512) (t.val % 8) _ hcc (by omega)]
    congr 1
    funext a
    match a with
    | ⟨0, _⟩ => rfl
    | ⟨1, _⟩ => exact Fin.ext (by show (y 1).val - 512 * (t.val % 8) = (y 1).val % 512; omega)
  · have ht : 0 < t.val := by omega
    rw [hS.l_miss y (Or.inl (by rw [off3_1]; omega)), hI.l ht y (by omega)]
    exact congrFun (Ls_congr m c _ _ _ _ (by omega)) y

/-- The invariant step. -/
theorem inv_step (c : Dev nD) (t : Fin cfg0.N)
    (xo : Vec F S256x4096 .f32) (kb : Vec F S4096x2048 .bf16) (qb : Vec F S256x2048 .bf16) (lb : Vec F S256x4096 .f32)
    (o' : Vec F S256x4096 .f32) (kb' : Vec F S4096x2048 .bf16) (qb' : Vec F S256x2048 .bf16) (lb' : Vec F S256x4096 .f32)
    (hI : InvAt m c t.val (Nat.le_of_lt (lt_of_lt_of_eq t.isLt N_0)) kb qb lb)
    (hS : Step (grid0.coords t) (iblk m c 0 t) (iblk m c 1 t) xo kb qb lb o' kb' qb' lb') :
    InvAt m c (t.val + 1) (lt_of_lt_of_eq t.isLt N_0) kb' qb' lb'
      ∧ (cond0_2 (grid0.coords t) → o' = Os m c t.val (lt_of_lt_of_eq t.isLt N_0)) := by
  have hN : t.val < 128 := lt_of_lt_of_eq t.isLt N_0
  have hk := inv_step_k m c t xo kb qb lb o' kb' qb' lb' hI hS
  have hq := inv_step_q m c t xo kb qb lb o' kb' qb' lb' hI hS
  have hl := inv_step_l m c t xo kb qb lb o' kb' qb' lb' hI hS hk hq
  refine ⟨⟨hk, fun h => hq.trans (Qs_congr m c _ _ _ _ (by omega)), fun h y hy => ?_⟩, fun hc2 => ?_⟩
  · rw [Nat.add_sub_cancel] at hy
    exact (hl y hy).trans (congrFun (Ls_congr m c _ _ _ _ (by omega)) y)
  · have h7 : t.val % 8 = 7 := (hcond0_2 t).1 hc2
    rw [hS.o_hit hc2]
    unfold Os
    congr 1
    funext y
    exact hl y (by have := idx2_lt1 y; omega)

end Cert.Kernel.Gen

end
-- ==== Proof.K.Data.lean ====
/-
  The proof data of the one pipeline: the arrays as the region finds them; after the body at point t each input's
  buffer at its block and the output's at the row block's specified output block; between points the three scratches
  owned at contents satisfying the invariant, and the generator register at some state.
-/
import proofs.«180405_g721554506538_bridgefix_236_8_alg».proof.Proof.K.Inv
import Idealize.ShloMosaic.Lib.ValueIdx

set_option maxRecDepth 16384

noncomputable section

namespace Cert.Kernel.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant after `p` points: the scratches at contents satisfying `InvAt … p`, the generator register at
    some state. -/
def PhiS (c : Dev nD) (p : ℕ) (hp : p ≤ 128) : sProp 𝕄 :=
  iprop((∃ kb qb lb, owns (c : Thread nD τ) scM0_0 fullShare kb ∗ owns (c : Thread nD τ) scM0_1 fullShare qb
      ∗ owns (c : Thread nD τ) scM0_2 fullShare lb ∗ ⌜InvAt m c p hp kb qb lb⌝) ∗ (∃ r, prngReg c r))

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Os m c t.val (lt_of_lt_of_eq t.isLt N_0)
  Φ t := PhiS m c t.val (Nat.le_of_lt_succ (lt_of_lt_of_eq t.isLt (congrArg (· + 1) N_0)))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = Os m c t.val (lt_of_lt_of_eq t.isLt N_0) := by
  dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

end Cert.Kernel.Gen

end
-- ==== Proof.K.Body.lean ====
/-
  The body obligation at every grid point, and the run of @main. At point t the pipeline hands the body its two
  input blocks and the output buffer, and the invariant hands it the three scratches at contents satisfying the
  invariant for t points done; one call of the body is one step of that invariant, and at the last chunk of a row
  block it leaves the specified output block in the output buffer, elsewhere the output buffer untouched (the window
  is idle there and not written back). The class invariant yields the invariant for zero points done, and any
  later invariant yields it back by forgetting what the scratches hold.
-/
import proofs.«180405_g721554506538_bridgefix_236_8_alg».proof.Proof.K.Run
import proofs.«180405_g721554506538_bridgefix_236_8_alg».proof.Proof.K.InvStep
import proofs.«180405_g721554506538_bridgefix_236_8_alg».proof.Proof.K.Data
import Idealize.ShloMosaic.Lib.ValueIdx

set_option maxRecDepth 16384

noncomputable section

namespace Cert.Kernel.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem Phi_castSucc (c : Dev nD) (t : Fin cfg0.N) :
    (dats m 0 c).Φ t.castSucc = PhiS m c t.val (Nat.le_of_lt (lt_of_lt_of_eq t.isLt N_0)) := by
  dsimp only [dats]; simp only [Fin.coe_castSucc]

theorem Phi_succ (c : Dev nD) (t : Fin cfg0.N) :
    (dats m 0 c).Φ t.succ = PhiS m c (t.val + 1) (lt_of_lt_of_eq t.isLt N_0) := rfl

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [Phi_succ, Phi_castSucc]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  unfold PhiS
  by_cases h2 : cond0_2 (grid0.coords t)
  · rw [show (dats m 0 c).leavesExact 2 t = owns (c : Thread nD τ) (ms0_2 t) fullShare ((dats m 0 c).after 2 t) from by
      unfold Dat.leavesExact; rw [liveAt0_2 t h2], after0_2]
    iintro ⟨⟨⟨%kb, %qb, %lb, HS0, HS1, HS2, %hI⟩, Hg⟩, Ho, ⟨%d0, H0⟩, ⟨%d1, H1⟩, ⟨%d2, H2⟩⟩
    iapply (kernel_run c (grid0.coords t) (ms0_0 t) (hs0_0 t) (ms0_1 t) (hs0_1 t) (ms0_2 t) (hs0_2 t)
      scM0_0 (Memref.isWhole_whole _) scM0_1 (Memref.isWhole_whole _) scM0_2 (Memref.isWhole_whole _)
      (iblk m c 0 t) (iblk m c 1 t) ((dats m 0 c).before 2 t d2) kb qb lb Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, ⟨%f4, %f5, %f6, %f7, H2, HS0, HS1, HS2, %hS⟩⟩
    obtain ⟨hI', hO⟩ := inv_step m c t _ kb qb lb _ _ _ _ hI hS
    isplitl [HS0 HS1 HS2 Hg]
    · isplitl [HS0 HS1 HS2]
      · iexists (scM0_0.view.read (Elt F) f5), (scM0_1.view.read (Elt F) f6), (scM0_2.view.read (Elt F) f7)
        isplitl [HS0]
        · unfold owns; iexists f5; isplitr
          · ipureintro; rfl
          iexact HS0
        isplitl [HS1]
        · unfold owns; iexists f6; isplitr
          · ipureintro; rfl
          iexact HS1
        isplitl [HS2]
        · unfold owns; iexists f7; isplitr
          · ipureintro; rfl
          iexact HS2
        ipureintro; exact hI'
      iexact Hg
    isplitl [Ho]; · iexact Ho
    isplitl [H0]; · iexact H0
    isplitl [H1]; · iexact H1
    unfold owns; iexists f4; isplitr
    · ipureintro; exact hO h2
    iexact H2
  · rw [Dat.leavesExact_idle (dats m 0 c) 2 t (idleAt0_2 t h2) (noFlush0_2 t h2)]
    iintro ⟨⟨⟨%kb, %qb, %lb, HS0, HS1, HS2, %hI⟩, Hg⟩, Ho, ⟨%d0, H0⟩, ⟨%d1, H1⟩, ⟨%d2, H2⟩⟩
    iapply (kernel_run c (grid0.coords t) (ms0_0 t) (hs0_0 t) (ms0_1 t) (hs0_1 t) (ms0_2 t) (hs0_2 t)
      scM0_0 (Memref.isWhole_whole _) scM0_1 (Memref.isWhole_whole _) scM0_2 (Memref.isWhole_whole _)
      (iblk m c 0 t) (iblk m c 1 t) ((dats m 0 c).before 2 t d2) kb qb lb Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, ⟨%f4, %f5, %f6, %f7, H2, HS0, HS1, HS2, %hS⟩⟩
    obtain ⟨hI', hO⟩ := inv_step m c t _ kb qb lb _ _ _ _ hI hS
    isplitl [HS0 HS1 HS2 Hg]
    · isplitl [HS0 HS1 HS2]
      · iexists (scM0_0.view.read (Elt F) f5), (scM0_1.view.read (Elt F) f6), (scM0_2.view.read (Elt F) f7)
        isplitl [HS0]
        · unfold owns; iexists f5; isplitr
          · ipureintro; rfl
          iexact HS0
        isplitl [HS1]
        · unfold owns; iexists f6; isplitr
          · ipureintro; rfl
          iexact HS1
        isplitl [HS2]
        · unfold owns; iexists f7; isplitr
          · ipureintro; rfl
          iexact HS2
        ipureintro; exact hI'
      iexact Hg
    isplitl [Ho]; · iexact Ho
    isplitl [H0]; · iexact H0
    isplitl [H1]; · iexact H1
    iexists d2; unfold owns; iexists f4; isplitr
    · ipureintro; exact hS.o_keep h2
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨⟨%kb, HS0⟩, ⟨%qb, HS1⟩, ⟨%lb, HS2⟩⟩, Hg⟩
  isplitl [HS0 HS1 HS2]
  · iexists kb, qb, lb
    isplitl [HS0]; · iexact HS0
    isplitl [HS1]; · iexact HS1
    isplitl [HS2]; · iexact HS2
    ipureintro; exact InvAt.zero m c kb qb lb
  iexact Hg

/-- After the last point the invariant gives the class invariant back: what the scratches hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (lt_of_lt_of_eq (Fin.last cfg0.N).isLt (congrArg (· + 1) N_0))) from rfl, PhiA0_eq]
  unfold PhiS
  iintro ⟨⟨%kb, %qb, %lb, HS0, HS1, HS2, -⟩, Hg⟩
  isplitl [HS0 HS1 HS2]
  · isplitl [HS0]; · (iexists _; iexact HS0)
    isplitl [HS1]; · (iexists _; iexact HS1)
    iexists _; iexact HS2
  iexact Hg

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program terminates without a fault and leaves both argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Gen

end
-- ==== Proof.KI.Grid.lean ====
/-
  The grid of the fused attention kernel is 16 row blocks by 8 key chunks, point t = 8·r + c. This module decides, once
  over the 128 points, what the body's three branches and its slice offsets are at point t:
  the query block is rescaled when c = 0 (t % 8 = 0), the key chunk is saved when r = 0 (t < 8), the row softmax is
  taken when c = 7 (t % 8 = 7); the key chunk c occupies rows [512·c, 512·c + 512) of the key scratch and the logits
  chunk c columns [512·c, 512·c + 512) of the logits scratch. It also names the staging and scratch memrefs the body
  is called with, and restates the region's class invariant over the three scratch memrefs.
-/
import proofs.«180405_g721554506538_bridgefix_236_8_alg».proof.Proof.Gen.KernelIdeal.Frame
import proofs.«180405_g721554506538_bridgefix_236_8_alg».proof.Proof.Gen.KernelIdeal.Skeleton
import Idealize.ShloMosaic.Lib.ValueIdx
import Idealize.ShloMosaic.Lib.WritesUnit

set_option maxRecDepth 16384

noncomputable section

namespace Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The branch conditions -/

/-- The first branch (rescale and cast the query block) is taken when the chunk coordinate is 0. -/
abbrev cond0_0 (i : grid0.Coords) : Prop := (Scalar.cmpi .ne (Scalar.extui (Scalar.cmpi .eq (BitVec.ofNat 32 (i 1).val) 0#32)) 0#32) = 1#1
/-- The second branch (cast and save the key chunk) is taken when the row-block coordinate is 0. -/
abbrev cond0_1 (i : grid0.Coords) : Prop := k0_cond2 i = 1#1
/-- The third branch (the row softmax) is taken when the chunk coordinate is 7. -/
abbrev cond0_2 (i : grid0.Coords) : Prop := k0_cond3 i = 1#1

theorem hcond0_0 : ∀ t : Fin cfg0.N, cond0_0 (grid0.coords t) ↔ t.val % 8 = 0 :=
  (by decide +kernel : ∀ t : Fin grid0.N, cond0_0 (grid0.coords t) ↔ t.val % 8 = 0)
theorem hcond0_1 : ∀ t : Fin cfg0.N, cond0_1 (grid0.coords t) ↔ t.val < 8 :=
  (by decide +kernel : ∀ t : Fin grid0.N, cond0_1 (grid0.coords t) ↔ t.val < 8)
theorem hcond0_2 : ∀ t : Fin cfg0.N, cond0_2 (grid0.coords t) ↔ t.val % 8 = 7 :=
  (by decide +kernel : ∀ t : Fin grid0.N, cond0_2 (grid0.coords t) ↔ t.val % 8 = 7)

/-! ## The slice offsets -/

/-- The key chunk stored at point t starts at row 512·(t % 8). -/
theorem off1_eq : ∀ t : Fin cfg0.N, k0_off1 (grid0.coords t) = ![512 * (t.val % 8), 0] :=
  (by decide +kernel : ∀ t : Fin grid0.N, k0_off1 (grid0.coords t) = ![512 * (t.val % 8), 0])
/-- The key chunk loaded at point t starts at row 512·(t % 8). -/
theorem off2_eq : ∀ t : Fin cfg0.N, k0_off2 (grid0.coords t) = ![512 * (t.val % 8), 0] :=
  (by decide +kernel : ∀ t : Fin grid0.N, k0_off2 (grid0.coords t) = ![512 * (t.val % 8), 0])
/-- The logits chunk stored at point t starts at column 512·(t % 8). -/
theorem off3_eq : ∀ t : Fin cfg0.N, k0_off3 (grid0.coords t) = ![0, 512 * (t.val % 8)] :=
  (by decide +kernel : ∀ t : Fin grid0.N, k0_off3 (grid0.coords t) = ![0, 512 * (t.val % 8)])

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last chunk the output window is idle (the body stores nothing into it) -/
theorem idleAt0_2 : ∀ t : Fin cfg0.N, ¬cond0_2 (grid0.coords t) → cfg0.idle 2 (grid0.coords t) = true := by decide +kernel
/-- and is not written back; -/
theorem noFlush0_2 : ∀ t : Fin cfg0.N, ¬cond0_2 (grid0.coords t) → (cfg0.win 2).flush t = false := by decide +kernel
/-- at the last chunk it is live. -/
theorem liveAt0_2 : ∀ t : Fin cfg0.N, cond0_2 (grid0.coords t) → cfg0.idle 2 (grid0.coords t) = false := by decide +kernel

/-! ## The memrefs the body is called with -/

abbrev ms0_0 (t : Fin cfg0.N) : Memref sig .tc .vmem S256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x4096 .f32 := win0_2.stage (cfg0.slots t 2)
abbrev hs0_2 (t : Fin cfg0.N) : (ms0_2 t).IsWhole := hstage0_2 ((cfg0.slots t 2).cast nbuf0_2)
/-- The key scratch (all 4096 key rows, cast), the query scratch (one rescaled row block) and the logits scratch
    (one row block against all keys). -/
abbrev scM0_0 : Memref sig .tc .vmem S4096x2048 .bf16 := Memref.whole cc0_scratch0
abbrev scM0_1 : Memref sig .tc .vmem S256x2048 .bf16 := Memref.whole cc0_scratch1
abbrev scM0_2 : Memref sig .tc .vmem S256x4096 .f32 := Memref.whole cc0_scratch2

/-- The region's class invariant: the three scratch memrefs each owned at some contents, and the generator register
    at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.KI.Spec.lean ====
/-
  What the body's scratches and its output hold, as functions of the windows' blocks.
  At point n = 8·r + c the query scratch holds the rescaled, cast query block of row block r (fetched at point 8·r);
  rows [512·j, 512·j + 512) of the key scratch hold the cast key chunk j (the key window's block at point j, for
  j < 8, which is where row block 0 fetches it); columns [512·j, 512·j + 512) of the logits scratch hold the product
  of that query block with key chunk j; and at c = 7 the output block is the row softmax of the whole logits block.
-/
import proofs.«180405_g721554506538_bridgefix_236_8_alg».proof.Proof.KI.Grid
import Idealize.ShloMosaic.Lib.ValueIdx

set_option maxRecDepth 16384

noncomputable section

namespace Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The query window's block at point `n`. -/
def qblk (c : Dev nD) (n : ℕ) (h : n < 128) : Vec F S256x2048 .f32 := iblk m c 0 ⟨n, lt_of_lt_of_eq h N_0.symm⟩
/-- The key window's block at point `n`. -/
def kblk (c : Dev nD) (n : ℕ) (h : n < 128) : Vec F S512x2048 .f32 := iblk m c 1 ⟨n, lt_of_lt_of_eq h N_0.symm⟩

/-- The query scratch at the points of row block `n / 8`: the block fetched at the row block's first point, rescaled and cast. -/
def Qs (c : Dev nD) (n : ℕ) (h : n < 128) : Vec F S256x2048 .bf16 := k0_pay1 (qblk m c (8 * (n / 8)) (by omega))
/-- Key chunk `j`, cast: the key window's block at point `j` of the first row block. -/
def Kc (c : Dev nD) (j : ℕ) (h : j < 8) : Vec F S512x2048 .bf16 := k0_pay2 (kblk m c j (by omega))
/-- The key scratch, entry by entry: row `y 0` lies in chunk `y 0 / 512` at local row `y 0 % 512`. -/
def Ks (c : Dev nD) (y : S4096x2048.Idx) : Elt F .bf16 :=
  Kc m c ((y 0).val / 512) (by have := idx2_lt0 y; omega) (ix2 (⟨(y 0).val % 512, by omega⟩ : Fin 512) (y 1))
/-- The logits scratch at the points of row block `n / 8`, entry by entry: column `y 1` lies in chunk `y 1 / 512`. -/
def Ls (c : Dev nD) (n : ℕ) (h : n < 128) (y : S256x4096.Idx) : Elt F .f32 :=
  k0_pay3 (Qs m c n h) (Kc m c ((y 1).val / 512) (by have := idx2_lt1 y; omega)) (ix2 (y 0) (⟨(y 1).val % 512, by omega⟩ : Fin 512))
/-- The output block of row block `n / 8`: the row softmax of its logits. -/
def Os (c : Dev nD) (n : ℕ) (h : n < 128) : Vec F S256x4096 .f32 := k0_pay4 (Ls m c n h)

/-- The specification depends on the point only through its row block. -/
theorem Qs_congr (c : Dev nD) (n n' : ℕ) (h : n < 128) (h' : n' < 128) (e : n / 8 = n' / 8) : Qs m c n h = Qs m c n' h' := by
  unfold Qs; congr 2; rw [e]
theorem Ls_congr (c : Dev nD) (n n' : ℕ) (h : n < 128) (h' : n' < 128) (e : n / 8 = n' / 8) : Ls m c n h = Ls m c n' h' := by
  funext y; unfold Ls; rw [Qs_congr m c n n' h h' e]
theorem Os_congr (c : Dev nD) (n n' : ℕ) (h : n < 128) (h' : n' < 128) (e : n / 8 = n' / 8) : Os m c n h = Os m c n' h' := by
  unfold Os; rw [Ls_congr m c n n' h h' e]

end Cert.KernelIdeal.Gen

end
-- ==== Proof.KI.Inv.lean ====
/-
  One call of the body as a relation between what the three scratches and the output buffer held before and hold
  after (`Step`), and the invariant the scratches satisfy between grid points (`InvAt`): after p points, the key scratch
  agrees with the cast keys on the rows of the chunks saved so far (min p 8 of them), the query scratch is the rescaled
  cast query block of the current row block, and the logits scratch agrees with the logits of the current row block on
  the columns of the chunks multiplied so far in it.
-/
import proofs.«180405_g721554506538_bridgefix_236_8_alg».proof.Proof.KI.Spec
import Idealize.ShloMosaic.Lib.ValueIdx

set_option maxRecDepth 16384

noncomputable section

namespace Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- One call of the body at grid coordinates `i` on the query block `x2` and the key block `x3`: the query scratch is
    replaced by the rescaled cast query block when the first branch is taken; rows [off, off + 512) of the key scratch
    are replaced by the cast key block when the second is; columns [off, off + 512) of the logits scratch are
    replaced by the product of the query scratch with the key scratch's rows [off, off + 512) (both as they are
    after the first two branches); the output buffer is replaced by the row softmax of the logits scratch when the
    third branch is taken. Everything else is kept. -/
structure Step (i : grid0.Coords) (x2 : Vec F S256x2048 .f32) (x3 : Vec F S512x2048 .f32)
    (xo : Vec F S256x4096 .f32) (kb : Vec F S4096x2048 .bf16) (qb : Vec F S256x2048 .bf16) (lb : Vec F S256x4096 .f32)
    (o' : Vec F S256x4096 .f32) (kb' : Vec F S4096x2048 .bf16) (qb' : Vec F S256x2048 .bf16) (lb' : Vec F S256x4096 .f32) : Prop where
  q_hit : cond0_0 i → qb' = k0_pay1 x2
  q_keep : ¬cond0_0 i → qb' = qb
  k_hit : cond0_1 i → ∀ (y : S4096x2048.Idx) (z : S512x2048.Idx),
    (y 0).val = k0_off1 i 0 + (z 0).val → (y 1).val = (z 1).val → kb' y = k0_pay2 x3 z
  k_miss : cond0_1 i → ∀ y : S4096x2048.Idx, ((y 0).val < k0_off1 i 0 ∨ k0_off1 i 0 + 512 ≤ (y 0).val) → kb' y = kb y
  k_keep : ¬cond0_1 i → kb' = kb
  l_hit : ∃ kc : Vec F S512x2048 .bf16,
    (∀ (y : S4096x2048.Idx) (z : S512x2048.Idx), (y 0).val = k0_off2 i 0 + (z 0).val → (y 1).val = (z 1).val → kc z = kb' y) ∧
    ∀ (y : S256x4096.Idx) (z : S256x512.Idx), (y 0).val = (z 0).val → (y 1).val = k0_off3 i 1 + (z 1).val → lb' y = k0_pay3 qb' kc z
  l_miss : ∀ y : S256x4096.Idx, ((y 1).val < k0_off3 i 1 ∨ k0_off3 i 1 + 512 ≤ (y 1).val) → lb' y = lb y
  o_hit : cond0_2 i → o' = k0_pay4 lb'
  o_keep : ¬cond0_2 i → o' = xo

variable (m : (ℓ : Loc nD τ sig) → Buf (Elt F) ℓ)

/-- The scratches after `p` grid points (nothing is known before the first). -/
structure InvAt (c : Dev nD) (p : ℕ) (hp : p ≤ 128)
    (kb : Vec F S4096x2048 .bf16) (qb : Vec F S256x2048 .bf16) (lb : Vec F S256x4096 .f32) : Prop where
  k : ∀ y : S4096x2048.Idx, (y 0).val < 512 * min p 8 → kb y = Ks m c y
  q : ∀ h : 0 < p, qb = Qs m c (p - 1) (by omega)
  l : ∀ h : 0 < p, ∀ y : S256x4096.Idx, (y 1).val < 512 * ((p - 1) % 8 + 1) → lb y = Ls m c (p - 1) (by omega) y

/-- Nothing is claimed before the first point. -/
theorem InvAt.zero (c : Dev nD) (kb : Vec F S4096x2048 .bf16) (qb : Vec F S256x2048 .bf16) (lb : Vec F S256x4096 .f32) :
    InvAt m c 0 (Nat.zero_le _) kb qb lb :=
  ⟨fun y h => absurd h (by simp), fun h => absurd h (lt_irrefl 0), fun h => absurd h (lt_irrefl 0)⟩

/-- The whole result array: row `y 0` lies in row block `y 0 / 256`, whose output block is written back at the block's
    last point `8·(y 0 / 256) + 7`. -/
def KOut (c : Dev nD) (y : S4096x4096.Idx) : Elt F .f32 :=
  Os m c (8 * ((y 0).val / 256) + 7) (by have := idx2_lt0 y; omega) (ix2 (⟨(y 0).val % 256, by omega⟩ : Fin 256) (y 1))

end Cert.KernelIdeal.Gen

end
-- ==== Proof.KI.RunLemmas.lean ====
/-
  Reading a rank-2 buffer after slice stores. A store through the whole shape leaves its payload and a load through
  the whole shape reads the contents; a store of rows [o, o + W) (or of columns [o, o + W)) leaves its payload there
  and the earlier contents elsewhere; a load of the same rows right after such a store reads what the buffer now holds
  there, and a load of rows nothing was stored into reads the buffer there.
-/
import proofs.«180405_g721554506538_bridgefix_236_8_alg».proof.Proof.KI.Inv
import Idealize.ShloMosaic.Lib.ValueIdx
import Idealize.ShloMosaic.Lib.WritesUnit
import Idealize.ShloMosaic.Lib.WholeRead
import Idealize.ShloMosaic.Lib.Pipeline.Value

set_option maxRecDepth 16384

noncomputable section

namespace Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Reading slices of a buffer after slice stores -/

section ReadLemmas

variable {κ : Kind} {sp : Space} {e : EltTy}

theorem zero2 : (![0, 0] : Fin 2 → ℕ) = fun _ => 0 := by
  funext a; match a with | ⟨0, _⟩ => rfl | ⟨1, _⟩ => rfl

/-- A store through the whole shape, last, leaves its payload. -/
theorem read_writes_whole {d : Fin 2 → ℕ} (v : View sig κ sp (⟨2, d⟩ : Shape) e) (f : v.ty.Contents (Elt F))
    {off : Fin 2 → ℕ} (hz : off = fun _ => 0) (inb : ∀ a, off a + (⟨2, d⟩ : Shape).size a ≤ (⟨2, d⟩ : Shape).size a)
    (w : (⟨2, d⟩ : Shape).Idx → Elt F e) (L : List (View.Piece (Elt F) (⟨2, d⟩ : Shape) e)) :
    v.read (Elt F) (v.writes (Elt F) f ((⟨Rect.unit off (⟨2, d⟩ : Shape).size inb, w⟩ : View.Piece (Elt F) _ e) :: L)) = w := by
  subst hz; funext y
  exact View.read_writes_cons_unit_of_mem v f inb w L y y rfl (fun a => (Nat.zero_add _).symm)

/-- A load through the whole shape reads the contents. -/
theorem readAt_whole {S : Shape} (v : View sig κ sp S e) (f : v.ty.Contents (Elt F))
    {off : Fin S.rank → ℕ} (hz : off = fun _ => 0) (inb : ∀ a, off a + S.size a ≤ S.size a) :
    View.readAt (Elt F) v (Rect.unit off S.size inb).toLoadRect f = v.read (Elt F) f := by
  rw [View.readAt_eq_ld, View.ld_unit_zero hz]

/-- A load of a unit-stride box reads the contents at the box's offsets plus the local index. -/
theorem readAt_unit_apply {S : Shape} (v : View sig κ sp S e) (f : v.ty.Contents (Elt F))
    {off size : Fin S.rank → ℕ} (inb : ∀ a, off a + size a ≤ S.size a)
    (z : (Rect.unit off size inb).shape.Idx) (y : S.Idx) (hy : ∀ a, (y a).val = off a + (z a).val) :
    View.readAt (Elt F) v (Rect.unit off size inb).toLoadRect f z = v.read (Elt F) f y := by
  rw [View.readAt_apply]
  congr 1
  funext a; apply Fin.ext
  rw [hy a]
  show off a + 1 * (z a).val = _
  rw [Nat.one_mul]

/-- Rows [o, o + W) stored last: a load of the same rows reads the payload, as does the buffer itself there. -/
theorem rows_hit {d : Fin 2 → ℕ} (v : View sig κ sp (⟨2, d⟩ : Shape) e) (f : v.ty.Contents (Elt F))
    {off size : Fin 2 → ℕ} {o : ℕ} (inb : ∀ a : Fin 2, off a + size a ≤ d a)
    (w : (Rect.unit (s := ⟨2, d⟩) off size inb).shape.Idx → Elt F e) (hoff : off = ![o, 0])
    (y : (⟨2, d⟩ : Shape).Idx) (z : (Rect.unit (s := ⟨2, d⟩) off size inb).shape.Idx)
    (h0 : (y (0 : Fin 2)).val = o + (z (0 : Fin 2)).val) (h1 : (y (1 : Fin 2)).val = (z (1 : Fin 2)).val) :
    v.read (Elt F) (v.writes (Elt F) f [(⟨Rect.unit (s := ⟨2, d⟩) off size inb, w⟩ : View.Piece (Elt F) (⟨2, d⟩ : Shape) e)]) y = w z :=
  View.read_writes_cons_rows_of_mem v f inb w [] y z hoff h0 h1

/-- Rows [o, o + W) stored last: outside them the buffer reads what it read before. -/
theorem rows_miss {d : Fin 2 → ℕ} (v : View sig κ sp (⟨2, d⟩ : Shape) e) (f : v.ty.Contents (Elt F))
    {off size : Fin 2 → ℕ} {o W : ℕ} (inb : ∀ a : Fin 2, off a + size a ≤ d a)
    (w : (Rect.unit (s := ⟨2, d⟩) off size inb).shape.Idx → Elt F e) (hoff : off = ![o, 0]) (hW : size (0 : Fin 2) = W)
    (y : (⟨2, d⟩ : Shape).Idx) (h : (y (0 : Fin 2)).val < o ∨ o + W ≤ (y (0 : Fin 2)).val) :
    v.read (Elt F) (v.writes (Elt F) f [(⟨Rect.unit (s := ⟨2, d⟩) off size inb, w⟩ : View.Piece (Elt F) (⟨2, d⟩ : Shape) e)]) y
      = v.read (Elt F) f y :=
  View.read_writes_cons_rows_of_not_mem v f inb w [] y hoff hW h

/-- Columns [o, o + W) stored last: inside them the buffer reads the payload, -/
theorem cols_hit {d : Fin 2 → ℕ} (v : View sig κ sp (⟨2, d⟩ : Shape) e) (f : v.ty.Contents (Elt F))
    {off size : Fin 2 → ℕ} {o : ℕ} (inb : ∀ a : Fin 2, off a + size a ≤ d a)
    (w : (Rect.unit (s := ⟨2, d⟩) off size inb).shape.Idx → Elt F e) (hoff : off = ![0, o])
    (y : (⟨2, d⟩ : Shape).Idx) (z : (Rect.unit (s := ⟨2, d⟩) off size inb).shape.Idx)
    (h0 : (y (0 : Fin 2)).val = (z (0 : Fin 2)).val) (h1 : (y (1 : Fin 2)).val = o + (z (1 : Fin 2)).val) :
    v.read (Elt F) (v.writes (Elt F) f [(⟨Rect.unit (s := ⟨2, d⟩) off size inb, w⟩ : View.Piece (Elt F) (⟨2, d⟩ : Shape) e)]) y = w z :=
  View.read_writes_cons_unit_of_mem v f inb w [] y z hoff
    (Fin.forall_fin_two.mpr ⟨by rw [h0]; exact (Nat.zero_add _).symm, h1⟩)

/-- and outside them what it read before. -/
theorem cols_miss {d : Fin 2 → ℕ} (v : View sig κ sp (⟨2, d⟩ : Shape) e) (f : v.ty.Contents (Elt F))
    {off size : Fin 2 → ℕ} {o W : ℕ} (inb : ∀ a : Fin 2, off a + size a ≤ d a)
    (w : (Rect.unit (s := ⟨2, d⟩) off size inb).shape.Idx → Elt F e) (hoff : off = ![0, o]) (hW : size (1 : Fin 2) = W)
    (y : (⟨2, d⟩ : Shape).Idx) (h : (y (1 : Fin 2)).val < o ∨ o + W ≤ (y (1 : Fin 2)).val) :
    v.read (Elt F) (v.writes (Elt F) f [(⟨Rect.unit (s := ⟨2, d⟩) off size inb, w⟩ : View.Piece (Elt F) (⟨2, d⟩ : Shape) e)]) y
      = v.read (Elt F) f y :=
  View.read_writes_cons_unit_of_not_mem v f inb w [] y hoff (1 : Fin 2) (by subst hW; exact h)

/-- A load of rows [o, o + W) right after a store of the same rows reads what the buffer now holds there. -/
theorem readCov_rows_eq [∀ e, Nonempty (Elt F e)] {d : Fin 2 → ℕ} (v : View sig κ sp (⟨2, d⟩ : Shape) e) (f : v.ty.Contents (Elt F))
    {off off2 size : Fin 2 → ℕ} {o : ℕ} (inb : ∀ a : Fin 2, off a + size a ≤ d a) (inb2 : ∀ a : Fin 2, off2 a + size a ≤ d a)
    (w : (Rect.unit (s := ⟨2, d⟩) off size inb).shape.Idx → Elt F e) (hoff : off = ![o, 0]) (hoff2 : off2 = ![o, 0])
    (y : (⟨2, d⟩ : Shape).Idx) (z : (Rect.unit (s := ⟨2, d⟩) off2 size inb2).shape.Idx)
    (h0 : (y (0 : Fin 2)).val = o + (z (0 : Fin 2)).val) (h1 : (y (1 : Fin 2)).val = (z (1 : Fin 2)).val) :
    v.readCov [(⟨Rect.unit (s := ⟨2, d⟩) off size inb, w⟩ : View.Piece (Elt F) (⟨2, d⟩ : Shape) e)] (Rect.unit (s := ⟨2, d⟩) off2 size inb2).toLoadRect z
      = v.read (Elt F) (v.writes (Elt F) f [(⟨Rect.unit (s := ⟨2, d⟩) off size inb, w⟩ : View.Piece (Elt F) (⟨2, d⟩ : Shape) e)]) y := by
  unfold View.readCov
  rw [readAt_unit_apply v _ inb2 z y (by subst hoff2; exact Fin.forall_fin_two.mpr ⟨h0, by rw [h1]; exact (Nat.zero_add _).symm⟩)]
  rw [rows_hit v _ inb w hoff y z h0 h1, rows_hit v f inb w hoff y z h0 h1]

/-- A load of rows [o, o + W) of a buffer nothing was stored into reads the buffer there. -/
theorem readAt_rows_eq {d : Fin 2 → ℕ} (v : View sig κ sp (⟨2, d⟩ : Shape) e) (f : v.ty.Contents (Elt F))
    {off2 size : Fin 2 → ℕ} {o : ℕ} (inb2 : ∀ a : Fin 2, off2 a + size a ≤ d a) (hoff2 : off2 = ![o, 0])
    (y : (⟨2, d⟩ : Shape).Idx) (z : (Rect.unit (s := ⟨2, d⟩) off2 size inb2).shape.Idx)
    (h0 : (y (0 : Fin 2)).val = o + (z (0 : Fin 2)).val) (h1 : (y (1 : Fin 2)).val = (z (1 : Fin 2)).val) :
    View.readAt (Elt F) v (Rect.unit (s := ⟨2, d⟩) off2 size inb2).toLoadRect f z = v.read (Elt F) f y :=
  readAt_unit_apply v f inb2 z y (by subst hoff2; exact Fin.forall_fin_two.mpr ⟨h0, by rw [h1]; exact (Nat.zero_add _).symm⟩)

end ReadLemmas

end Cert.KernelIdeal.Gen

end
-- ==== Proof.KI.RunTTT.lean ====
/-
  One call of the body at a grid point where the query block is rescaled (chunk coordinate 0), the key
  chunk is saved (row block 0) and the row softmax is taken (chunk coordinate 7):
  run symbolically, the body leaves the buffers at lists of slice stores over what they held, and reading those
  lists back gives the step relation: the query scratch is the rescaled cast query block, rows [off, off + 512) of the key scratch are the cast key block and the other rows are kept,
  columns [off, off + 512) of the logits scratch are the product of the query scratch with those key rows and the other
  columns are kept, and the output buffer is the row softmax of the logits scratch.
-/
import proofs.«180405_g721554506538_bridgefix_236_8_alg».proof.Proof.KI.RunLemmas
import Idealize.ShloMosaic.Lib.ValueIdx
import Idealize.ShloMosaic.Lib.WritesUnit
import Idealize.ShloMosaic.Lib.WholeRead
import Idealize.ShloMosaic.Lib.Pipeline.Value

set_option maxRecDepth 16384

noncomputable section

namespace Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem kernel_run_TTT (c : Dev nD) (i : grid0.Coords)
    (arg2 : Memref sig .tc .vmem S256x2048 .f32) (harg2 : arg2.IsWhole) (arg3 : Memref sig .tc .vmem S512x2048 .f32) (harg3 : arg3.IsWhole)
    (arg4 : Memref sig .tc .vmem S256x4096 .f32) (harg4 : arg4.IsWhole) (arg5 : Memref sig .tc .vmem S4096x2048 .bf16) (harg5 : arg5.IsWhole)
    (arg6 : Memref sig .tc .vmem S256x2048 .bf16) (harg6 : arg6.IsWhole) (arg7 : Memref sig .tc .vmem S256x4096 .f32) (harg7 : arg7.IsWhole)
    (hc0 : cond0_0 i) (hc1 : cond0_1 i) (hc2 : cond0_2 i)
    (x2 : Vec F S256x2048 .f32) (x3 : Vec F S512x2048 .f32) (xo : Vec F S256x4096 .f32)
    (kb : Vec F S4096x2048 .bf16) (qb : Vec F S256x2048 .bf16) (lb : Vec F S256x4096 .f32)
    (E : Set ℕ) (K : PUnit → sProp 𝕄) :
    iprop(owns (c : Thread nD τ) arg2 fullShare x2 ∗ owns (c : Thread nD τ) arg3 fullShare x3 ∗ owns (c : Thread nD τ) arg4 fullShare xo
        ∗ owns (c : Thread nD τ) arg5 fullShare kb ∗ owns (c : Thread nD τ) arg6 fullShare qb ∗ owns (c : Thread nD τ) arg7 fullShare lb
        ∗ (iprop(owns (c : Thread nD τ) arg2 fullShare x2 ∗ owns (c : Thread nD τ) arg3 fullShare x3
            ∗ (∃ f4 f5 f6 f7, (arg4.view.loc (c : Thread nD τ) ↦[arg4.view.set]{fullShare} f4)
                ∗ (arg5.view.loc (c : Thread nD τ) ↦[arg5.view.set]{fullShare} f5)
                ∗ (arg6.view.loc (c : Thread nD τ) ↦[arg6.view.set]{fullShare} f6)
                ∗ (arg7.view.loc (c : Thread nD τ) ↦[arg7.view.set]{fullShare} f7)
                ∗ ⌜Step i x2 x3 xo kb qb lb (arg4.view.read (Elt F) f4) (arg5.view.read (Elt F) f5)
                    (arg6.view.read (Elt F) f6) (arg7.view.read (Elt F) f7)⌝)) -∗ K ⟨⟩))
      ⊢ wp frame (wpE (defs₀ (F := F)) Variants.none c none) E (cc0__fused_attn_kernel i arg2 harg2 arg3 harg3 arg4 harg4 arg5 harg5 arg6 harg6 arg7 harg7) K := by
  simp only [cc0__fused_attn_kernel_eq_skeleton]; unfold cc0__fused_attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  sl_unfold_words
  iapply Hk
  isplitl [H2]
  · iexists _; isplitr; · ipureintro; exact harg2.read_unread _
    iexact H2
  isplitl [H3]
  · iexists _; isplitr; · ipureintro; exact harg3.read_unread _
    iexact H3
  iexists _, _, _, _
  isplitl [H4]; · iexact H4
  isplitl [H5]; · iexact H5
  isplitl [H6]; · iexact H6
  isplitl [H7]; · iexact H7
  ipureintro
  simp only [readAt_whole (F := F) (S := S256x2048) _ _ zero2, readAt_whole (F := F) (S := S512x2048) _ _ zero2, readAt_whole (F := F) (S := S256x4096) _ _ zero2, View.readCov_unit_zero (S := S256x2048) _ zero2, View.readCov_unit_zero (S := S256x4096) _ zero2, read_writes_whole (F := F) _ _ zero2, hf2, hf3, hf4, hf5, hf6, hf7]
  refine ⟨fun _ => rfl, fun h => absurd hc0 h, ?k_hit, ?k_miss, fun h => absurd hc1 h, ⟨?w, ?kc, ?l_hit⟩, ?l_miss, fun _ => rfl, fun h => absurd hc2 h⟩
  case l_hit => intro y z h0 h1; exact cols_hit (F := F) arg7.view _ _ _ rfl y z h0 h1
  case l_miss => intro y h; exact (cols_miss (F := F) arg7.view _ _ _ rfl rfl y h).trans (congrFun hf7 y)
  case k_hit => intro _ y z h0 h1; exact rows_hit (F := F) arg5.view _ _ _ rfl y z h0 h1
  case k_miss => intro _ y h; exact (rows_miss (F := F) arg5.view _ _ _ rfl rfl y h).trans (congrFun hf5 y)
  case kc => intro y z h0 h1; exact readCov_rows_eq (F := F) arg5.view _ _ _ _ rfl rfl y z h0 h1

end Cert.KernelIdeal.Gen

end
-- ==== Proof.KI.RunTTF.lean ====
/-
  One call of the body at a grid point where the query block is rescaled (chunk coordinate 0), the key
  chunk is saved (row block 0) and the row softmax is not taken (chunk coordinate not 7):
  run symbolically, the body leaves the buffers at lists of slice stores over what they held, and reading those
  lists back gives the step relation: the query scratch is the rescaled cast query block, rows [off, off + 512) of the key scratch are the cast key block and the other rows are kept,
  columns [off, off + 512) of the logits scratch are the product of the query scratch with those key rows and the other
  columns are kept, and the output buffer is kept.
-/
import proofs.«180405_g721554506538_bridgefix_236_8_alg».proof.Proof.KI.RunLemmas
import Idealize.ShloMosaic.Lib.ValueIdx
import Idealize.ShloMosaic.Lib.WritesUnit
import Idealize.ShloMosaic.Lib.WholeRead
import Idealize.ShloMosaic.Lib.Pipeline.Value

set_option maxRecDepth 16384

noncomputable section

namespace Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem kernel_run_TTF (c : Dev nD) (i : grid0.Coords)
    (arg2 : Memref sig .tc .vmem S256x2048 .f32) (harg2 : arg2.IsWhole) (arg3 : Memref sig .tc .vmem S512x2048 .f32) (harg3 : arg3.IsWhole)
    (arg4 : Memref sig .tc .vmem S256x4096 .f32) (harg4 : arg4.IsWhole) (arg5 : Memref sig .tc .vmem S4096x2048 .bf16) (harg5 : arg5.IsWhole)
    (arg6 : Memref sig .tc .vmem S256x2048 .bf16) (harg6 : arg6.IsWhole) (arg7 : Memref sig .tc .vmem S256x4096 .f32) (harg7 : arg7.IsWhole)
    (hc0 : cond0_0 i) (hc1 : cond0_1 i) (hc2 : ¬cond0_2 i)
    (x2 : Vec F S256x2048 .f32) (x3 : Vec F S512x2048 .f32) (xo : Vec F S256x4096 .f32)
    (kb : Vec F S4096x2048 .bf16) (qb : Vec F S256x2048 .bf16) (lb : Vec F S256x4096 .f32)
    (E : Set ℕ) (K : PUnit → sProp 𝕄) :
    iprop(owns (c : Thread nD τ) arg2 fullShare x2 ∗ owns (c : Thread nD τ) arg3 fullShare x3 ∗ owns (c : Thread nD τ) arg4 fullShare xo
        ∗ owns (c : Thread nD τ) arg5 fullShare kb ∗ owns (c : Thread nD τ) arg6 fullShare qb ∗ owns (c : Thread nD τ) arg7 fullShare lb
        ∗ (iprop(owns (c : Thread nD τ) arg2 fullShare x2 ∗ owns (c : Thread nD τ) arg3 fullShare x3
            ∗ (∃ f4 f5 f6 f7, (arg4.view.loc (c : Thread nD τ) ↦[arg4.view.set]{fullShare} f4)
                ∗ (arg5.view.loc (c : Thread nD τ) ↦[arg5.view.set]{fullShare} f5)
                ∗ (arg6.view.loc (c : Thread nD τ) ↦[arg6.view.set]{fullShare} f6)
                ∗ (arg7.view.loc (c : Thread nD τ) ↦[arg7.view.set]{fullShare} f7)
                ∗ ⌜Step i x2 x3 xo kb qb lb (arg4.view.read (Elt F) f4) (arg5.view.read (Elt F) f5)
                    (arg6.view.read (Elt F) f6) (arg7.view.read (Elt F) f7)⌝)) -∗ K ⟨⟩))
      ⊢ wp frame (wpE (defs₀ (F := F)) Variants.none c none) E (cc0__fused_attn_kernel i arg2 harg2 arg3 harg3 arg4 harg4 arg5 harg5 arg6 harg6 arg7 harg7) K := by
  simp only [cc0__fused_attn_kernel_eq_skeleton]; unfold cc0__fused_attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  sl_unfold_words
  iapply Hk
  isplitl [H2]
  · iexists _; isplitr; · ipureintro; exact harg2.read_unread _
    iexact H2
  isplitl [H3]
  · iexists _; isplitr; · ipureintro; exact harg3.read_unread _
    iexact H3
  iexists _, _, _, _
  isplitl [H4]; · iexact H4
  isplitl [H5]; · iexact H5
  isplitl [H6]; · iexact H6
  isplitl [H7]; · iexact H7
  ipureintro
  simp only [readAt_whole (F := F) (S := S256x2048) _ _ zero2, readAt_whole (F := F) (S := S512x2048) _ _ zero2, readAt_whole (F := F) (S := S256x4096) _ _ zero2, View.readCov_unit_zero (S := S256x2048) _ zero2, View.readCov_unit_zero (S := S256x4096) _ zero2, read_writes_whole (F := F) _ _ zero2, hf2, hf3, hf4, hf5, hf6, hf7]
  refine ⟨fun _ => rfl, fun h => absurd hc0 h, ?k_hit, ?k_miss, fun h => absurd hc1 h, ⟨?w, ?kc, ?l_hit⟩, ?l_miss, fun h => absurd h hc2, fun _ => rfl⟩
  case l_hit => intro y z h0 h1; exact cols_hit (F := F) arg7.view _ _ _ rfl y z h0 h1
  case l_miss => intro y h; exact (cols_miss (F := F) arg7.view _ _ _ rfl rfl y h).trans (congrFun hf7 y)
  case k_hit => intro _ y z h0 h1; exact rows_hit (F := F) arg5.view _ _ _ rfl y z h0 h1
  case k_miss => intro _ y h; exact (rows_miss (F := F) arg5.view _ _ _ rfl rfl y h).trans (congrFun hf5 y)
  case kc => intro y z h0 h1; exact readCov_rows_eq (F := F) arg5.view _ _ _ _ rfl rfl y z h0 h1

end Cert.KernelIdeal.Gen

end
-- ==== Proof.KI.RunTFT.lean ====
/-
  One call of the body at a grid point where the query block is rescaled (chunk coordinate 0), the key
  chunk is not saved (row block not 0) and the row softmax is taken (chunk coordinate 7):
  run symbolically, the body leaves the buffers at lists of slice stores over what they held, and reading those
  lists back gives the step relation: the query scratch is the rescaled cast query block, the key scratch is kept,
  columns [off, off + 512) of the logits scratch are the product of the query scratch with those key rows and the other
  columns are kept, and the output buffer is the row softmax of the logits scratch.
-/
import proofs.«180405_g721554506538_bridgefix_236_8_alg».proof.Proof.KI.RunLemmas
import Idealize.ShloMosaic.Lib.ValueIdx
import Idealize.ShloMosaic.Lib.WritesUnit
import Idealize.ShloMosaic.Lib.WholeRead
import Idealize.ShloMosaic.Lib.Pipeline.Value

set_option maxRecDepth 16384

noncomputable section

namespace Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem kernel_run_TFT (c : Dev nD) (i : grid0.Coords)
    (arg2 : Memref sig .tc .vmem S256x2048 .f32) (harg2 : arg2.IsWhole) (arg3 : Memref sig .tc .vmem S512x2048 .f32) (harg3 : arg3.IsWhole)
    (arg4 : Memref sig .tc .vmem S256x4096 .f32) (harg4 : arg4.IsWhole) (arg5 : Memref sig .tc .vmem S4096x2048 .bf16) (harg5 : arg5.IsWhole)
    (arg6 : Memref sig .tc .vmem S256x2048 .bf16) (harg6 : arg6.IsWhole) (arg7 : Memref sig .tc .vmem S256x4096 .f32) (harg7 : arg7.IsWhole)
    (hc0 : cond0_0 i) (hc1 : ¬cond0_1 i) (hc2 : cond0_2 i)
    (x2 : Vec F S256x2048 .f32) (x3 : Vec F S512x2048 .f32) (xo : Vec F S256x4096 .f32)
    (kb : Vec F S4096x2048 .bf16) (qb : Vec F S256x2048 .bf16) (lb : Vec F S256x4096 .f32)
    (E : Set ℕ) (K : PUnit → sProp 𝕄) :
    iprop(owns (c : Thread nD τ) arg2 fullShare x2 ∗ owns (c : Thread nD τ) arg3 fullShare x3 ∗ owns (c : Thread nD τ) arg4 fullShare xo
        ∗ owns (c : Thread nD τ) arg5 fullShare kb ∗ owns (c : Thread nD τ) arg6 fullShare qb ∗ owns (c : Thread nD τ) arg7 fullShare lb
        ∗ (iprop(owns (c : Thread nD τ) arg2 fullShare x2 ∗ owns (c : Thread nD τ) arg3 fullShare x3
            ∗ (∃ f4 f5 f6 f7, (arg4.view.loc (c : Thread nD τ) ↦[arg4.view.set]{fullShare} f4)
                ∗ (arg5.view.loc (c : Thread nD τ) ↦[arg5.view.set]{fullShare} f5)
                ∗ (arg6.view.loc (c : Thread nD τ) ↦[arg6.view.set]{fullShare} f6)
                ∗ (arg7.view.loc (c : Thread nD τ) ↦[arg7.view.set]{fullShare} f7)
                ∗ ⌜Step i x2 x3 xo kb qb lb (arg4.view.read (Elt F) f4) (arg5.view.read (Elt F) f5)
                    (arg6.view.read (Elt F) f6) (arg7.view.read (Elt F) f7)⌝)) -∗ K ⟨⟩))
      ⊢ wp frame (wpE (defs₀ (F := F)) Variants.none c none) E (cc0__fused_attn_kernel i arg2 harg2 arg3 harg3 arg4 harg4 arg5 harg5 arg6 harg6 arg7 harg7) K := by
  simp only [cc0__fused_attn_kernel_eq_skeleton]; unfold cc0__fused_attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  sl_unfold_words
  iapply Hk
  isplitl [H2]
  · iexists _; isplitr; · ipureintro; exact harg2.read_unread _
    iexact H2
  isplitl [H3]
  · iexists _; isplitr; · ipureintro; exact harg3.read_unread _
    iexact H3
  iexists _, _, _, _
  isplitl [H4]; · iexact H4
  isplitl [H5]; · iexact H5
  isplitl [H6]; · iexact H6
  isplitl [H7]; · iexact H7
  ipureintro
  simp only [readAt_whole (F := F) (S := S256x2048) _ _ zero2, readAt_whole (F := F) (S := S512x2048) _ _ zero2, readAt_whole (F := F) (S := S256x4096) _ _ zero2, View.readCov_unit_zero (S := S256x2048) _ zero2, View.readCov_unit_zero (S := S256x4096) _ zero2, read_writes_whole (F := F) _ _ zero2, hf2, hf3, hf4, hf5, hf6, hf7]
  refine ⟨fun _ => rfl, fun h => absurd hc0 h, fun h => absurd h hc1, fun h => absurd h hc1, fun _ => rfl, ⟨?w, ?kc, ?l_hit⟩, ?l_miss, fun _ => rfl, fun h => absurd hc2 h⟩
  case l_hit => intro y z h0 h1; exact cols_hit (F := F) arg7.view _ _ _ rfl y z h0 h1
  case l_miss => intro y h; exact (cols_miss (F := F) arg7.view _ _ _ rfl rfl y h).trans (congrFun hf7 y)
  case kc => intro y z h0 h1; exact (readAt_rows_eq (F := F) arg5.view _ _ rfl y z h0 h1).trans (congrFun hf5 y)

end Cert.KernelIdeal.Gen

end
-- ==== Proof.KI.RunTFF.lean ====
/-
  One call of the body at a grid point where the query block is rescaled (chunk coordinate 0), the key
  chunk is not saved (row block not 0) and the row softmax is not taken (chunk coordinate not 7):
  run symbolically, the body leaves the buffers at lists of slice stores over what they held, and reading those
  lists back gives the step relation: the query scratch is the rescaled cast query block, the key scratch is kept,
  columns [off, off + 512) of the logits scratch are the product of the query scratch with those key rows and the other
  columns are kept, and the output buffer is kept.
-/
import proofs.«180405_g721554506538_bridgefix_236_8_alg».proof.Proof.KI.RunLemmas
import Idealize.ShloMosaic.Lib.ValueIdx
import Idealize.ShloMosaic.Lib.WritesUnit
import Idealize.ShloMosaic.Lib.WholeRead
import Idealize.ShloMosaic.Lib.Pipeline.Value

set_option maxRecDepth 16384

noncomputable section

namespace Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem kernel_run_TFF (c : Dev nD) (i : grid0.Coords)
    (arg2 : Memref sig .tc .vmem S256x2048 .f32) (harg2 : arg2.IsWhole) (arg3 : Memref sig .tc .vmem S512x2048 .f32) (harg3 : arg3.IsWhole)
    (arg4 : Memref sig .tc .vmem S256x4096 .f32) (harg4 : arg4.IsWhole) (arg5 : Memref sig .tc .vmem S4096x2048 .bf16) (harg5 : arg5.IsWhole)
    (arg6 : Memref sig .tc .vmem S256x2048 .bf16) (harg6 : arg6.IsWhole) (arg7 : Memref sig .tc .vmem S256x4096 .f32) (harg7 : arg7.IsWhole)
    (hc0 : cond0_0 i) (hc1 : ¬cond0_1 i) (hc2 : ¬cond0_2 i)
    (x2 : Vec F S256x2048 .f32) (x3 : Vec F S512x2048 .f32) (xo : Vec F S256x4096 .f32)
    (kb : Vec F S4096x2048 .bf16) (qb : Vec F S256x2048 .bf16) (lb : Vec F S256x4096 .f32)
    (E : Set ℕ) (K : PUnit → sProp 𝕄) :
    iprop(owns (c : Thread nD τ) arg2 fullShare x2 ∗ owns (c : Thread nD τ) arg3 fullShare x3 ∗ owns (c : Thread nD τ) arg4 fullShare xo
        ∗ owns (c : Thread nD τ) arg5 fullShare kb ∗ owns (c : Thread nD τ) arg6 fullShare qb ∗ owns (c : Thread nD τ) arg7 fullShare lb
        ∗ (iprop(owns (c : Thread nD τ) arg2 fullShare x2 ∗ owns (c : Thread nD τ) arg3 fullShare x3
            ∗ (∃ f4 f5 f6 f7, (arg4.view.loc (c : Thread nD τ) ↦[arg4.view.set]{fullShare} f4)
                ∗ (arg5.view.loc (c : Thread nD τ) ↦[arg5.view.set]{fullShare} f5)
                ∗ (arg6.view.loc (c : Thread nD τ) ↦[arg6.view.set]{fullShare} f6)
                ∗ (arg7.view.loc (c : Thread nD τ) ↦[arg7.view.set]{fullShare} f7)
                ∗ ⌜Step i x2 x3 xo kb qb lb (arg4.view.read (Elt F) f4) (arg5.view.read (Elt F) f5)
                    (arg6.view.read (Elt F) f6) (arg7.view.read (Elt F) f7)⌝)) -∗ K ⟨⟩))
      ⊢ wp frame (wpE (defs₀ (F := F)) Variants.none c none) E (cc0__fused_attn_kernel i arg2 harg2 arg3 harg3 arg4 harg4 arg5 harg5 arg6 harg6 arg7 harg7) K := by
  simp only [cc0__fused_attn_kernel_eq_skeleton]; unfold cc0__fused_attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  sl_unfold_words
  iapply Hk
  isplitl [H2]
  · iexists _; isplitr; · ipureintro; exact harg2.read_unread _
    iexact H2
  isplitl [H3]
  · iexists _; isplitr; · ipureintro; exact harg3.read_unread _
    iexact H3
  iexists _, _, _, _
  isplitl [H4]; · iexact H4
  isplitl [H5]; · iexact H5
  isplitl [H6]; · iexact H6
  isplitl [H7]; · iexact H7
  ipureintro
  simp only [readAt_whole (F := F) (S := S256x2048) _ _ zero2, readAt_whole (F := F) (S := S512x2048) _ _ zero2, readAt_whole (F := F) (S := S256x4096) _ _ zero2, View.readCov_unit_zero (S := S256x2048) _ zero2, View.readCov_unit_zero (S := S256x4096) _ zero2, read_writes_whole (F := F) _ _ zero2, hf2, hf3, hf4, hf5, hf6, hf7]
  refine ⟨fun _ => rfl, fun h => absurd hc0 h, fun h => absurd h hc1, fun h => absurd h hc1, fun _ => rfl, ⟨?w, ?kc, ?l_hit⟩, ?l_miss, fun h => absurd h hc2, fun _ => rfl⟩
  case l_hit => intro y z h0 h1; exact cols_hit (F := F) arg7.view _ _ _ rfl y z h0 h1
  case l_miss => intro y h; exact (cols_miss (F := F) arg7.view _ _ _ rfl rfl y h).trans (congrFun hf7 y)
  case kc => intro y z h0 h1; exact (readAt_rows_eq (F := F) arg5.view _ _ rfl y z h0 h1).trans (congrFun hf5 y)

end Cert.KernelIdeal.Gen

end
-- ==== Proof.KI.RunFTT.lean ====
/-
  One call of the body at a grid point where the query block is not rescaled (chunk coordinate not 0), the key
  chunk is saved (row block 0) and the row softmax is taken (chunk coordinate 7):
  run symbolically, the body leaves the buffers at lists of slice stores over what they held, and reading those
  lists back gives the step relation: the query scratch is kept, rows [off, off + 512) of the key scratch are the cast key block and the other rows are kept,
  columns [off, off + 512) of the logits scratch are the product of the query scratch with those key rows and the other
  columns are kept, and the output buffer is the row softmax of the logits scratch.
-/
import proofs.«180405_g721554506538_bridgefix_236_8_alg».proof.Proof.KI.RunLemmas
import Idealize.ShloMosaic.Lib.ValueIdx
import Idealize.ShloMosaic.Lib.WritesUnit
import Idealize.ShloMosaic.Lib.WholeRead
import Idealize.ShloMosaic.Lib.Pipeline.Value

set_option maxRecDepth 16384

noncomputable section

namespace Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem kernel_run_FTT (c : Dev nD) (i : grid0.Coords)
    (arg2 : Memref sig .tc .vmem S256x2048 .f32) (harg2 : arg2.IsWhole) (arg3 : Memref sig .tc .vmem S512x2048 .f32) (harg3 : arg3.IsWhole)
    (arg4 : Memref sig .tc .vmem S256x4096 .f32) (harg4 : arg4.IsWhole) (arg5 : Memref sig .tc .vmem S4096x2048 .bf16) (harg5 : arg5.IsWhole)
    (arg6 : Memref sig .tc .vmem S256x2048 .bf16) (harg6 : arg6.IsWhole) (arg7 : Memref sig .tc .vmem S256x4096 .f32) (harg7 : arg7.IsWhole)
    (hc0 : ¬cond0_0 i) (hc1 : cond0_1 i) (hc2 : cond0_2 i)
    (x2 : Vec F S256x2048 .f32) (x3 : Vec F S512x2048 .f32) (xo : Vec F S256x4096 .f32)
    (kb : Vec F S4096x2048 .bf16) (qb : Vec F S256x2048 .bf16) (lb : Vec F S256x4096 .f32)
    (E : Set ℕ) (K : PUnit → sProp 𝕄) :
    iprop(owns (c : Thread nD τ) arg2 fullShare x2 ∗ owns (c : Thread nD τ) arg3 fullShare x3 ∗ owns (c : Thread nD τ) arg4 fullShare xo
        ∗ owns (c : Thread nD τ) arg5 fullShare kb ∗ owns (c : Thread nD τ) arg6 fullShare qb ∗ owns (c : Thread nD τ) arg7 fullShare lb
        ∗ (iprop(owns (c : Thread nD τ) arg2 fullShare x2 ∗ owns (c : Thread nD τ) arg3 fullShare x3
            ∗ (∃ f4 f5 f6 f7, (arg4.view.loc (c : Thread nD τ) ↦[arg4.view.set]{fullShare} f4)
                ∗ (arg5.view.loc (c : Thread nD τ) ↦[arg5.view.set]{fullShare} f5)
                ∗ (arg6.view.loc (c : Thread nD τ) ↦[arg6.view.set]{fullShare} f6)
                ∗ (arg7.view.loc (c : Thread nD τ) ↦[arg7.view.set]{fullShare} f7)
                ∗ ⌜Step i x2 x3 xo kb qb lb (arg4.view.read (Elt F) f4) (arg5.view.read (Elt F) f5)
                    (arg6.view.read (Elt F) f6) (arg7.view.read (Elt F) f7)⌝)) -∗ K ⟨⟩))
      ⊢ wp frame (wpE (defs₀ (F := F)) Variants.none c none) E (cc0__fused_attn_kernel i arg2 harg2 arg3 harg3 arg4 harg4 arg5 harg5 arg6 harg6 arg7 harg7) K := by
  simp only [cc0__fused_attn_kernel_eq_skeleton]; unfold cc0__fused_attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  sl_unfold_words
  iapply Hk
  isplitl [H2]
  · iexists _; isplitr; · ipureintro; exact harg2.read_unread _
    iexact H2
  isplitl [H3]
  · iexists _; isplitr; · ipureintro; exact harg3.read_unread _
    iexact H3
  iexists _, _, _, _
  isplitl [H4]; · iexact H4
  isplitl [H5]; · iexact H5
  isplitl [H6]; · iexact H6
  isplitl [H7]; · iexact H7
  ipureintro
  simp only [readAt_whole (F := F) (S := S256x2048) _ _ zero2, readAt_whole (F := F) (S := S512x2048) _ _ zero2, readAt_whole (F := F) (S := S256x4096) _ _ zero2, View.readCov_unit_zero (S := S256x2048) _ zero2, View.readCov_unit_zero (S := S256x4096) _ zero2, read_writes_whole (F := F) _ _ zero2, hf2, hf3, hf4, hf5, hf6, hf7]
  refine ⟨fun h => absurd h hc0, fun _ => rfl, ?k_hit, ?k_miss, fun h => absurd hc1 h, ⟨?w, ?kc, ?l_hit⟩, ?l_miss, fun _ => rfl, fun h => absurd hc2 h⟩
  case l_hit => intro y z h0 h1; exact cols_hit (F := F) arg7.view _ _ _ rfl y z h0 h1
  case l_miss => intro y h; exact (cols_miss (F := F) arg7.view _ _ _ rfl rfl y h).trans (congrFun hf7 y)
  case k_hit => intro _ y z h0 h1; exact rows_hit (F := F) arg5.view _ _ _ rfl y z h0 h1
  case k_miss => intro _ y h; exact (rows_miss (F := F) arg5.view _ _ _ rfl rfl y h).trans (congrFun hf5 y)
  case kc => intro y z h0 h1; exact readCov_rows_eq (F := F) arg5.view _ _ _ _ rfl rfl y z h0 h1

end Cert.KernelIdeal.Gen

end
-- ==== Proof.KI.RunFTF.lean ====
/-
  One call of the body at a grid point where the query block is not rescaled (chunk coordinate not 0), the key
  chunk is saved (row block 0) and the row softmax is not taken (chunk coordinate not 7):
  run symbolically, the body leaves the buffers at lists of slice stores over what they held, and reading those
  lists back gives the step relation: the query scratch is kept, rows [off, off + 512) of the key scratch are the cast key block and the other rows are kept,
  columns [off, off + 512) of the logits scratch are the product of the query scratch with those key rows and the other
  columns are kept, and the output buffer is kept.
-/
import proofs.«180405_g721554506538_bridgefix_236_8_alg».proof.Proof.KI.RunLemmas
import Idealize.ShloMosaic.Lib.ValueIdx
import Idealize.ShloMosaic.Lib.WritesUnit
import Idealize.ShloMosaic.Lib.WholeRead
import Idealize.ShloMosaic.Lib.Pipeline.Value

set_option maxRecDepth 16384

noncomputable section

namespace Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem kernel_run_FTF (c : Dev nD) (i : grid0.Coords)
    (arg2 : Memref sig .tc .vmem S256x2048 .f32) (harg2 : arg2.IsWhole) (arg3 : Memref sig .tc .vmem S512x2048 .f32) (harg3 : arg3.IsWhole)
    (arg4 : Memref sig .tc .vmem S256x4096 .f32) (harg4 : arg4.IsWhole) (arg5 : Memref sig .tc .vmem S4096x2048 .bf16) (harg5 : arg5.IsWhole)
    (arg6 : Memref sig .tc .vmem S256x2048 .bf16) (harg6 : arg6.IsWhole) (arg7 : Memref sig .tc .vmem S256x4096 .f32) (harg7 : arg7.IsWhole)
    (hc0 : ¬cond0_0 i) (hc1 : cond0_1 i) (hc2 : ¬cond0_2 i)
    (x2 : Vec F S256x2048 .f32) (x3 : Vec F S512x2048 .f32) (xo : Vec F S256x4096 .f32)
    (kb : Vec F S4096x2048 .bf16) (qb : Vec F S256x2048 .bf16) (lb : Vec F S256x4096 .f32)
    (E : Set ℕ) (K : PUnit → sProp 𝕄) :
    iprop(owns (c : Thread nD τ) arg2 fullShare x2 ∗ owns (c : Thread nD τ) arg3 fullShare x3 ∗ owns (c : Thread nD τ) arg4 fullShare xo
        ∗ owns (c : Thread nD τ) arg5 fullShare kb ∗ owns (c : Thread nD τ) arg6 fullShare qb ∗ owns (c : Thread nD τ) arg7 fullShare lb
        ∗ (iprop(owns (c : Thread nD τ) arg2 fullShare x2 ∗ owns (c : Thread nD τ) arg3 fullShare x3
            ∗ (∃ f4 f5 f6 f7, (arg4.view.loc (c : Thread nD τ) ↦[arg4.view.set]{fullShare} f4)
                ∗ (arg5.view.loc (c : Thread nD τ) ↦[arg5.view.set]{fullShare} f5)
                ∗ (arg6.view.loc (c : Thread nD τ) ↦[arg6.view.set]{fullShare} f6)
                ∗ (arg7.view.loc (c : Thread nD τ) ↦[arg7.view.set]{fullShare} f7)
                ∗ ⌜Step i x2 x3 xo kb qb lb (arg4.view.read (Elt F) f4) (arg5.view.read (Elt F) f5)
                    (arg6.view.read (Elt F) f6) (arg7.view.read (Elt F) f7)⌝)) -∗ K ⟨⟩))
      ⊢ wp frame (wpE (defs₀ (F := F)) Variants.none c none) E (cc0__fused_attn_kernel i arg2 harg2 arg3 harg3 arg4 harg4 arg5 harg5 arg6 harg6 arg7 harg7) K := by
  simp only [cc0__fused_attn_kernel_eq_skeleton]; unfold cc0__fused_attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  sl_unfold_words
  iapply Hk
  isplitl [H2]
  · iexists _; isplitr; · ipureintro; exact harg2.read_unread _
    iexact H2
  isplitl [H3]
  · iexists _; isplitr; · ipureintro; exact harg3.read_unread _
    iexact H3
  iexists _, _, _, _
  isplitl [H4]; · iexact H4
  isplitl [H5]; · iexact H5
  isplitl [H6]; · iexact H6
  isplitl [H7]; · iexact H7
  ipureintro
  simp only [readAt_whole (F := F) (S := S256x2048) _ _ zero2, readAt_whole (F := F) (S := S512x2048) _ _ zero2, readAt_whole (F := F) (S := S256x4096) _ _ zero2, View.readCov_unit_zero (S := S256x2048) _ zero2, View.readCov_unit_zero (S := S256x4096) _ zero2, read_writes_whole (F := F) _ _ zero2, hf2, hf3, hf4, hf5, hf6, hf7]
  refine ⟨fun h => absurd h hc0, fun _ => rfl, ?k_hit, ?k_miss, fun h => absurd hc1 h, ⟨?w, ?kc, ?l_hit⟩, ?l_miss, fun h => absurd h hc2, fun _ => rfl⟩
  case l_hit => intro y z h0 h1; exact cols_hit (F := F) arg7.view _ _ _ rfl y z h0 h1
  case l_miss => intro y h; exact (cols_miss (F := F) arg7.view _ _ _ rfl rfl y h).trans (congrFun hf7 y)
  case k_hit => intro _ y z h0 h1; exact rows_hit (F := F) arg5.view _ _ _ rfl y z h0 h1
  case k_miss => intro _ y h; exact (rows_miss (F := F) arg5.view _ _ _ rfl rfl y h).trans (congrFun hf5 y)
  case kc => intro y z h0 h1; exact readCov_rows_eq (F := F) arg5.view _ _ _ _ rfl rfl y z h0 h1

end Cert.KernelIdeal.Gen

end
-- ==== Proof.KI.RunFFT.lean ====
/-
  One call of the body at a grid point where the query block is not rescaled (chunk coordinate not 0), the key
  chunk is not saved (row block not 0) and the row softmax is taken (chunk coordinate 7):
  run symbolically, the body leaves the buffers at lists of slice stores over what they held, and reading those
  lists back gives the step relation: the query scratch is kept, the key scratch is kept,
  columns [off, off + 512) of the logits scratch are the product of the query scratch with those key rows and the other
  columns are kept, and the output buffer is the row softmax of the logits scratch.
-/
import proofs.«180405_g721554506538_bridgefix_236_8_alg».proof.Proof.KI.RunLemmas
import Idealize.ShloMosaic.Lib.ValueIdx
import Idealize.ShloMosaic.Lib.WritesUnit
import Idealize.ShloMosaic.Lib.WholeRead
import Idealize.ShloMosaic.Lib.Pipeline.Value

set_option maxRecDepth 16384

noncomputable section

namespace Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem kernel_run_FFT (c : Dev nD) (i : grid0.Coords)
    (arg2 : Memref sig .tc .vmem S256x2048 .f32) (harg2 : arg2.IsWhole) (arg3 : Memref sig .tc .vmem S512x2048 .f32) (harg3 : arg3.IsWhole)
    (arg4 : Memref sig .tc .vmem S256x4096 .f32) (harg4 : arg4.IsWhole) (arg5 : Memref sig .tc .vmem S4096x2048 .bf16) (harg5 : arg5.IsWhole)
    (arg6 : Memref sig .tc .vmem S256x2048 .bf16) (harg6 : arg6.IsWhole) (arg7 : Memref sig .tc .vmem S256x4096 .f32) (harg7 : arg7.IsWhole)
    (hc0 : ¬cond0_0 i) (hc1 : ¬cond0_1 i) (hc2 : cond0_2 i)
    (x2 : Vec F S256x2048 .f32) (x3 : Vec F S512x2048 .f32) (xo : Vec F S256x4096 .f32)
    (kb : Vec F S4096x2048 .bf16) (qb : Vec F S256x2048 .bf16) (lb : Vec F S256x4096 .f32)
    (E : Set ℕ) (K : PUnit → sProp 𝕄) :
    iprop(owns (c : Thread nD τ) arg2 fullShare x2 ∗ owns (c : Thread nD τ) arg3 fullShare x3 ∗ owns (c : Thread nD τ) arg4 fullShare xo
        ∗ owns (c : Thread nD τ) arg5 fullShare kb ∗ owns (c : Thread nD τ) arg6 fullShare qb ∗ owns (c : Thread nD τ) arg7 fullShare lb
        ∗ (iprop(owns (c : Thread nD τ) arg2 fullShare x2 ∗ owns (c : Thread nD τ) arg3 fullShare x3
            ∗ (∃ f4 f5 f6 f7, (arg4.view.loc (c : Thread nD τ) ↦[arg4.view.set]{fullShare} f4)
                ∗ (arg5.view.loc (c : Thread nD τ) ↦[arg5.view.set]{fullShare} f5)
                ∗ (arg6.view.loc (c : Thread nD τ) ↦[arg6.view.set]{fullShare} f6)
                ∗ (arg7.view.loc (c : Thread nD τ) ↦[arg7.view.set]{fullShare} f7)
                ∗ ⌜Step i x2 x3 xo kb qb lb (arg4.view.read (Elt F) f4) (arg5.view.read (Elt F) f5)
                    (arg6.view.read (Elt F) f6) (arg7.view.read (Elt F) f7)⌝)) -∗ K ⟨⟩))
      ⊢ wp frame (wpE (defs₀ (F := F)) Variants.none c none) E (cc0__fused_attn_kernel i arg2 harg2 arg3 harg3 arg4 harg4 arg5 harg5 arg6 harg6 arg7 harg7) K := by
  simp only [cc0__fused_attn_kernel_eq_skeleton]; unfold cc0__fused_attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  sl_unfold_words
  iapply Hk
  isplitl [H2]
  · iexists _; isplitr; · ipureintro; exact harg2.read_unread _
    iexact H2
  isplitl [H3]
  · iexists _; isplitr; · ipureintro; exact harg3.read_unread _
    iexact H3
  iexists _, _, _, _
  isplitl [H4]; · iexact H4
  isplitl [H5]; · iexact H5
  isplitl [H6]; · iexact H6
  isplitl [H7]; · iexact H7
  ipureintro
  simp only [readAt_whole (F := F) (S := S256x2048) _ _ zero2, readAt_whole (F := F) (S := S512x2048) _ _ zero2, readAt_whole (F := F) (S := S256x4096) _ _ zero2, View.readCov_unit_zero (S := S256x2048) _ zero2, View.readCov_unit_zero (S := S256x4096) _ zero2, read_writes_whole (F := F) _ _ zero2, hf2, hf3, hf4, hf5, hf6, hf7]
  refine ⟨fun h => absurd h hc0, fun _ => rfl, fun h => absurd h hc1, fun h => absurd h hc1, fun _ => rfl, ⟨?w, ?kc, ?l_hit⟩, ?l_miss, fun _ => rfl, fun h => absurd hc2 h⟩
  case l_hit => intro y z h0 h1; exact cols_hit (F := F) arg7.view _ _ _ rfl y z h0 h1
  case l_miss => intro y h; exact (cols_miss (F := F) arg7.view _ _ _ rfl rfl y h).trans (congrFun hf7 y)
  case kc => intro y z h0 h1; exact (readAt_rows_eq (F := F) arg5.view _ _ rfl y z h0 h1).trans (congrFun hf5 y)

end Cert.KernelIdeal.Gen

end
-- ==== Proof.KI.RunFFF.lean ====
/-
  One call of the body at a grid point where the query block is not rescaled (chunk coordinate not 0), the key
  chunk is not saved (row block not 0) and the row softmax is not taken (chunk coordinate not 7):
  run symbolically, the body leaves the buffers at lists of slice stores over what they held, and reading those
  lists back gives the step relation: the query scratch is kept, the key scratch is kept,
  columns [off, off + 512) of the logits scratch are the product of the query scratch with those key rows and the other
  columns are kept, and the output buffer is kept.
-/
import proofs.«180405_g721554506538_bridgefix_236_8_alg».proof.Proof.KI.RunLemmas
import Idealize.ShloMosaic.Lib.ValueIdx
import Idealize.ShloMosaic.Lib.WritesUnit
import Idealize.ShloMosaic.Lib.WholeRead
import Idealize.ShloMosaic.Lib.Pipeline.Value

set_option maxRecDepth 16384

noncomputable section

namespace Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem kernel_run_FFF (c : Dev nD) (i : grid0.Coords)
    (arg2 : Memref sig .tc .vmem S256x2048 .f32) (harg2 : arg2.IsWhole) (arg3 : Memref sig .tc .vmem S512x2048 .f32) (harg3 : arg3.IsWhole)
    (arg4 : Memref sig .tc .vmem S256x4096 .f32) (harg4 : arg4.IsWhole) (arg5 : Memref sig .tc .vmem S4096x2048 .bf16) (harg5 : arg5.IsWhole)
    (arg6 : Memref sig .tc .vmem S256x2048 .bf16) (harg6 : arg6.IsWhole) (arg7 : Memref sig .tc .vmem S256x4096 .f32) (harg7 : arg7.IsWhole)
    (hc0 : ¬cond0_0 i) (hc1 : ¬cond0_1 i) (hc2 : ¬cond0_2 i)
    (x2 : Vec F S256x2048 .f32) (x3 : Vec F S512x2048 .f32) (xo : Vec F S256x4096 .f32)
    (kb : Vec F S4096x2048 .bf16) (qb : Vec F S256x2048 .bf16) (lb : Vec F S256x4096 .f32)
    (E : Set ℕ) (K : PUnit → sProp 𝕄) :
    iprop(owns (c : Thread nD τ) arg2 fullShare x2 ∗ owns (c : Thread nD τ) arg3 fullShare x3 ∗ owns (c : Thread nD τ) arg4 fullShare xo
        ∗ owns (c : Thread nD τ) arg5 fullShare kb ∗ owns (c : Thread nD τ) arg6 fullShare qb ∗ owns (c : Thread nD τ) arg7 fullShare lb
        ∗ (iprop(owns (c : Thread nD τ) arg2 fullShare x2 ∗ owns (c : Thread nD τ) arg3 fullShare x3
            ∗ (∃ f4 f5 f6 f7, (arg4.view.loc (c : Thread nD τ) ↦[arg4.view.set]{fullShare} f4)
                ∗ (arg5.view.loc (c : Thread nD τ) ↦[arg5.view.set]{fullShare} f5)
                ∗ (arg6.view.loc (c : Thread nD τ) ↦[arg6.view.set]{fullShare} f6)
                ∗ (arg7.view.loc (c : Thread nD τ) ↦[arg7.view.set]{fullShare} f7)
                ∗ ⌜Step i x2 x3 xo kb qb lb (arg4.view.read (Elt F) f4) (arg5.view.read (Elt F) f5)
                    (arg6.view.read (Elt F) f6) (arg7.view.read (Elt F) f7)⌝)) -∗ K ⟨⟩))
      ⊢ wp frame (wpE (defs₀ (F := F)) Variants.none c none) E (cc0__fused_attn_kernel i arg2 harg2 arg3 harg3 arg4 harg4 arg5 harg5 arg6 harg6 arg7 harg7) K := by
  simp only [cc0__fused_attn_kernel_eq_skeleton]; unfold cc0__fused_attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc0 | exact hc1 | exact hc2)
  sl_step
  sl_unfold_words
  iapply Hk
  isplitl [H2]
  · iexists _; isplitr; · ipureintro; exact harg2.read_unread _
    iexact H2
  isplitl [H3]
  · iexists _; isplitr; · ipureintro; exact harg3.read_unread _
    iexact H3
  iexists _, _, _, _
  isplitl [H4]; · iexact H4
  isplitl [H5]; · iexact H5
  isplitl [H6]; · iexact H6
  isplitl [H7]; · iexact H7
  ipureintro
  simp only [readAt_whole (F := F) (S := S256x2048) _ _ zero2, readAt_whole (F := F) (S := S512x2048) _ _ zero2, readAt_whole (F := F) (S := S256x4096) _ _ zero2, View.readCov_unit_zero (S := S256x2048) _ zero2, View.readCov_unit_zero (S := S256x4096) _ zero2, read_writes_whole (F := F) _ _ zero2, hf2, hf3, hf4, hf5, hf6, hf7]
  refine ⟨fun h => absurd h hc0, fun _ => rfl, fun h => absurd h hc1, fun h => absurd h hc1, fun _ => rfl, ⟨?w, ?kc, ?l_hit⟩, ?l_miss, fun h => absurd h hc2, fun _ => rfl⟩
  case l_hit => intro y z h0 h1; exact cols_hit (F := F) arg7.view _ _ _ rfl y z h0 h1
  case l_miss => intro y h; exact (cols_miss (F := F) arg7.view _ _ _ rfl rfl y h).trans (congrFun hf7 y)
  case kc => intro y z h0 h1; exact (readAt_rows_eq (F := F) arg5.view _ _ rfl y z h0 h1).trans (congrFun hf5 y)

end Cert.KernelIdeal.Gen

end
-- ==== Proof.KI.Run.lean ====
/-
  One call of the body, whatever the grid point: by cases on its three branch conditions, each case run symbolically.
-/
import proofs.«180405_g721554506538_bridgefix_236_8_alg».proof.Proof.KI.RunTTT
import proofs.«180405_g721554506538_bridgefix_236_8_alg».proof.Proof.KI.RunTTF
import proofs.«180405_g721554506538_bridgefix_236_8_alg».proof.Proof.KI.RunTFT
import proofs.«180405_g721554506538_bridgefix_236_8_alg».proof.Proof.KI.RunTFF
import proofs.«180405_g721554506538_bridgefix_236_8_alg».proof.Proof.KI.RunFTT
import proofs.«180405_g721554506538_bridgefix_236_8_alg».proof.Proof.KI.RunFTF
import proofs.«180405_g721554506538_bridgefix_236_8_alg».proof.Proof.KI.RunFFT
import proofs.«180405_g721554506538_bridgefix_236_8_alg».proof.Proof.KI.RunFFF
import Idealize.ShloMosaic.Lib.ValueIdx

set_option maxRecDepth 16384

noncomputable section

namespace Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem kernel_run (c : Dev nD) (i : grid0.Coords)
    (arg2 : Memref sig .tc .vmem S256x2048 .f32) (harg2 : arg2.IsWhole) (arg3 : Memref sig .tc .vmem S512x2048 .f32) (harg3 : arg3.IsWhole)
    (arg4 : Memref sig .tc .vmem S256x4096 .f32) (harg4 : arg4.IsWhole) (arg5 : Memref sig .tc .vmem S4096x2048 .bf16) (harg5 : arg5.IsWhole)
    (arg6 : Memref sig .tc .vmem S256x2048 .bf16) (harg6 : arg6.IsWhole) (arg7 : Memref sig .tc .vmem S256x4096 .f32) (harg7 : arg7.IsWhole)

    (x2 : Vec F S256x2048 .f32) (x3 : Vec F S512x2048 .f32) (xo : Vec F S256x4096 .f32)
    (kb : Vec F S4096x2048 .bf16) (qb : Vec F S256x2048 .bf16) (lb : Vec F S256x4096 .f32)
    (E : Set ℕ) (K : PUnit → sProp 𝕄) :
    iprop(owns (c : Thread nD τ) arg2 fullShare x2 ∗ owns (c : Thread nD τ) arg3 fullShare x3 ∗ owns (c : Thread nD τ) arg4 fullShare xo
        ∗ owns (c : Thread nD τ) arg5 fullShare kb ∗ owns (c : Thread nD τ) arg6 fullShare qb ∗ owns (c : Thread nD τ) arg7 fullShare lb
        ∗ (iprop(owns (c : Thread nD τ) arg2 fullShare x2 ∗ owns (c : Thread nD τ) arg3 fullShare x3
            ∗ (∃ f4 f5 f6 f7, (arg4.view.loc (c : Thread nD τ) ↦[arg4.view.set]{fullShare} f4)
                ∗ (arg5.view.loc (c : Thread nD τ) ↦[arg5.view.set]{fullShare} f5)
                ∗ (arg6.view.loc (c : Thread nD τ) ↦[arg6.view.set]{fullShare} f6)
                ∗ (arg7.view.loc (c : Thread nD τ) ↦[arg7.view.set]{fullShare} f7)
                ∗ ⌜Step i x2 x3 xo kb qb lb (arg4.view.read (Elt F) f4) (arg5.view.read (Elt F) f5)
                    (arg6.view.read (Elt F) f6) (arg7.view.read (Elt F) f7)⌝)) -∗ K ⟨⟩))
      ⊢ wp frame (wpE (defs₀ (F := F)) Variants.none c none) E (cc0__fused_attn_kernel i arg2 harg2 arg3 harg3 arg4 harg4 arg5 harg5 arg6 harg6 arg7 harg7) K := by
  by_cases hc0 : cond0_0 i <;> by_cases hc1 : cond0_1 i <;> by_cases hc2 : cond0_2 i
  · exact kernel_run_TTT c i arg2 harg2 arg3 harg3 arg4 harg4 arg5 harg5 arg6 harg6 arg7 harg7 hc0 hc1 hc2 x2 x3 xo kb qb lb E K
  · exact kernel_run_TTF c i arg2 harg2 arg3 harg3 arg4 harg4 arg5 harg5 arg6 harg6 arg7 harg7 hc0 hc1 hc2 x2 x3 xo kb qb lb E K
  · exact kernel_run_TFT c i arg2 harg2 arg3 harg3 arg4 harg4 arg5 harg5 arg6 harg6 arg7 harg7 hc0 hc1 hc2 x2 x3 xo kb qb lb E K
  · exact kernel_run_TFF c i arg2 harg2 arg3 harg3 arg4 harg4 arg5 harg5 arg6 harg6 arg7 harg7 hc0 hc1 hc2 x2 x3 xo kb qb lb E K
  · exact kernel_run_FTT c i arg2 harg2 arg3 harg3 arg4 harg4 arg5 harg5 arg6 harg6 arg7 harg7 hc0 hc1 hc2 x2 x3 xo kb qb lb E K
  · exact kernel_run_FTF c i arg2 harg2 arg3 harg3 arg4 harg4 arg5 harg5 arg6 harg6 arg7 harg7 hc0 hc1 hc2 x2 x3 xo kb qb lb E K
  · exact kernel_run_FFT c i arg2 harg2 arg3 harg3 arg4 harg4 arg5 harg5 arg6 harg6 arg7 harg7 hc0 hc1 hc2 x2 x3 xo kb qb lb E K
  · exact kernel_run_FFF c i arg2 harg2 arg3 harg3 arg4 harg4 arg5 harg5 arg6 harg6 arg7 harg7 hc0 hc1 hc2 x2 x3 xo kb qb lb E K

end Cert.KernelIdeal.Gen

end
-- ==== Proof.KI.InvStep.lean ====
/-
  One call of the body at point t carries the scratches' invariant from t points done to t + 1 points done, and at a
  point of the last chunk (t % 8 = 7) the output buffer is left at the row block's specified output block.
  Point t = 8·r + c has chunk coordinate c = t % 8: the query block is rescaled when c = 0, the key chunk saved when
  t < 8, and the slice offsets are 512·c; the row block is t / 8, the same at t − 1 unless c = 0.
-/
import proofs.«180405_g721554506538_bridgefix_236_8_alg».proof.Proof.KI.Inv
import Idealize.ShloMosaic.Lib.ValueIdx

set_option maxRecDepth 16384

noncomputable section

namespace Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- A key chunk depends on its number only. -/
theorem Kc_congr (c : Dev nD) (j j' : ℕ) (h : j < 8) (h' : j' < 8) (e : j = j') : Kc m c j h = Kc m c j' h' := by
  subst e; rfl

/-- A query block depends on its point only. -/
theorem qblk_congr (c : Dev nD) (n n' : ℕ) (h : n < 128) (h' : n' < 128) (e : n = n') : qblk m c n h = qblk m c n' h' := by
  subst e; rfl

/-- The key chunk stored at point t starts at row 512·(t % 8). -/
theorem off1_0 (t : Fin cfg0.N) : k0_off1 (grid0.coords t) 0 = 512 * (t.val % 8) := by rw [off1_eq t]; rfl
/-- The key chunk loaded at point t starts at row 512·(t % 8). -/
theorem off2_0 (t : Fin cfg0.N) : k0_off2 (grid0.coords t) 0 = 512 * (t.val % 8) := by rw [off2_eq t]; rfl
/-- The logits chunk stored at point t starts at column 512·(t % 8). -/
theorem off3_1 (t : Fin cfg0.N) : k0_off3 (grid0.coords t) 1 = 512 * (t.val % 8) := by rw [off3_eq t]; rfl

/-- The key scratch after point t agrees with the cast keys on the rows of the chunks saved through point t. -/
theorem inv_step_k (c : Dev nD) (t : Fin cfg0.N)
    (xo : Vec F S256x4096 .f32) (kb : Vec F S4096x2048 .bf16) (qb : Vec F S256x2048 .bf16) (lb : Vec F S256x4096 .f32)
    (o' : Vec F S256x4096 .f32) (kb' : Vec F S4096x2048 .bf16) (qb' : Vec F S256x2048 .bf16) (lb' : Vec F S256x4096 .f32)
    (hI : InvAt m c t.val (Nat.le_of_lt (lt_of_lt_of_eq t.isLt N_0)) kb qb lb)
    (hS : Step (grid0.coords t) (iblk m c 0 t) (iblk m c 1 t) xo kb qb lb o' kb' qb' lb') :
    ∀ y : S4096x2048.Idx, (y 0).val < 512 * min (t.val + 1) 8 → kb' y = Ks m c y := by
  intro y hy
  have hN : t.val < 128 := lt_of_lt_of_eq t.isLt N_0
  have hy0 := idx2_lt0 y
  by_cases h8 : t.val < 8
  · have hc := (hcond0_1 t).2 h8
    have hcc : t.val % 8 = t.val := Nat.mod_eq_of_lt h8
    rw [min_eq_left (by omega)] at hy
    by_cases hin : 512 * t.val ≤ (y 0).val
    · have e1 := hS.k_hit hc y (ix2 (⟨(y 0).val - 512 * t.val, by omega⟩ : Fin 512) (y 1))
        (by rw [off1_0, hcc]; show (y 0).val = 512 * t.val + ((y 0).val - 512 * t.val); omega) rfl
      rw [e1]
      unfold Ks
      rw [Kc_congr m c ((y 0).val / 512) t.val _ h8 (by omega)]
      unfold Kc kblk
      congr 1
      funext a
      match a with
      | ⟨0, _⟩ => exact Fin.ext (by show (y 0).val - 512 * t.val = (y 0).val % 512; omega)
      | ⟨1, _⟩ => rfl
    · rw [hS.k_miss hc y (Or.inl (by rw [off1_0, hcc]; omega))]
      exact hI.k y (by rw [min_eq_left (by omega)]; omega)
  · have hc : ¬ cond0_1 (grid0.coords t) := fun h => h8 ((hcond0_1 t).1 h)
    rw [hS.k_keep hc]
    rw [min_eq_right (by omega)] at hy
    exact hI.k y (by rw [min_eq_right (by omega)]; exact hy)

/-- The query scratch after point t is the rescaled cast query block of point t's row block. -/
theorem inv_step_q (c : Dev nD) (t : Fin cfg0.N)
    (xo : Vec F S256x4096 .f32) (kb : Vec F S4096x2048 .bf16) (qb : Vec F S256x2048 .bf16) (lb : Vec F S256x4096 .f32)
    (o' : Vec F S256x4096 .f32) (kb' : Vec F S4096x2048 .bf16) (qb' : Vec F S256x2048 .bf16) (lb' : Vec F S256x4096 .f32)
    (hI : InvAt m c t.val (Nat.le_of_lt (lt_of_lt_of_eq t.isLt N_0)) kb qb lb)
    (hS : Step (grid0.coords t) (iblk m c 0 t) (iblk m c 1 t) xo kb qb lb o' kb' qb' lb') :
    qb' = Qs m c t.val (lt_of_lt_of_eq t.isLt N_0) := by
  have hN : t.val < 128 := lt_of_lt_of_eq t.isLt N_0
  by_cases h0 : t.val % 8 = 0
  · rw [hS.q_hit ((hcond0_0 t).2 h0)]
    unfold Qs
    rw [qblk_congr m c (8 * (t.val / 8)) t.val _ hN (by omega)]
    rfl
  · rw [hS.q_keep (fun h => h0 ((hcond0_0 t).1 h))]
    have ht : 0 < t.val := by omega
    rw [hI.q ht]
    exact Qs_congr m c _ _ _ _ (by omega)

/-- The logits scratch after point t agrees with the logits of point t's row block on the columns of the chunks
    multiplied through point t. -/
theorem inv_step_l (c : Dev nD) (t : Fin cfg0.N)
    (xo : Vec F S256x4096 .f32) (kb : Vec F S4096x2048 .bf16) (qb : Vec F S256x2048 .bf16) (lb : Vec F S256x4096 .f32)
    (o' : Vec F S256x4096 .f32) (kb' : Vec F S4096x2048 .bf16) (qb' : Vec F S256x2048 .bf16) (lb' : Vec F S256x4096 .f32)
    (hI : InvAt m c t.val (Nat.le_of_lt (lt_of_lt_of_eq t.isLt N_0)) kb qb lb)
    (hS : Step (grid0.coords t) (iblk m c 0 t) (iblk m c 1 t) xo kb qb lb o' kb' qb' lb')
    (hk : ∀ y : S4096x2048.Idx, (y 0).val < 512 * min (t.val + 1) 8 → kb' y = Ks m c y)
    (hq : qb' = Qs m c t.val (lt_of_lt_of_eq t.isLt N_0)) :
    ∀ y : S256x4096.Idx, (y 1).val < 512 * (t.val % 8 + 1) → lb' y = Ls m c t.val (lt_of_lt_of_eq t.isLt N_0) y := by
  intro y hy
  have hN : t.val < 128 := lt_of_lt_of_eq t.isLt N_0
  have hy1 := idx2_lt1 y
  have hcc : t.val % 8 < 8 := Nat.mod_lt _ (by norm_num)
  obtain ⟨kc, hkc, hl⟩ := hS.l_hit
  by_cases hin : 512 * (t.val % 8) ≤ (y 1).val
  · have e1 := hl y (ix2 (y 0) (⟨(y 1).val - 512 * (t.val % 8), by omega⟩ : Fin 512)) rfl
      (by rw [off3_1]; show (y 1).val = 512 * (t.val % 8) + ((y 1).val - 512 * (t.val % 8)); omega)
    have ekc : kc = Kc m c (t.val % 8) hcc := by
      funext z
      have hz0 := idx2_lt0 z
      have e2 := hkc (ix2 (⟨512 * (t.val % 8) + (z 0).val, by omega⟩ : Fin 4096) (z 1)) z (by rw [off2_0]) rfl
      rw [e2, hk _ (by show 512 * (t.val % 8) + (z 0).val < 512 * min (t.val + 1) 8; omega)]
      unfold Ks
      rw [Kc_congr m c _ (t.val % 8) _ hcc (by show (512 * (t.val % 8) + (z 0).val) / 512 = t.val % 8; omega)]
      congr 1
      funext a
      match a with
      | ⟨0, _⟩ => exact Fin.ext (by show (512 * (t.val % 8) + (z 0).val) % 512 = (z 0).val; omega)
      | ⟨1, _⟩ => rfl
    rw [e1, hq, ekc]
    unfold Ls
    rw [Kc_congr m c ((y 1).val / 512) (t.val % 8) _ hcc (by omega)]
    congr 1
    funext a
    match a with
    | ⟨0, _⟩ => rfl
    | ⟨1, _⟩ => exact Fin.ext (by show (y 1).val - 512 * (t.val % 8) = (y 1).val % 512; omega)
  · have ht : 0 < t.val := by omega
    rw [hS.l_miss y (Or.inl (by rw [off3_1]; omega)), hI.l ht y (by omega)]
    exact congrFun (Ls_congr m c _ _ _ _ (by omega)) y

/-- The invariant step. -/
theorem inv_step (c : Dev nD) (t : Fin cfg0.N)
    (xo : Vec F S256x4096 .f32) (kb : Vec F S4096x2048 .bf16) (qb : Vec F S256x2048 .bf16) (lb : Vec F S256x4096 .f32)
    (o' : Vec F S256x4096 .f32) (kb' : Vec F S4096x2048 .bf16) (qb' : Vec F S256x2048 .bf16) (lb' : Vec F S256x4096 .f32)
    (hI : InvAt m c t.val (Nat.le_of_lt (lt_of_lt_of_eq t.isLt N_0)) kb qb lb)
    (hS : Step (grid0.coords t) (iblk m c 0 t) (iblk m c 1 t) xo kb qb lb o' kb' qb' lb') :
    InvAt m c (t.val + 1) (lt_of_lt_of_eq t.isLt N_0) kb' qb' lb'
      ∧ (cond0_2 (grid0.coords t) → o' = Os m c t.val (lt_of_lt_of_eq t.isLt N_0)) := by
  have hN : t.val < 128 := lt_of_lt_of_eq t.isLt N_0
  have hk := inv_step_k m c t xo kb qb lb o' kb' qb' lb' hI hS
  have hq := inv_step_q m c t xo kb qb lb o' kb' qb' lb' hI hS
  have hl := inv_step_l m c t xo kb qb lb o' kb' qb' lb' hI hS hk hq
  refine ⟨⟨hk, fun h => hq.trans (Qs_congr m c _ _ _ _ (by omega)), fun h y hy => ?_⟩, fun hc2 => ?_⟩
  · rw [Nat.add_sub_cancel] at hy
    exact (hl y hy).trans (congrFun (Ls_congr m c _ _ _ _ (by omega)) y)
  · have h7 : t.val % 8 = 7 := (hcond0_2 t).1 hc2
    rw [hS.o_hit hc2]
    unfold Os
    congr 1
    funext y
    exact hl y (by have := idx2_lt1 y; omega)

end Cert.KernelIdeal.Gen

end
-- ==== Proof.KI.Data.lean ====
/-
  The proof data of the one pipeline: the arrays as the region finds them; after the body at point t each input's
  buffer at its block and the output's at the row block's specified output block; between points the three scratches
  owned at contents satisfying the invariant, and the generator register at some state.
-/
import proofs.«180405_g721554506538_bridgefix_236_8_alg».proof.Proof.KI.Inv
import Idealize.ShloMosaic.Lib.ValueIdx

set_option maxRecDepth 16384

noncomputable section

namespace Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The region invariant after `p` points: the scratches at contents satisfying `InvAt … p`, the generator register at
    some state. -/
def PhiS (c : Dev nD) (p : ℕ) (hp : p ≤ 128) : sProp 𝕄 :=
  iprop((∃ kb qb lb, owns (c : Thread nD τ) scM0_0 fullShare kb ∗ owns (c : Thread nD τ) scM0_1 fullShare qb
      ∗ owns (c : Thread nD τ) scM0_2 fullShare lb ∗ ⌜InvAt m c p hp kb qb lb⌝) ∗ (∃ r, prngReg c r))

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Os m c t.val (lt_of_lt_of_eq t.isLt N_0)
  Φ t := PhiS m c t.val (Nat.le_of_lt_succ (lt_of_lt_of_eq t.isLt (congrArg (· + 1) N_0)))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = Os m c t.val (lt_of_lt_of_eq t.isLt N_0) := by
  dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

end Cert.KernelIdeal.Gen

end
-- ==== Proof.KI.Body.lean ====
/-
  The body obligation at every grid point, and the run of @main. At point t the pipeline hands the body its two
  input blocks and the output buffer, and the invariant hands it the three scratches at contents satisfying the
  invariant for t points done; one call of the body is one step of that invariant, and at the last chunk of a row
  block it leaves the specified output block in the output buffer, elsewhere the output buffer untouched (the window
  is idle there and not written back). The class invariant yields the invariant for zero points done, and any
  later invariant yields it back by forgetting what the scratches hold.
-/
import proofs.«180405_g721554506538_bridgefix_236_8_alg».proof.Proof.KI.Run
import proofs.«180405_g721554506538_bridgefix_236_8_alg».proof.Proof.KI.InvStep
import proofs.«180405_g721554506538_bridgefix_236_8_alg».proof.Proof.KI.Data
import Idealize.ShloMosaic.Lib.ValueIdx

set_option maxRecDepth 16384

noncomputable section

namespace Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem Phi_castSucc (c : Dev nD) (t : Fin cfg0.N) :
    (dats m 0 c).Φ t.castSucc = PhiS m c t.val (Nat.le_of_lt (lt_of_lt_of_eq t.isLt N_0)) := by
  dsimp only [dats]; simp only [Fin.coe_castSucc]

theorem Phi_succ (c : Dev nD) (t : Fin cfg0.N) :
    (dats m 0 c).Φ t.succ = PhiS m c (t.val + 1) (lt_of_lt_of_eq t.isLt N_0) := rfl

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [Phi_succ, Phi_castSucc]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  unfold PhiS
  by_cases h2 : cond0_2 (grid0.coords t)
  · rw [show (dats m 0 c).leavesExact 2 t = owns (c : Thread nD τ) (ms0_2 t) fullShare ((dats m 0 c).after 2 t) from by
      unfold Dat.leavesExact; rw [liveAt0_2 t h2], after0_2]
    iintro ⟨⟨⟨%kb, %qb, %lb, HS0, HS1, HS2, %hI⟩, Hg⟩, Ho, ⟨%d0, H0⟩, ⟨%d1, H1⟩, ⟨%d2, H2⟩⟩
    iapply (kernel_run c (grid0.coords t) (ms0_0 t) (hs0_0 t) (ms0_1 t) (hs0_1 t) (ms0_2 t) (hs0_2 t)
      scM0_0 (Memref.isWhole_whole _) scM0_1 (Memref.isWhole_whole _) scM0_2 (Memref.isWhole_whole _)
      (iblk m c 0 t) (iblk m c 1 t) ((dats m 0 c).before 2 t d2) kb qb lb Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, ⟨%f4, %f5, %f6, %f7, H2, HS0, HS1, HS2, %hS⟩⟩
    obtain ⟨hI', hO⟩ := inv_step m c t _ kb qb lb _ _ _ _ hI hS
    isplitl [HS0 HS1 HS2 Hg]
    · isplitl [HS0 HS1 HS2]
      · iexists (scM0_0.view.read (Elt F) f5), (scM0_1.view.read (Elt F) f6), (scM0_2.view.read (Elt F) f7)
        isplitl [HS0]
        · unfold owns; iexists f5; isplitr
          · ipureintro; rfl
          iexact HS0
        isplitl [HS1]
        · unfold owns; iexists f6; isplitr
          · ipureintro; rfl
          iexact HS1
        isplitl [HS2]
        · unfold owns; iexists f7; isplitr
          · ipureintro; rfl
          iexact HS2
        ipureintro; exact hI'
      iexact Hg
    isplitl [Ho]; · iexact Ho
    isplitl [H0]; · iexact H0
    isplitl [H1]; · iexact H1
    unfold owns; iexists f4; isplitr
    · ipureintro; exact hO h2
    iexact H2
  · rw [Dat.leavesExact_idle (dats m 0 c) 2 t (idleAt0_2 t h2) (noFlush0_2 t h2)]
    iintro ⟨⟨⟨%kb, %qb, %lb, HS0, HS1, HS2, %hI⟩, Hg⟩, Ho, ⟨%d0, H0⟩, ⟨%d1, H1⟩, ⟨%d2, H2⟩⟩
    iapply (kernel_run c (grid0.coords t) (ms0_0 t) (hs0_0 t) (ms0_1 t) (hs0_1 t) (ms0_2 t) (hs0_2 t)
      scM0_0 (Memref.isWhole_whole _) scM0_1 (Memref.isWhole_whole _) scM0_2 (Memref.isWhole_whole _)
      (iblk m c 0 t) (iblk m c 1 t) ((dats m 0 c).before 2 t d2) kb qb lb Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, ⟨%f4, %f5, %f6, %f7, H2, HS0, HS1, HS2, %hS⟩⟩
    obtain ⟨hI', hO⟩ := inv_step m c t _ kb qb lb _ _ _ _ hI hS
    isplitl [HS0 HS1 HS2 Hg]
    · isplitl [HS0 HS1 HS2]
      · iexists (scM0_0.view.read (Elt F) f5), (scM0_1.view.read (Elt F) f6), (scM0_2.view.read (Elt F) f7)
        isplitl [HS0]
        · unfold owns; iexists f5; isplitr
          · ipureintro; rfl
          iexact HS0
        isplitl [HS1]
        · unfold owns; iexists f6; isplitr
          · ipureintro; rfl
          iexact HS1
        isplitl [HS2]
        · unfold owns; iexists f7; isplitr
          · ipureintro; rfl
          iexact HS2
        ipureintro; exact hI'
      iexact Hg
    isplitl [Ho]; · iexact Ho
    isplitl [H0]; · iexact H0
    isplitl [H1]; · iexact H1
    iexists d2; unfold owns; iexists f4; isplitr
    · ipureintro; exact hS.o_keep h2
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨⟨%kb, HS0⟩, ⟨%qb, HS1⟩, ⟨%lb, HS2⟩⟩, Hg⟩
  isplitl [HS0 HS1 HS2]
  · iexists kb, qb, lb
    isplitl [HS0]; · iexact HS0
    isplitl [HS1]; · iexact HS1
    isplitl [HS2]; · iexact HS2
    ipureintro; exact InvAt.zero m c kb qb lb
  iexact Hg

/-- After the last point the invariant gives the class invariant back: what the scratches hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (lt_of_lt_of_eq (Fin.last cfg0.N).isLt (congrArg (· + 1) N_0))) from rfl, PhiA0_eq]
  unfold PhiS
  iintro ⟨⟨%kb, %qb, %lb, HS0, HS1, HS2, -⟩, Hg⟩
  isplitl [HS0 HS1 HS2]
  · isplitl [HS0]; · (iexists _; iexact HS0)
    isplitl [HS1]; · (iexists _; iexact HS1)
    iexists _; iexact HS2
  iexact Hg

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program terminates without a fault and leaves both argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Gen

end
-- ==== Proof.KI.Final.lean ====
/-
  From blocks to the array. The output window's block of row block r is written back once, at the row block's last
  point 8·r + 7, where the body has just stored the specified output block; the sixteen blocks of 256 rows cover the
  4096 rows, so after the run the result array is the specified whole array: row y lies in row block y / 256 at local
  row y % 256.
-/
import proofs.«180405_g721554506538_bridgefix_236_8_alg».proof.Proof.KI.Data
import Idealize.ShloMosaic.Lib.ValueIdx
import Idealize.ShloMosaic.Lib.Pipeline.Value

set_option maxRecDepth 16384

noncomputable section

namespace Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The output window's block index at point t is (t / 8, 0): decided over the grid. -/
theorem idx_out : ∀ t : Fin cfg0.N, win0_2.index t (0 : Fin 2) = t.val / 8 ∧ win0_2.index t (1 : Fin 2) = 0 :=
  (by decide +kernel : ∀ t : Fin grid0.N, _)

/-- At the last point t of a row block, the whole array's specification at row 256·(t / 8) + x₀, column x₁ is the
    row block's output block at (x₀, x₁). -/
theorem KOut_at (c : Dev nD) (t : ℕ) (ht : t < 128) (h7 : t % 8 = 7) (y : S4096x4096.Idx) (x : S256x4096.Idx)
    (h0 : (y 0).val = 256 * (t / 8) + (x 0).val) (h1 : (y 1).val = (x 1).val) :
    KOut m c y = Os m c t ht x := by
  have hx0 := idx2_lt0 x
  unfold KOut
  rw [Os_congr m c _ t _ ht (by omega)]
  congr 1
  funext a
  match a with
  | ⟨0, _⟩ => exact Fin.ext (by show (y 0).val % 256 = (x 0).val; omega)
  | ⟨1, _⟩ => exact Fin.ext h1

/-- What a flushing point t writes back is its block of the specified whole array. -/
theorem flushed_out (c : Dev nD) (t : Fin cfg0.N) (hf : (cfg0.win 2).flush t = true) :
    (dats m 0 c).flushed 2 t = ((cfg0.win 2).blk t).view.read (Elt F) (KOut m c) := by
  have hN : t.val < 128 := lt_of_lt_of_eq t.isLt N_0
  have h7 : t.val % 8 = 7 := (flush0_2 t).1 hf
  obtain ⟨e0, e1⟩ := idx_out t
  show (cfg0.win 2).cut (grid0.coords t) ((dats m 0 c).after 2 t) = _
  rw [after0_2]
  funext j
  show Os m c t.val _ ((cfg0.win 2).xinj (grid0.coords t) j) = KOut m c (((cfg0.win 2).blk t).view.emb j)
  refine (KOut_at m c t.val hN h7 _ _ ?_ ?_).symm
  · show win0_2.index t (0 : Fin 2) * 256 + 1 * (j 0).val = 256 * (t.val / 8) + (j 0).val
    rw [e0]; omega
  · show win0_2.index t (1 : Fin 2) * 4096 + 1 * (j 1).val = (j 1).val
    rw [e1]; omega

/-- An index of the array is in point t's block iff each coordinate is in the block's range on its axis. -/
theorem mem_blk_out (t : Fin cfg0.N) (i : S4096x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v0).slice (win0_2.rect t)).set ↔ _
  rw [View.set_slice_whole, Rect.mem_set_unit]
  exact Iff.rfl

/-- Row y₀ lies in the block written back at the last point 8·(y₀ / 256) + 7 of its row block. -/
theorem cover_out (i : S4096x4096.Idx) :
    ∃ t : Fin cfg0.N, (cfg0.win 2).flush t = true ∧ i ∈ ((cfg0.win 2).blk t).view.set := by
  have hi0 := idx2_lt0 i
  have hi1 := idx2_lt1 i
  have hlt : 8 * ((i 0).val / 256) + 7 < cfg0.N := by rw [show cfg0.N = 128 from N_0]; omega
  obtain ⟨e0, e1⟩ := idx_out ⟨8 * ((i 0).val / 256) + 7, hlt⟩
  have e0' : win0_2.index ⟨8 * ((i 0).val / 256) + 7, hlt⟩ (0 : Fin 2) = (8 * ((i 0).val / 256) + 7) / 8 := e0
  refine ⟨⟨8 * ((i 0).val / 256) + 7, hlt⟩, (flush0_2 _).2 (by show (8 * ((i 0).val / 256) + 7) % 8 = 7; omega), ?_⟩
  rw [mem_blk_out]
  intro a
  match a with
  | ⟨0, _⟩ =>
    show win0_2.index ⟨8 * ((i 0).val / 256) + 7, hlt⟩ (0 : Fin 2) * 256 ≤ (i 0).val
      ∧ (i 0).val < win0_2.index ⟨8 * ((i 0).val / 256) + 7, hlt⟩ (0 : Fin 2) * 256 + 256
    rw [e0']; omega
  | ⟨1, _⟩ =>
    show win0_2.index ⟨8 * ((i 0).val / 256) + 7, hlt⟩ (1 : Fin 2) * 4096 ≤ (i 1).val
      ∧ (i 1).val < win0_2.index ⟨8 * ((i 0).val / 256) + 7, hlt⟩ (1 : Fin 2) * 4096 + 4096
    rw [e1]; omega

/-- After the run the result array holds the specified whole array. -/
theorem final2 (c : Dev nD) : (dats m 0 c).arrAt 2 cfg0.N = KOut m c := by
  exact (dats m 0 c).arrAt_eq_of_cover 2 (KOut m c) (fun t hf => flushed_out m c t hf) (fun i => cover_out i)

end Cert.KernelIdeal.Gen

end
-- ==== Proof.Softmax.lean ====
/-
  Extended-real algebra for a row softmax of scaled dot products, on real entries.
  (1) A dot product whose left factors carry a real scale c is c times the dot product; dividing a dot product by a
      nonzero real D is multiplying it by 1/D. Both are then real numbers.
  (2) For a nonempty finite row x of reals, exp(x_j) · (1 / Σ exp(x_j')) and exp(x_j − m) / (0 + Σ exp(x_j' − m)), for ANY
      real shift m, are both the real number exp(x_j) / Σ exp(x_j'): the sum of exponentials is a positive real, and
      exp(x − m) = exp(x) · exp(−m) cancels between numerator and denominator.
  (3) The maximum of a nonempty finite row of reals, folded from −∞, is a real.
-/
import Idealize.ShloMosaic.PureOps.Ideal

noncomputable section

namespace Cert.Softmax

open Idealize.ShloMosaic

variable {ι κ : Type} [Fintype ι] [Fintype κ]

/-- The coercion of a finite sum of reals is the sum of the coercions. -/
private theorem coe_sum {α : Type} (s : Finset α) (f : α → ℝ) :
    (∑ a ∈ s, (f a : EReal)) = ((∑ a ∈ s, f a : ℝ) : EReal) := by
  classical
  induction s using Finset.induction_on with
  | empty => simp
  | insert a s ha ih => rw [Finset.sum_insert ha, Finset.sum_insert ha, ih, EReal.coe_add]

/-- A finite sum of exponentials over a nonempty type is positive. -/
private theorem sum_exp_pos [Nonempty κ] (x : κ → ℝ) : 0 < ∑ j', Real.exp (x j') :=
  Finset.sum_pos (fun i _ => Real.exp_pos _) Finset.univ_nonempty

/-- The maximum folded from −∞ over a finset of reals is −∞ on the empty finset and a real otherwise. -/
private theorem fold_max_aux (x : κ → ℝ) (s : Finset κ) :
    (s = ∅ ∧ s.fold max (⊥ : EReal) (fun j => (x j : EReal)) = ⊥) ∨
      ∃ m : ℝ, s.fold max (⊥ : EReal) (fun j => (x j : EReal)) = (m : EReal) := by
  classical
  induction s using Finset.induction_on with
  | empty => left; exact ⟨rfl, Finset.fold_empty⟩
  | insert a s ha ih =>
    right
    rw [Finset.fold_insert ha]
    rcases ih with ⟨_, h⟩ | ⟨m, h⟩
    · rw [h]; exact ⟨x a, max_bot_right _⟩
    · rw [h]; exact ⟨max (x a) m, (EReal.coe_strictMono.monotone.map_max).symm⟩

/-- A dot product with the left factors scaled by the real `c`. -/
theorem ker_logit (q k : ι → ℝ) (c : ℝ) :
    (∑ d, ((q d : EReal) * (c : EReal)) * (k d : EReal)) = ((c * ∑ d, q d * k d : ℝ) : EReal) := by
  have h : ∀ d, ((q d : EReal) * (c : EReal)) * (k d : EReal) = ((q d * c * k d : ℝ) : EReal) := by
    intro d; rw [EReal.coe_mul, EReal.coe_mul]
  simp_rw [h]
  rw [coe_sum]
  congr 1
  rw [Finset.mul_sum]
  apply Finset.sum_congr rfl
  intro d _; ring

/-- A dot product divided by the nonzero real `D`. -/
theorem ref_logit (q k : ι → ℝ) (D : ℝ) (hD : D ≠ 0) :
    Ideal.div (∑ d, (q d : EReal) * (k d : EReal)) (D : EReal) = (((1 / D) * ∑ d, q d * k d : ℝ) : EReal) := by
  have h : ∀ d, (q d : EReal) * (k d : EReal) = ((q d * k d : ℝ) : EReal) :=
    fun d => (EReal.coe_mul _ _).symm
  simp_rw [h]
  rw [Ideal.div_coe hD, coe_sum, ← EReal.coe_mul]
  congr 1
  ring

/-- The unshifted row softmax, written as a product with the reciprocal of the sum. -/
theorem ker_row [Nonempty κ] (x : κ → ℝ) (j : κ) :
    Ideal.exp (x j : EReal) * Ideal.div 1 (∑ j', Ideal.exp (x j' : EReal))
      = ((Real.exp (x j) / ∑ j', Real.exp (x j') : ℝ) : EReal) := by
  have hpos := sum_exp_pos x
  simp only [Ideal.exp_coe]
  rw [coe_sum, ← EReal.coe_one, Ideal.div_coe hpos.ne', ← EReal.coe_mul, ← EReal.coe_mul]
  congr 1
  ring

/-- The row softmax shifted by any real `m`, written as a quotient by zero plus the sum. -/
theorem ref_row [Nonempty κ] (x : κ → ℝ) (m : ℝ) (j : κ) :
    Ideal.div (Ideal.exp ((x j : EReal) - (m : EReal))) (0 + ∑ j', Ideal.exp ((x j' : EReal) - (m : EReal)))
      = ((Real.exp (x j) / ∑ j', Real.exp (x j') : ℝ) : EReal) := by
  have hpos := sum_exp_pos x
  have h : ∀ j', Ideal.exp ((x j' : EReal) - (m : EReal)) = ((Real.exp (x j') * Real.exp (-m) : ℝ) : EReal) := by
    intro j'; rw [← EReal.coe_sub, Ideal.exp_coe, sub_eq_add_neg, Real.exp_add]
  simp_rw [h]
  have hne : (∑ j', Real.exp (x j') * Real.exp (-m)) ≠ 0 := by
    rw [← Finset.sum_mul]; exact (mul_pos hpos (Real.exp_pos _)).ne'
  rw [coe_sum, zero_add, Ideal.div_coe hne, ← EReal.coe_mul]
  congr 1
  rw [← Finset.sum_mul]
  have := Real.exp_pos (-m)
  field_simp

/-- The maximum of a nonempty finite row of reals, folded from −∞, is a real. -/
theorem fold_max_real [Nonempty κ] (x : κ → ℝ) :
    ∃ m : ℝ, (Finset.univ : Finset κ).fold max (⊥ : EReal) (fun j => (x j : EReal)) = (m : EReal) := by
  rcases fold_max_aux x Finset.univ with ⟨h, _⟩ | h
  · exact absurd h Finset.univ_nonempty.ne_empty
  · exact h

end Cert.Softmax

end
-- ==== Proof.Target.lean ====
/-
  The function both programs compute, index by index, on finite inputs: the row softmax of the scaled logits.
  For query row i and key row j the scaled logit is (1/T) · Σ_d q[i,d] · k[j,d], with 1/T the exact reciprocal of the
  temperature 11863283 / 2^18, and the result at (i, j) is exp(logit i j) / Σ_j' exp(logit i j').
  Stated over the real parts of the entries (on finite inputs every entry is its real part).
-/
import Idealize.ShloMosaic.PureOps.Ideal
import Idealize.ShloMosaic.Lib.ValueIdx

noncomputable section

namespace Cert.Target

open Idealize.ShloMosaic Idealize.ShloMosaic.ValueIdx

/-- The reciprocal of the temperature: T = 11863283 / 2^18, so 1/T = 262144 / 11863283. -/
def invT : ℝ := 262144 / 11863283

/-- The scaled logit of query row `i` against key row `j`. -/
def logit (q k : (⟨2, ![4096, 2048]⟩ : Shape).Idx → EReal) (i j : Fin 4096) : ℝ :=
  invT * ∑ d : Fin 2048, (q (ix2 i d)).toReal * (k (ix2 j d)).toReal

/-- The row softmax of the scaled logits, at output index `y = (i, j)`. -/
def G (q k : (⟨2, ![4096, 2048]⟩ : Shape).Idx → EReal) : (⟨2, ![4096, 4096]⟩ : Shape).Idx → EReal :=
  fun y => ((Real.exp (logit q k (y 0) (y 1)) / ∑ j : Fin 4096, Real.exp (logit q k (y 0) j) : ℝ) : EReal)

end Cert.Target

end
-- ==== Proof.KI.ValueIdeal.lean ====
/-
  At the ideal instance, on finite inputs, the output block the specification assigns to row block r is rows
  [256·r, 256·r + 256) of the row softmax of the scaled logits: a cast is the identity, the named reciprocal is 1/T, a
  matrix product into a zero accumulator is the sum over the 2048 features, the lane reduction is the sum over the 4096
  keys, and exp(x)·(1/Σexp) is the softmax quotient.
-/
import proofs.«180405_g721554506538_bridgefix_236_8_alg».proof.Proof.KI.Spec
import proofs.«180405_g721554506538_bridgefix_236_8_alg».proof.Proof.Softmax
import proofs.«180405_g721554506538_bridgefix_236_8_alg».proof.Proof.Target
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

set_option maxRecDepth 16384

noncomputable section

namespace Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt Ideal) ℓ)

/-- The f32 pattern 0x3F800000 is the extended real 1. -/
private theorem ofBits_one_f32 : Ideal.ofBits .f32 0x3F800000#32 = 1 := by
  simp [Ideal.ofBits, Ideal.ieee]
  rw [← EReal.coe_mul]
  norm_num

/-- A lane sum of a [256, 4096] block at row `i`: the sum over the 4096 lanes of the row. -/
private theorem laneSum_apply (E : FVec Ideal S256x4096 .f32) (hφ : FKind.Formats .f32)
    (hacc : (0x00000000#32 : BitVec 32) = FKind.add.neutral .f32 hφ) (i : Fin 256) :
    multiReduction .add [1] S256 E 0x00000000#32 reduces_S256x4096_S256 hφ hacc (ix1 i) = ∑ j' : Fin 4096, E (ix2 i j') := by
  refine (Ideal.multiReduction_add_single E 0x00000000#32 reduces_S256x4096_S256 hφ hacc (ix1 i)).trans ?_
  refine Finset.sum_congr rfl fun k _ => congrArg E (funext fun a => Fin.ext ?_)
  match a with
  | ⟨0, _⟩ => rfl
  | ⟨1, _⟩ => rfl

/-- The row softmax payload at an index: the exponential there times the reciprocal of the row's sum of exponentials. -/
private theorem pay4_apply (L : FVec Ideal S256x4096 .f32) (i : Fin 256) (j : Fin 4096) :
    k0_pay4 (F := Ideal) L (ix2 i j)
      = Ideal.exp (L (ix2 i j)) * Ideal.div 1 (∑ j' : Fin 4096, Ideal.exp (L (ix2 i j'))) := by
  unfold k0_pay4
  show Ideal.exp (L (ix2 i j)) * _ = _
  congr 1
  refine (broadcastTo_apply _ broadcasts_S256x1_S256x4096 (ix2 i j) (ix2 i (⟨0, Nat.one_pos⟩ : Fin 1)) (fun a => match a with
      | ⟨0, _⟩ => by show i.val = if (256 : Nat) = 1 then 0 else i.val; rw [if_neg (by decide)]
      | ⟨1, _⟩ => by show 0 = if (1 : Nat) = 1 then 0 else j.val; rw [if_pos rfl])).trans ?_
  show Ideal.div (Ideal.ofBits .f32 0x3F800000#32) _ = _
  rw [ofBits_one_f32]
  congr 1
  refine (shapeCast_apply _ shapeCasts_S256_S256x1 (ix2 i (⟨0, Nat.one_pos⟩ : Fin 1)) (ix1 i) (by
    rw [Shape.rowMajor_val_one, Shape.rowMajor_val_two]; show i.val = i.val * 1 + 0; omega)).trans ?_
  exact laneSum_apply (exp L) _ _ i

private theorem lhs_pay3_0 (i : S256x512.Idx) (q : dot_S256x2048_S512x2048_S256x512_1_1_0_0_n_n.contr.Idx) :
    (dot_S256x2048_S512x2048_S256x512_1_1_0_0_n_n.lhsIdx i q 0).val = (i 0).val := by
  unfold DotDims.lhsIdx
  rw [dif_neg (show ¬(0 : Fin S256x2048.rank) ∈ dot_S256x2048_S512x2048_S256x512_1_1_0_0_n_n.lhsBatch by decide), dif_pos (show (0 : Fin S256x2048.rank) ∈ dot_S256x2048_S512x2048_S256x512_1_1_0_0_n_n.lhsNonContracting by decide)]
  rfl
private theorem lhs_pay3_1 (i : S256x512.Idx) (q : dot_S256x2048_S512x2048_S256x512_1_1_0_0_n_n.contr.Idx) :
    (dot_S256x2048_S512x2048_S256x512_1_1_0_0_n_n.lhsIdx i q 1).val = (q ⟨0, by decide⟩).val :=
  dot_S256x2048_S512x2048_S256x512_1_1_0_0_n_n.lhsIdx_val_of_single rfl i q
private theorem rhs_pay3_0 (i : S256x512.Idx) (q : dot_S256x2048_S512x2048_S256x512_1_1_0_0_n_n.contr.Idx) :
    (dot_S256x2048_S512x2048_S256x512_1_1_0_0_n_n.rhsIdx i q 0).val = (i 1).val := by
  unfold DotDims.rhsIdx
  rw [dif_neg (show ¬(0 : Fin S512x2048.rank) ∈ dot_S256x2048_S512x2048_S256x512_1_1_0_0_n_n.rhsBatch by decide), dif_pos (show (0 : Fin S512x2048.rank) ∈ dot_S256x2048_S512x2048_S256x512_1_1_0_0_n_n.rhsNonContracting by decide)]
  rfl
private theorem rhs_pay3_1 (i : S256x512.Idx) (q : dot_S256x2048_S512x2048_S256x512_1_1_0_0_n_n.contr.Idx) :
    (dot_S256x2048_S512x2048_S256x512_1_1_0_0_n_n.rhsIdx i q 1).val = (q ⟨0, by decide⟩).val :=
  dot_S256x2048_S512x2048_S256x512_1_1_0_0_n_n.rhsIdx_val_of_single rfl i q

/-- The logits payload at an index: the sum over the 2048 features of the products of the query row and the key row. -/
private theorem pay3_apply (Q : FVec Ideal S256x2048 .bf16) (K : FVec Ideal S512x2048 .bf16) (i : Fin 256) (x : Fin 512) :
    k0_pay3 (F := Ideal) Q K (ix2 i x) = ∑ d : Fin 2048, Q (ix2 i d) * K (ix2 x d) := by
  unfold k0_pay3
  rw [shapeCast_self]
  simp only [matmul]
  rw [Ideal.matmul_constant_zero_apply, ← Equiv.sum_comp (ValueIdx.contrEquiv1 dot_S256x2048_S512x2048_S256x512_1_1_0_0_n_n 2048 rfl rfl).symm]
  refine Finset.sum_congr rfl fun k _ => ?_
  have hk := ValueIdx.contrEquiv1_symm_val dot_S256x2048_S512x2048_S256x512_1_1_0_0_n_n 2048 rfl rfl k
  have el : dot_S256x2048_S512x2048_S256x512_1_1_0_0_n_n.lhsIdx (ix2 i x) ((ValueIdx.contrEquiv1 dot_S256x2048_S512x2048_S256x512_1_1_0_0_n_n 2048 rfl rfl).symm k) = ix2 i k := funext fun a => Fin.ext (by
    match a with
    | ⟨0, _⟩ => exact lhs_pay3_0 _ _
    | ⟨1, _⟩ => exact (lhs_pay3_1 _ _).trans hk)
  have er : dot_S256x2048_S512x2048_S256x512_1_1_0_0_n_n.rhsIdx (ix2 i x) ((ValueIdx.contrEquiv1 dot_S256x2048_S512x2048_S256x512_1_1_0_0_n_n 2048 rfl rfl).symm k) = ix2 x k := funext fun a => Fin.ext (by
    match a with
    | ⟨0, _⟩ => exact rhs_pay3_0 _ _
    | ⟨1, _⟩ => exact (rhs_pay3_1 _ _).trans hk)
  rw [el, er]

/-- The named reciprocal of the temperature is 1/T. -/
private theorem named_invT :
    Named.named (F := Ideal) κ "inv_temperature" (φ := .f32) 0x3CB504F3#32 = ((Cert.Target.invT : ℝ) : EReal) :=
  IdealRules.named_const.ideal_named_scalar _ _ _ _ rfl

/-- The query scratch payload at an index: the block's entry times 1/T (the cast is the identity). -/
private theorem pay1_apply (X : FVec Ideal S256x2048 .f32) (i : Fin 256) (d : Fin 2048) :
    k0_pay1 (F := Ideal) X (ix2 i d) = X (ix2 i d) * ((Cert.Target.invT : ℝ) : EReal) := by
  unfold k0_pay1
  rw [shapeCast_self]
  show X (ix2 i d) * Named.named (F := Ideal) κ "inv_temperature" (φ := .f32) 0x3CB504F3#32 = _
  rw [named_invT]

/-- The key scratch payload at an index: the block's entry (the cast is the identity). -/
private theorem pay2_apply (X : FVec Ideal S512x2048 .f32) (x : Fin 512) (d : Fin 2048) :
    k0_pay2 (F := Ideal) X (ix2 x d) = X (ix2 x d) := by
  unfold k0_pay2
  rw [shapeCast_self]
  rfl

/-- The query window's block index at point t is (t / 8, 0). -/
private theorem idx_q : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
/-- The key window's block index at point t is (t, 0) in the first row block, and (0, 0) after it. -/
private theorem idx_k : ∀ t : Fin cfg0.N, win0_1.index t (0 : Fin 2) = (if t.val < 8 then t.val else 0) ∧ win0_1.index t (1 : Fin 2) = 0 :=
  (by decide +kernel : ∀ t : Fin grid0.N, win0_1.index t (0 : Fin 2) = (if t.val < 8 then t.val else 0) ∧ win0_1.index t (1 : Fin 2) = 0)

/-- The query block at point n is rows [256·(n/8), 256·(n/8) + 256) of the query array. -/
private theorem qblk_apply (c : Dev nD) (n : ℕ) (h : n < 128) (i : Fin 256) (d : Fin 2048) :
    qblk m c n h (ix2 i d) = V m c main_arg0 (ix2 (⟨256 * (n / 8) + i.val, by omega⟩ : Fin 4096) d) := by
  have e0 : win0_0.index ⟨n, lt_of_lt_of_eq h N_0.symm⟩ (0 : Fin 2) = n / 8 := (idx_q ⟨n, lt_of_lt_of_eq h N_0.symm⟩).1
  have e1 : win0_0.index ⟨n, lt_of_lt_of_eq h N_0.symm⟩ (1 : Fin 2) = 0 := (idx_q ⟨n, lt_of_lt_of_eq h N_0.symm⟩).2
  show V m c main_arg0 (((cfg0.win 0).blk ⟨n, lt_of_lt_of_eq h N_0.symm⟩).view.emb (ix2 i d)) = _
  refine congrArg (V m c main_arg0) (funext fun a => Fin.ext ?_)
  match a with
  | ⟨0, _⟩ =>
    show win0_0.index ⟨n, lt_of_lt_of_eq h N_0.symm⟩ (0 : Fin 2) * 256 + 1 * i.val = 256 * (n / 8) + i.val
    rw [e0]; omega
  | ⟨1, _⟩ =>
    show win0_0.index ⟨n, lt_of_lt_of_eq h N_0.symm⟩ (1 : Fin 2) * 2048 + 1 * d.val = d.val
    rw [e1]; omega

/-- The key block at a point n of the first row block is rows [512·n, 512·n + 512) of the key array. -/
private theorem kblk_apply (c : Dev nD) (n : ℕ) (h : n < 128) (h8 : n < 8) (x : Fin 512) (d : Fin 2048) :
    kblk m c n h (ix2 x d) = V m c main_arg1 (ix2 (⟨512 * n + x.val, by omega⟩ : Fin 4096) d) := by
  have e0 : win0_1.index ⟨n, lt_of_lt_of_eq h N_0.symm⟩ (0 : Fin 2) = n := by
    have := (idx_k ⟨n, lt_of_lt_of_eq h N_0.symm⟩).1
    rwa [if_pos (show n < 8 from h8)] at this
  have e1 : win0_1.index ⟨n, lt_of_lt_of_eq h N_0.symm⟩ (1 : Fin 2) = 0 := (idx_k ⟨n, lt_of_lt_of_eq h N_0.symm⟩).2
  show V m c main_arg1 (((cfg0.win 1).blk ⟨n, lt_of_lt_of_eq h N_0.symm⟩).view.emb (ix2 x d)) = _
  refine congrArg (V m c main_arg1) (funext fun a => Fin.ext ?_)
  match a with
  | ⟨0, _⟩ =>
    show win0_1.index ⟨n, lt_of_lt_of_eq h N_0.symm⟩ (0 : Fin 2) * 512 + 1 * x.val = 512 * n + x.val
    rw [e0]; omega
  | ⟨1, _⟩ =>
    show win0_1.index ⟨n, lt_of_lt_of_eq h N_0.symm⟩ (1 : Fin 2) * 2048 + 1 * d.val = d.val
    rw [e1]; omega

/-- The query and key arrays as the region finds them, entry by entry, as extended reals. -/
private abbrev qArr (c : Dev nD) : (⟨2, ![4096, 2048]⟩ : Shape).Idx → EReal := V m c main_arg0
private abbrev kArr (c : Dev nD) : (⟨2, ![4096, 2048]⟩ : Shape).Idx → EReal := V m c main_arg1

/-- The query scratch at an index: the query array's entry of row block n / 8, times 1/T. -/
private theorem Qs_apply (c : Dev nD) (n : ℕ) (h : n < 128) (i : Fin 256) (d : Fin 2048) :
    Qs (F := Ideal) m c n h (ix2 i d)
      = qArr m c (ix2 (⟨256 * (n / 8) + i.val, by omega⟩ : Fin 4096) d) * ((Cert.Target.invT : ℝ) : EReal) := by
  have e : 8 * (n / 8) / 8 = n / 8 := Nat.mul_div_cancel_left _ (by norm_num)
  unfold Qs
  refine (pay1_apply _ i d).trans ?_
  rw [qblk_apply]
  refine congrArg (fun z : EReal => z * ((Cert.Target.invT : ℝ) : EReal)) (congrArg (qArr m c) (funext fun a => Fin.ext ?_))
  match a with
  | ⟨0, _⟩ => show 256 * (8 * (n / 8) / 8) + i.val = 256 * (n / 8) + i.val; rw [e]
  | ⟨1, _⟩ => rfl

/-- Key chunk j' at an index: the key array's entry at row 512·j' + x. -/
private theorem Kc_apply (c : Dev nD) (j' : ℕ) (hj : j' < 8) (x : Fin 512) (d : Fin 2048) :
    Kc (F := Ideal) m c j' hj (ix2 x d) = kArr m c (ix2 (⟨512 * j' + x.val, by omega⟩ : Fin 4096) d) := by
  unfold Kc
  exact (pay2_apply _ x d).trans (kblk_apply m c j' (by omega) hj x d)

/-- The logits scratch at an index: the scaled dot product of query row 256·(n/8) + i with key row j. -/
private theorem Ls_apply (c : Dev nD) (n : ℕ) (h : n < 128) (i : Fin 256) (j : Fin 4096) :
    Ls (F := Ideal) m c n h (ix2 i j)
      = ∑ d : Fin 2048, (qArr m c (ix2 (⟨256 * (n / 8) + i.val, by omega⟩ : Fin 4096) d) * ((Cert.Target.invT : ℝ) : EReal))
          * kArr m c (ix2 j d) := by
  have hj : j.val / 512 < 8 := by omega
  have hx : j.val % 512 < 512 := by omega
  unfold Ls
  show k0_pay3 (F := Ideal) (Qs m c n h) (Kc m c (j.val / 512) hj) (ix2 i (⟨j.val % 512, hx⟩ : Fin 512)) = _
  refine (pay3_apply _ _ i ⟨j.val % 512, hx⟩).trans ?_
  refine Finset.sum_congr rfl fun d _ => ?_
  rw [Qs_apply, Kc_apply]
  refine congrArg (fun z : EReal => _ * z) (congrArg (kArr m c) (funext fun a => Fin.ext ?_))
  match a with
  | ⟨0, _⟩ => show 512 * (j.val / 512) + j.val % 512 = j.val; omega
  | ⟨1, _⟩ => rfl

/-- On finite inputs, entry (i, j) of the output block of row block `n / 8` is the target at row `256·(n / 8) + i`. -/
theorem Os_eq_G (c : Dev nD) (n : ℕ) (h : n < 128)
    (hq : ∀ x, ∃ r : ℝ, V m c main_arg0 x = (r : EReal)) (hk : ∀ x, ∃ r : ℝ, V m c main_arg1 x = (r : EReal))
    (i : Fin 256) (j : Fin 4096) :
    Os (F := Ideal) m c n h (ix2 i j)
      = Cert.Target.G (V m c main_arg0) (V m c main_arg1) (ix2 (⟨256 * (n / 8) + i.val, by omega⟩ : Fin 4096) j) := by
  have hq' : ∀ x, qArr m c x = (((qArr m c x).toReal : ℝ) : EReal) := fun x => by
    obtain ⟨r, hr⟩ := hq x
    have hr' : qArr m c x = (r : EReal) := hr
    rw [hr', EReal.toReal_coe]
  have hk' : ∀ x, kArr m c x = (((kArr m c x).toReal : ℝ) : EReal) := fun x => by
    obtain ⟨r, hr⟩ := hk x
    have hr' : kArr m c x = (r : EReal) := hr
    rw [hr', EReal.toReal_coe]
  have hL : ∀ j' : Fin 4096, Ls (F := Ideal) m c n h (ix2 i j')
      = ((Cert.Target.logit (qArr m c) (kArr m c) (⟨256 * (n / 8) + i.val, by omega⟩ : Fin 4096) j' : ℝ) : EReal) := by
    intro j'
    rw [Ls_apply]
    refine Eq.trans (Finset.sum_congr rfl fun d _ => ?_)
      (Cert.Softmax.ker_logit (ι := Fin 2048)
        (fun d => (qArr m c (ix2 (⟨256 * (n / 8) + i.val, by omega⟩ : Fin 4096) d)).toReal)
        (fun d => (kArr m c (ix2 j' d)).toReal) Cert.Target.invT)
    rw [← hq' (ix2 (⟨256 * (n / 8) + i.val, by omega⟩ : Fin 4096) d), ← hk' (ix2 j' d)]
  unfold Os
  refine (pay4_apply _ i j).trans ?_
  simp_rw [hL]
  exact Cert.Softmax.ker_row (κ := Fin 4096)
    (fun j' => Cert.Target.logit (qArr m c) (kArr m c) (⟨256 * (n / 8) + i.val, by omega⟩ : Fin 4096) j') j

end Cert.KernelIdeal.Gen

end
-- ==== Proof.KI.ValueAll.lean ====
/-
  At the ideal instance, on finite inputs, the specified whole result array is the row softmax of the scaled logits:
  row y lies in row block y / 256 at local row y % 256, and 256·(y / 256) + y % 256 = y.
-/
import proofs.«180405_g721554506538_bridgefix_236_8_alg».proof.Proof.KI.Inv
import proofs.«180405_g721554506538_bridgefix_236_8_alg».proof.Proof.KI.ValueIdeal
import Idealize.ShloMosaic.Lib.ValueIdx

set_option maxRecDepth 16384

noncomputable section

namespace Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt Ideal) ℓ)

/-- On finite inputs the specified whole array is the target. -/
theorem KOut_eq_G (c : Dev nD)
    (hq : ∀ x, ∃ r : ℝ, V m c main_arg0 x = (r : EReal)) (hk : ∀ x, ∃ r : ℝ, V m c main_arg1 x = (r : EReal)) :
    KOut (F := Ideal) m c = Cert.Target.G (V m c main_arg0) (V m c main_arg1) := by
  funext y
  have h0 : (y 0).val < 4096 := idx2_lt0 y
  have hn : 8 * ((y 0).val / 256) + 7 < 128 := by omega
  have hi : (y 0).val % 256 < 256 := by omega
  show Os (F := Ideal) m c (8 * ((y 0).val / 256) + 7) hn (ix2 (⟨(y 0).val % 256, hi⟩ : Fin 256) (y 1)) = _
  refine (Os_eq_G m c _ hn hq hk (⟨(y 0).val % 256, hi⟩ : Fin 256) (y 1)).trans ?_
  refine congrArg (Cert.Target.G (V m c main_arg0) (V m c main_arg1)) (funext fun a => Fin.ext ?_)
  match a with
  | ⟨0, _⟩ =>
    show 256 * ((8 * ((y 0).val / 256) + 7) / 8) + (y 0).val % 256 = (y 0).val
    omega
  | ⟨1, _⟩ => rfl

end Cert.KernelIdeal.Gen

end
-- ==== Proof.RefFrame.lean ====
/-
  The reference program is a host program with no kernel: its run (every weakly fair execution terminates, the
  result at the composed term of its operations, the arguments unchanged) gives its frame by dropping the result.
-/
import proofs.«180405_g721554506538_bridgefix_236_8_alg».proof.Defs
import proofs.«180405_g721554506538_bridgefix_236_8_alg».proof.Proof.Gen.ReferenceIdeal.Run
import proofs.«180405_g721554506538_bridgefix_236_8_alg».proof.Proof.Gen.ReferenceIdeal.Read

noncomputable section

namespace Cert.Proof.RefFrame

open Idealize.ShloMosaic Idealize.ShloMosaic.TcCoe Idealize.SL.Sem

/-- The reference terminates without a fault and leaves both argument arrays as it found them. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.RefValue.lean ====
/-
  The reference's result, index by index, on finite inputs: the logits q·kᵀ divided by the temperature, the row maximum
  subtracted, exponentiated, and divided by zero plus the row sum. The row maximum of finitely many reals is a real, and
  a softmax is unchanged by subtracting any real from its row, so the result is the row softmax of the scaled logits.
-/
import proofs.«180405_g721554506538_bridgefix_236_8_alg».proof.Proof.Gen.ReferenceIdeal.Read
import proofs.«180405_g721554506538_bridgefix_236_8_alg».proof.Proof.Softmax
import proofs.«180405_g721554506538_bridgefix_236_8_alg».proof.Proof.Target

noncomputable section

namespace Cert.ReferenceIdeal.RefValue

open Cert.ReferenceIdeal Cert.ReferenceIdeal.Gen Idealize.ShloMosaic Idealize.ShloMosaic.TcCoe Idealize.ShloMosaic.ValueIdx

/-- The word 0x423504F3 denotes the real 11863283 / 2^18 in single precision. -/
theorem ofBits_temp : Ideal.ofBits .f32 0x423504F3#32 = (((11863283 / 262144 : ℝ)) : EReal) := by
  simp [Ideal.ofBits, Ideal.ieee]
  rw [← EReal.coe_mul]
  congr 1
  norm_num

/-- The word 0xFF800000 denotes −∞ in single precision. -/
theorem ofBits_ninf : Ideal.ofBits .f32 0xFF800000#32 = (⊥ : EReal) := by
  simp [Ideal.ofBits, Ideal.ieee]

/-- An entry that is a real number is the coercion of its real part. -/
theorem coe_toReal_of {x : EReal} (h : ∃ r : ℝ, x = (r : EReal)) : x = ((x.toReal : ℝ) : EReal) := by
  obtain ⟨r, rfl⟩ := h
  rw [EReal.toReal_coe]

/-- The quotient of the dot product by the temperature, at (i, j), is the scaled logit. -/
theorem v3_at (q k : (⟨S4096x2048, .f32⟩ : BufTy).Contents (Elt Ideal))
    (hq : ∀ x, ∃ r : ℝ, q x = (r : EReal)) (hk : ∀ x, ∃ r : ℝ, k x = (r : EReal)) (i j : Fin 4096) :
    Read.val_main_v3 (F := Ideal) q k (ix2 i j) = ((Cert.Target.logit q k i j : ℝ) : EReal) := by
  rw [Read.val_main_v3_apply, Read.val_main_v1_apply, Read.val_main_v2_apply, Read.val_main_cst_apply]
  simp only [Read.val_main_v0_apply]
  have el : ∀ d : Fin 2048, Read.lidx_main_v1 (ix2 i j) d = ix2 i d := fun d => funext fun a => Fin.ext (by
    match a with
    | ⟨0, _⟩ => rfl
    | ⟨1, _⟩ => rfl)
  have er : ∀ d : Fin 2048, Read.idx_main_v0 (Read.ridx_main_v1 (ix2 i j) d) = ix2 j d := fun d => funext fun a => Fin.ext (by
    match a with
    | ⟨0, _⟩ => rfl
    | ⟨1, _⟩ => rfl)
  simp only [el, er, Ideal.hostDivf_def, Ideal.ofBits_def, ofBits_temp]
  have e : (∑ d : Fin 2048, q (ix2 i d) * k (ix2 j d))
      = ∑ d : Fin 2048, (((q (ix2 i d)).toReal : ℝ) : EReal) * (((k (ix2 j d)).toReal : ℝ) : EReal) :=
    Finset.sum_congr rfl fun d _ => by rw [← coe_toReal_of (hq _), ← coe_toReal_of (hk _)]
  rw [e, Cert.Softmax.ref_logit _ _ _ (by norm_num)]
  unfold Cert.Target.logit Cert.Target.invT
  congr 2
  norm_num

/-- The row index i with column c put back on the reduced axis is (i, c). -/
theorem lift_ix (h : S4096x4096.Reduces [1] S4096) (i : Fin 4096) (c : Fin (S4096x4096.size 1)) :
    h.lift (ix1 i) c = ix2 i (⟨c.val, c.isLt⟩ : Fin 4096) := by
  funext a
  apply Fin.ext
  fin_cases a <;> rfl

/-- The maximum of row i of the scaled logits, folded from −∞, is a real number. -/
theorem v4_at (q k : (⟨S4096x2048, .f32⟩ : BufTy).Contents (Elt Ideal))
    (hq : ∀ x, ∃ r : ℝ, q x = (r : EReal)) (hk : ∀ x, ∃ r : ℝ, k x = (r : EReal)) (i : Fin 4096) :
    ∃ m : ℝ, Read.val_main_v4 (F := Ideal) q k (ix1 i) = (m : EReal) := by
  obtain ⟨m, hm⟩ := Cert.Softmax.fold_max_real (κ := Fin 4096) (fun j => Cert.Target.logit q k i j)
  refine ⟨m, ?_⟩
  have h : S4096x4096.Reduces [1] S4096 := by decide
  unfold Read.val_main_v4
  rw [Host.reduce_eq_fold_single FloatOps.maximumf _ _ reducesTo_S4096x4096_S4096_d1 h h_S_, ← hm]
  have hf : (Read.val_main_v3 (F := Ideal) q k ∘ h.lift (ix1 i))
      = fun j : Fin 4096 => ((Cert.Target.logit q k i j : ℝ) : EReal) :=
    funext fun j => by rw [Function.comp_apply, lift_ix, v3_at q k hq hk]; rfl
  rw [hf, Read.val_main_cst_0_apply, Ideal.ofBits_def, ofBits_ninf]
  rfl

/-- The larger of −∞ and the row maximum, at row i, is a real number. -/
theorem v6_at (q k : (⟨S4096x2048, .f32⟩ : BufTy).Contents (Elt Ideal))
    (hq : ∀ x, ∃ r : ℝ, q x = (r : EReal)) (hk : ∀ x, ∃ r : ℝ, k x = (r : EReal)) (i : Fin 4096) :
    ∃ m : ℝ, Read.val_main_v6 (F := Ideal) q k (ix1 i) = (m : EReal) := by
  obtain ⟨m, hm⟩ := v4_at q k hq hk i
  refine ⟨m, ?_⟩
  rw [Read.val_main_v6_apply, Read.val_main_v5_apply, Read.val_main_cst_1_apply, hm, Ideal.maximumf_def,
    Ideal.ofBits_def, ofBits_ninf]
  exact max_bot_left _

/-- The exponential of the shifted logit at (i, j), for the real m that the shift of row i is. -/
theorem v10_at (q k : (⟨S4096x2048, .f32⟩ : BufTy).Contents (Elt Ideal))
    (hq : ∀ x, ∃ r : ℝ, q x = (r : EReal)) (hk : ∀ x, ∃ r : ℝ, k x = (r : EReal)) (i j : Fin 4096) (m : ℝ)
    (hm : Read.val_main_v6 (F := Ideal) q k (ix1 i) = (m : EReal)) :
    Read.val_main_v10 (F := Ideal) q k (ix2 i j)
      = Ideal.exp (((Cert.Target.logit q k i j : ℝ) : EReal) - (m : EReal)) := by
  rw [Read.val_main_v10_apply, Read.val_main_v9_apply, Read.val_main_v8_apply, Read.val_main_v7_apply,
    v3_at q k hq hk]
  have e : Read.idx_main_v7 (Read.idx_main_v8 (ix2 i j)) = ix1 i := funext fun a => Fin.ext (by
    match a with
    | ⟨0, _⟩ => rfl)
  rw [e, hm, Ideal.hostUnary_exp_def, Ideal.subf_def]

/-- On finite inputs the reference's result array is the row softmax of the scaled logits. -/
theorem ref_eq_G (q k : (⟨S4096x2048, .f32⟩ : BufTy).Contents (Elt Ideal))
    (hq : ∀ x, ∃ r : ℝ, q x = (r : EReal)) (hk : ∀ x, ∃ r : ℝ, k x = (r : EReal)) :
    Cert.ReferenceIdeal.Read.val_main_v14 (F := Ideal) q k = Cert.Target.G q k := by
  funext y
  obtain ⟨i, j, rfl⟩ : ∃ (i j : Fin 4096), y = ix2 i j := ⟨y 0, y 1, eq_ix2 y⟩
  obtain ⟨m, hm⟩ := v6_at q k hq hk i
  rw [Read.val_main_v14_apply, Read.val_main_v13_apply, Read.val_main_v12_apply, Read.val_main_v11_apply,
    Read.val_main_cst_2_apply]
  have e : Read.idx_main_v12 (Read.idx_main_v13 (ix2 i j)) = ix1 i := funext fun a => Fin.ext (by
    match a with
    | ⟨0, _⟩ => rfl)
  have e' : ∀ c : Fin 4096, Read.idx_main_v11 (ix1 i) c = ix2 i c := fun c => funext fun a => Fin.ext (by
    match a with
    | ⟨0, _⟩ => rfl
    | ⟨1, _⟩ => rfl)
  have hv : ∀ c : Fin 4096, Read.val_main_v10 (F := Ideal) q k (ix2 i c)
      = Ideal.exp (((Cert.Target.logit q k i c : ℝ) : EReal) - (m : EReal)) := fun c => v10_at q k hq hk i c m hm
  simp only [e, e', hv, Ideal.hostDivf_def, Ideal.ofBits_def, Ideal.ofBits_zero_f32]
  unfold Cert.Target.G
  exact Cert.Softmax.ref_row (fun j' => Cert.Target.logit q k i j') m j

end Cert.ReferenceIdeal.RefValue

end
-- ==== Proof.Finite.lean ====
/-
  From the printed precondition to plain finiteness: the precondition function, evaluated at Ideal on the two argument
  arrays, is the conjunction of "every |x| < +∞" over both arrays; when it is all ones every entry of both is a real number.
-/
import proofs.«180405_g721554506538_bridgefix_236_8_alg».proof.Pre_finite_inputs
import Idealize.ShloMosaic.PureOps.Ideal
import Idealize.ShloMosaic.Lib.ReduceAll

noncomputable section

namespace Cert.Proof.Finite

open Idealize.ShloMosaic

/-- The word 0x7F800000 denotes +∞ in single precision. -/
theorem ofBits_inf : Ideal.ofBits .f32 0x7F800000#32 = (⊤ : EReal) := by
  simp [Ideal.ofBits, Ideal.ieee]

/-- An extended real whose absolute value `max x (-x)` compares below +∞ is a real number. -/
theorem real_of_abs_lt (x : EReal)
    (h : Ideal.cmp .olt (max x (-x)) (Ideal.ofBits .f32 0x7F800000#32) = 1#1) : ∃ r : ℝ, x = (r : EReal) := by
  rw [ofBits_inf] at h
  have hlt : max x (-x) < (⊤ : EReal) := by
    by_contra hn
    simp [Ideal.cmp, hn] at h
  induction x using EReal.rec with
  | bot => simp at hlt
  | top => simp at hlt
  | coe r => exact ⟨r, rfl⟩

/-- The scalar shape has one index. -/
instance : Subsingleton Cert.Pre_finite_inputs.S_.Idx := ⟨fun a b => funext fun d => d.elim0⟩

/-- If the precondition holds of the arrays `a` and `b` at Ideal, every entry of each is a real number. -/
theorem finite_of_pre [Cert.Pre_finite_inputs.Facts]
    (a b : FVec Ideal Cert.Pre_finite_inputs.S4096x2048 .f32)
    (h : Cert.Pre_finite_inputs.fn (F := Ideal) a b = fun _ => 1#1) :
    (∀ x, ∃ r : ℝ, a x = (r : EReal)) ∧ (∀ x, ∃ r : ℝ, b x = (r : EReal)) := by
  have h0 := congrFun h (fun d => d.elim0)
  unfold Cert.Pre_finite_inputs.fn at h0
  dsimp only [andi] at h0
  obtain ⟨ha, hb⟩ := IntOp.andi_eq_one.1 h0
  constructor
  · intro x
    have e := Host.reduce_andi_all _ _ _ _ _ ha x
    exact real_of_abs_lt (a x) e
  · intro x
    have e := Host.reduce_andi_all _ _ _ _ _ hb x
    exact real_of_abs_lt (b x) e

end Cert.Proof.Finite

end
-- ==== Proof.lean ====
/-
  The certificate of the fused scaled-dot-product softmax kernel against its reference.

  Both programs compute, for queries q and keys k (4096 rows of 2048 features each), the row softmax of the logits
  q·kᵀ / T with T = 11863283 / 2^18. The reference divides the logits by T, subtracts each row's maximum, exponentiates
  and divides by the row sum. The kernel walks a 16 × 8 grid (row block r of 256 queries, key chunk c of 512 keys): at
  c = 0 it stores the row block's queries times the named reciprocal 1/T, at r = 0 it stores key chunk c, at every
  point it stores the product of the stored queries with stored key chunk c into columns [512·c, 512·c + 512) of a
  logits scratch, and at c = 7 it writes exp(L)·(1/Σ exp(L)) of the whole logits block to the output block. The
  three scratches persist between grid points, so the frame carries an invariant over the points done (which key
  chunks and which logits columns are in place); the invariant determines the output block at c = 7 as a function
  of the inputs alone, and the sixteen output blocks cover the result.

  Over the extended reals, on finite inputs: a cast is the identity, (q·(1/T))·kᵀ is (1/T)·(q·kᵀ) entry by entry since
  all entries are real, and exp(x − m)/Σ exp(x − m) = exp(x)/Σ exp(x) = exp(x)·(1/Σ exp(x)) for any real shift m, the row
  maximum of finitely many reals being real. Finiteness of the inputs is exactly what the precondition states.
-/
import proofs.«180405_g721554506538_bridgefix_236_8_alg».proof.Defs
import proofs.«180405_g721554506538_bridgefix_236_8_alg».proof.Proof.Gen.Kernel
import proofs.«180405_g721554506538_bridgefix_236_8_alg».proof.Proof.Gen.KernelIdeal
import proofs.«180405_g721554506538_bridgefix_236_8_alg».proof.Proof.Gen.ReferenceIdeal
import proofs.«180405_g721554506538_bridgefix_236_8_alg».proof.Proof.Gen.Pre_finite_inputs
import proofs.«180405_g721554506538_bridgefix_236_8_alg».proof.Proof.K.Body
import proofs.«180405_g721554506538_bridgefix_236_8_alg».proof.Proof.KI.Body
import proofs.«180405_g721554506538_bridgefix_236_8_alg».proof.Proof.KI.Final
import proofs.«180405_g721554506538_bridgefix_236_8_alg».proof.Proof.KI.ValueAll
import proofs.«180405_g721554506538_bridgefix_236_8_alg».proof.Proof.RefFrame
import proofs.«180405_g721554506538_bridgefix_236_8_alg».proof.Proof.RefValue
import proofs.«180405_g721554506538_bridgefix_236_8_alg».proof.Proof.Finite
import Idealize.ShloMosaic.Adequacy
import Idealize.ShloMosaic.Init
import Idealize.ShloMosaic.PureOps.IdealRules

noncomputable section

namespace Cert.Proof

open Idealize.ShloMosaic Idealize.ShloMosaic.TcCoe Idealize.SL.Sem

/-- The one rewrite of the idealization: the kernel's scale constant is named 1/T, the exact reciprocal of the
    temperature the reference divides by. -/
theorem preserves : Cert.preserves_Kernel_KernelIdeal :=
  IdealRules.named_const.statement Cert.KernelIdeal.κ "inv_temperature" .f32 0x3CB504F3#32 ((262144 / 11863283 : ℝ) : EReal) rfl

/-- On finite inputs both programs end with the row softmax of the scaled logits. -/
theorem algebraic [Cert.KernelIdeal.Facts] [Cert.ReferenceIdeal.Facts] [Cert.Pre_finite_inputs.Facts] :
    Cert.algebraic_KernelIdeal_ReferenceIdeal := by
  intro m ρ m' ρ' hpre hagree
  have hfin := fun c => Cert.Proof.Finite.finite_of_pre _ _ (hpre c)
  refine ⟨fun c => Cert.KernelIdeal.Gen.KOut (F := Ideal) m c, ?_, ?_⟩
  · refine (θ_run Cert.KernelIdeal.defs _ _).mono (fun r h c => ⟨?_, ?_, ?_⟩) (Cert.KernelIdeal.Gen.run_main (F := Ideal) m ρ)
    · exact ((h c).1 2).trans (Cert.KernelIdeal.Gen.final2 m c)
    · exact ((h c).1 0).trans (((Cert.KernelIdeal.Gen.dats m 0 c).arrAt_in 0 rfl _).trans
        ((Cert.KernelIdeal.Gen.A_eq m c 0).trans (Cert.KernelIdeal.Gen.V_main_arg0 m c)))
    · exact ((h c).1 1).trans (((Cert.KernelIdeal.Gen.dats m 0 c).arrAt_in 1 rfl _).trans
        ((Cert.KernelIdeal.Gen.A_eq m c 1).trans (Cert.KernelIdeal.Gen.V_main_arg1 m c)))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v14_eq, (hagree c).1, (hagree c).2,
      Cert.ReferenceIdeal.RefValue.ref_eq_G _ _ (hfin c).1 (hfin c).2]
    exact (Cert.KernelIdeal.Gen.KOut_eq_G m c (hfin c).1 (hfin c).2).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.Proof.RefFrame.frame_ri,
  preserves,
  algebraic⟩

end Cert.Proof

end
